-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S8192x2048 : Shape := ⟨2, ![8192, 2048]⟩
abbrev S2048x8192 : Shape := ⟨2, ![2048, 8192]⟩
abbrev S16384x4 : Shape := ⟨2, ![16384, 4]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S16384x4 : S_.BroadcastsInDim S16384x4 (![] : Fin 0 → Fin S16384x4.rank)
  reducesTo_S16384x4_S_d0_1 : S16384x4.ReducesTo [0, 1] S_

variable [Facts]

def fn_part1 {F : FTy → Type} [FloatOps F] (main_arg4 : FVec F S16384x4 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S16384x4 .f32 := Host.absf main_arg4
  let main_cst_6 : FVec F S_ .f32 := constant S_ .f32 0x7F800000#32
  let main_v20 : FVec F S16384x4 .f32 := broadcastInDim S16384x4 ![] bcast_S_S16384x4 main_cst_6
  let main_v21 : IVec S16384x4 1 := cmpf .olt main_v19 main_v20
  let main_c_7 : IVec S_ 1 := constantI S_ 1 1#1
  let main_v22 : IVec S_ 1 := (fun x v => Host.reduce IntOp.andi x v reducesTo_S16384x4_S_d0_1 h_S_) main_v21 main_c_7
  let main_v23 : IVec S_ 1 := andi main_v18 main_v22
  main_v23

def fn {F : FTy → Type} [FloatOps F] (main_arg0 : FVec F S2x2048x2048 .f32) (main_arg1 : FVec F S8192x2048 .f32) (main_arg2 : FVec F S8192x2048 .f32) (main_arg3 : FVec F S2048x8192 .f32) (main_arg4 : FVec F S16384x4 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_v13 main_v16
-- ==== Kernel.lean ====
abbrev S2x2048x2048 : Shape := ⟨3, ![2, 2048, 2048]⟩
abbrev S8192x2048 : Shape := ⟨2, ![8192, 2048]⟩
abbrev S2048x8192 : Shape := ⟨2, ![2048, 8192]⟩
abbrev S16384x4 : Shape := ⟨2, ![16384, 4]⟩
abbrev S8192x4 : Shape := ⟨2, ![8192, 4]⟩
abbrev S1x256x2048 : Shape := ⟨3, ![1, 256, 2048]⟩
abbrev S512x2048 : Shape := ⟨2, ![512, 2048]⟩
abbrev S2048x512 : Shape := ⟨2, ![2048, 512]⟩
abbrev S512x4 : Shape := ⟨2, ![512, 4]⟩
abbrev S8x8192 : Shape := ⟨2, ![8, 8192]⟩
abbrev S256x2048 : Shape := ⟨2, ![256, 2048]⟩
abbrev S256x512 : Shape := ⟨2, ![256, 512]⟩
abbrev S3x512 : Shape := ⟨2, ![3, 512]⟩
abbrev S259x512 : Shape := ⟨2, ![259, 512]⟩
abbrev S512x1 : Shape := ⟨2, ![512, 1]⟩
abbrev S512 : Shape := ⟨1, ![512]⟩
abbrev S1x512 : Shape := ⟨2, ![1, 512]⟩

abbrev nBuf : Space → Nat
  | .hbm => 12
  | .vmem => 17
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S16384x4, .f32⟩
  | .hbm, ⟨5, _⟩ => ⟨S2x2048x2048, .bf16⟩
  | .hbm, ⟨6, _⟩ => ⟨S8192x2048, .bf16⟩
  | .hbm, ⟨7, _⟩ => ⟨S8192x2048, .bf16⟩
  | .hbm, ⟨8, _⟩ => ⟨S2048x8192, .bf16⟩
  | .hbm, ⟨9, _⟩ => ⟨S8192x4, .f32⟩
  | .hbm, ⟨10, _⟩ => ⟨S8192x4, .f32⟩
  | .hbm, ⟨11, _⟩ => ⟨S2x2048x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x512, .bf16⟩
  | .local _ .vmem, ⟨7, _⟩ => ⟨S2048x512, .bf16⟩
  | .local _ .vmem, ⟨8, _⟩ => ⟨S512x4, .f32⟩
  | .local _ .vmem, ⟨9, _⟩ => ⟨S512x4, .f32⟩
  | .local _ .vmem, ⟨10, _⟩ => ⟨S512x4, .f32⟩
  | .local _ .vmem, ⟨11, _⟩ => ⟨S512x4, .f32⟩
  | .local _ .vmem, ⟨12, _⟩ => ⟨S1x256x2048, .f32⟩
  | .local _ .vmem, ⟨13, _⟩ => ⟨S1x256x2048, .f32⟩
  | .local _ .vmem, ⟨14, _⟩ => ⟨S8x8192, .f32⟩
  | .local _ .vmem, ⟨15, _⟩ => ⟨S8x8192, .f32⟩
  | .local _ .vmem, ⟨16, _⟩ => ⟨S256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 16], ![false, false, false]⟩

def k0_mult1 (i : grid0.Coords) : BitVec 32 :=
  let arg2 : BitVec 32 := BitVec.ofNat 32 (i 2).val
  let c512_i32 : BitVec 32 := 512#32
  let v13 : BitVec 32 := Scalar.muli arg2 c512_i32
  v13
def k0_off1 (i : grid0.Coords) : Fin 2 → Nat :=
  let c5 : Index := 5#32
  let arg2 : BitVec 32 := BitVec.ofNat 32 (i 2).val
  let c512_i32 : BitVec 32 := 512#32
  let v13 : BitVec 32 := Scalar.muli arg2 c512_i32
  let v14 : BitVec 32 := v13
  let v15 : Index := Scalar.indexCast v14
  ![5, v15.toNat]
def k0_cond2 (i : grid0.Coords) : BitVec 1 :=
  let arg2 : BitVec 32 := BitVec.ofNat 32 (i 2).val
  let c15_i32 : BitVec 32 := 15#32
  let v109 : BitVec 1 := Scalar.cmpi .eq arg2 c15_i32
  let v110 : BitVec 32 := Scalar.extui v109
  let c0_i32_25 : BitVec 32 := 0#32
  let v111 : BitVec 1 := Scalar.cmpi .ne v110 c0_i32_25
  v111

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  bitsLt_bf16_f32 : FTy.bits .bf16 < FTy.bits .f32
  slices_S16384x4_S8192x4_0_0 : S16384x4.Slices ![0, 0] S8192x4
  slices_S16384x4_S8192x4_8192_0 : S16384x4.Slices ![8192, 0] S8192x4
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  transposes_S512x2048_p1_0_S2048x512 : S512x2048.Transposes [1, 0] S2048x512
  h_S3x512 : 0 < S3x512.numel
  concatenates_S3x512_S256x512_S259x512_d0 : Shape.Concatenates [S3x512, S256x512] S259x512 0
  inb_S512x4_S512x4_0_0 : ∀ a, (![0, 0] : Fin 2 → Nat) a + S512x4.size a ≤ S512x4.size a
  h_S512x4 : 0 < S512x4.numel
  shapeCasts_S512x4_S512x4 : S512x4.ShapeCasts S512x4
  slices_S259x512_o0_0_S256x512 : S259x512.Slices ![0, 0] S256x512
  slices_S512x4_o0_0_S512x1 : S512x4.Slices ![0, 0] S512x1
  shapeCasts_S512x1_S512 : S512x1.ShapeCasts S512
  shapeCasts_S512_S1x512 : S512.ShapeCasts S1x512
  broadcasts_S1x512_S256x512 : S1x512.Broadcasts S256x512
  slices_S259x512_o1_0_S256x512 : S259x512.Slices ![1, 0] S256x512
  slices_S512x4_o0_1_S512x1 : S512x4.Slices ![0, 1] S512x1
  slices_S259x512_o2_0_S256x512 : S259x512.Slices ![2, 0] S256x512
  slices_S512x4_o0_2_S512x1 : S512x4.Slices ![0, 2] S512x1
  slices_S259x512_o3_0_S256x512 : S259x512.Slices ![3, 0] S256x512
  slices_S512x4_o0_3_S512x1 : S512x4.Slices ![0, 3] S512x1
  slices_S256x512_o253_0_S3x512 : S256x512.Slices ![253, 0] S3x512
  shapeCasts_S3x512_S3x512 : S3x512.ShapeCasts S3x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  transposes_S2048x512_p1_0_S512x2048 : S2048x512.Transposes [1, 0] S512x2048
  shapeCasts_S256x2048_S1x256x2048 : S256x2048.ShapeCasts S1x256x2048
  dot_S256x2048_S2048x512_S256x512_1_0_0_1_n_n_wf : DotDims.WF S256x2048 S2048x512 S256x512 [1] [0] [0] [1] [] []
  dot_S256x512_S512x2048_S256x2048_1_0_0_1_n_n_wf : DotDims.WF S256x512 S512x2048 S256x2048 [1] [0] [0] [1] [] []
  hrank0 : 0 < grid0.rank
  k0_mult1_dvd : ∀ i : grid0.Coords, 512 ∣ (k0_mult1 i).toNat
  k0_off1_inb : ∀ i : grid0.Coords, ∀ a, (k0_off1 i) a + S3x512.size a ≤ S8x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S2x2048x2048.size a
  hwx0_0 : ∀ i : grid0.Coords, EltTy.bits .bf16 = 32 ∨ (Rect.block (s := S2x2048x2048) S1x256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .bf16 = 32 ∨ (Rect.block (s := S8192x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x8192.size a
  hwx0_3 : ∀ i : grid0.Coords, EltTy.bits .bf16 = 32 ∨ (Rect.block (s := S2048x8192) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4.size a ≤ S8192x4.size a
  hwx0_4 : ∀ i : grid0.Coords, EltTy.bits .f32 = 32 ∨ (Rect.block (s := S8192x4) S512x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4.size a ≤ S8192x4.size a
  hwx0_5 : ∀ i : grid0.Coords, EltTy.bits .f32 = 32 ∨ (Rect.block (s := S8192x4) S512x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x2048.size a ≤ S2x2048x2048.size a
  hwx0_6 : ∀ i : grid0.Coords, EltTy.bits .f32 = 32 ∨ (Rect.block (s := S2x2048x2048) S1x256x2048.size (cc0_transform_6 i) (hinb0_6 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_v0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x4.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S2x2048x2048 : Shape := ⟨3, ![2, 2048, 2048]⟩
abbrev S8192x2048 : Shape := ⟨2, ![8192, 2048]⟩
abbrev S2048x8192 : Shape := ⟨2, ![2048, 8192]⟩
abbrev S16384x4 : Shape := ⟨2, ![16384, 4]⟩
abbrev S2x2048x8192 : Shape := ⟨3, ![2, 2048, 8192]⟩
abbrev S8192x4 : Shape := ⟨2, ![8192, 4]⟩
abbrev S_ : Shape := ⟨0, ![]⟩
abbrev S2x2051x8192 : Shape := ⟨3, ![2, 2051, 8192]⟩
abbrev S8192x1 : Shape := ⟨2, ![8192, 1]⟩
abbrev S8192 : Shape := ⟨1, ![8192]⟩
abbrev S1x1x8192 : Shape := ⟨3, ![1, 1, 8192]⟩

abbrev nBuf : Space → Nat
  | .hbm => 82
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S16384x4, .f32⟩
  | .hbm, ⟨5, _⟩ => ⟨S2x2048x8192, .f32⟩
  | .hbm, ⟨6, _⟩ => ⟨S2x2048x8192, .f32⟩
  | .hbm, ⟨7, _⟩ => ⟨S8192x4, .f32⟩
  | .hbm, ⟨8, _⟩ => ⟨S_, .i32⟩
  | .hbm, ⟨9, _⟩ => ⟨S_, .f32⟩
  | .hbm, ⟨10, _⟩ => ⟨S2x2051x8192, .f32⟩
  | .hbm, ⟨11, _⟩ => ⟨S2x2048x8192, .f32⟩
  | .hbm, ⟨12, _⟩ => ⟨S8192x1, .f32⟩
  | .hbm, ⟨13, _⟩ => ⟨S8192, .f32⟩
  | .hbm, ⟨14, _⟩ => ⟨S1x1x8192, .f32⟩
  | .hbm, ⟨15, _⟩ => ⟨S2x2048x8192, .f32⟩
  | .hbm, ⟨16, _⟩ => ⟨S2x2048x8192, .f32⟩
  | .hbm, ⟨17, _⟩ => ⟨S2x2048x8192, .f32⟩
  | .hbm, ⟨18, _⟩ => ⟨S8192x1, .f32⟩
  | .hbm, ⟨19, _⟩ => ⟨S8192, .f32⟩
  | .hbm, ⟨20, _⟩ => ⟨S1x1x8192, .f32⟩
  | .hbm, ⟨21, _⟩ => ⟨S2x2048x8192, .f32⟩
  | .hbm, ⟨22, _⟩ => ⟨S2x2048x8192, .f32⟩
  | .hbm, ⟨23, _⟩ => ⟨S2x2048x8192, .f32⟩
  | .hbm, ⟨24, _⟩ => ⟨S2x2048x8192, .f32⟩
  | .hbm, ⟨25, _⟩ => ⟨S8192x1, .f32⟩
  | .hbm, ⟨26, _⟩ => ⟨S8192, .f32⟩
  | .hbm, ⟨27, _⟩ => ⟨S1x1x8192, .f32⟩
  | .hbm, ⟨28, _⟩ => ⟨S2x2048x8192, .f32⟩
  | .hbm, ⟨29, _⟩ => ⟨S2x2048x8192, .f32⟩
  | .hbm, ⟨30, _⟩ => ⟨S2x2048x8192, .f32⟩
  | .hbm, ⟨31, _⟩ => ⟨S2x2048x8192, .f32⟩
  | .hbm, ⟨32, _⟩ => ⟨S8192x1, .f32⟩
  | .hbm, ⟨33, _⟩ => ⟨S8192, .f32⟩
  | .hbm, ⟨34, _⟩ => ⟨S1x1x8192, .f32⟩
  | .hbm, ⟨35, _⟩ => ⟨S2x2048x8192, .f32⟩
  | .hbm, ⟨36, _⟩ => ⟨S2x2048x8192, .f32⟩
  | .hbm, ⟨37, _⟩ => ⟨S2x2048x8192, .f32⟩
  | .hbm, ⟨38, _⟩ => ⟨S2x2048x8192, .f32⟩
  | .hbm, ⟨39, _⟩ => ⟨S8192x4, .f32⟩
  | .hbm, ⟨40, _⟩ => ⟨S_, .i32⟩
  | .hbm, ⟨41, _⟩ => ⟨S_, .f32⟩
  | .hbm, ⟨42, _⟩ => ⟨S2x2051x8192, .f32⟩
  | .hbm, ⟨43, _⟩ => ⟨S2x2048x8192, .f32⟩
  | .hbm, ⟨44, _⟩ => ⟨S8192x1, .f32⟩
  | .hbm, ⟨45, _⟩ => ⟨S8192, .f32⟩
  | .hbm, ⟨46, _⟩ => ⟨S1x1x8192, .f32⟩
  | .hbm, ⟨47, _⟩ => ⟨S2x2048x8192, .f32⟩
  | .hbm, ⟨48, _⟩ => ⟨S2x2048x8192, .f32⟩
  | .hbm, ⟨49, _⟩ => ⟨S2x2048x8192, .f32⟩
  | .hbm, ⟨50, _⟩ => ⟨S8192x1, .f32⟩
  | .hbm, ⟨51, _⟩ => ⟨S8192, .f32⟩
  | .hbm, ⟨52, _⟩ => ⟨S1x1x8192, .f32⟩
  | .hbm, ⟨53, _⟩ => ⟨S2x2048x8192, .f32⟩
  | .hbm, ⟨54, _⟩ => ⟨S2x2048x8192, .f32⟩
  | .hbm, ⟨55, _⟩ => ⟨S2x2048x8192, .f32⟩
  | .hbm, ⟨56, _⟩ => ⟨S2x2048x8192, .f32⟩
  | .hbm, ⟨57, _⟩ => ⟨S8192x1, .f32⟩
  | .hbm, ⟨58, _⟩ => ⟨S8192, .f32⟩
  | .hbm, ⟨59, _⟩ => ⟨S1x1x8192, .f32⟩
  | .hbm, ⟨60, _⟩ => ⟨S2x2048x8192, .f32⟩
  | .hbm, ⟨61, _⟩ => ⟨S2x2048x8192, .f32⟩
  | .hbm, ⟨62, _⟩ => ⟨S2x2048x8192, .f32⟩
  | .hbm, ⟨63, _⟩ => ⟨S2x2048x8192, .f32⟩
  | .hbm, ⟨64, _⟩ => ⟨S8192x1, .f32⟩
  | .hbm, ⟨65, _⟩ => ⟨S8192, .f32⟩
  | .hbm, ⟨66, _⟩ => ⟨S1x1x8192, .f32⟩
  | .hbm, ⟨67, _⟩ => ⟨S2x2048x8192, .f32⟩
  | .hbm, ⟨68, _⟩ => ⟨S2x2048x8192, .f32⟩
  | .hbm, ⟨69, _⟩ => ⟨S2x2048x8192, .f32⟩
  | .hbm, ⟨70, _⟩ => ⟨S2x2048x8192, .f32⟩
  | .hbm, ⟨71, _⟩ => ⟨S2x2048x8192, .f32⟩
  | .hbm, ⟨72, _⟩ => ⟨S2x2048x8192, .f32⟩
  | .hbm, ⟨73, _⟩ => ⟨S_, .f32⟩
  | .hbm, ⟨74, _⟩ => ⟨S2x2048x8192, .f32⟩
  | .hbm, ⟨75, _⟩ => ⟨S2x2048x8192, .f32⟩
  | .hbm, ⟨76, _⟩ => ⟨S_, .f32⟩
  | .hbm, ⟨77, _⟩ => ⟨S2x2048x8192, .f32⟩
  | .hbm, ⟨78, _⟩ => ⟨S2x2048x8192, .f32⟩
  | .hbm, ⟨79, _⟩ => ⟨S2x2048x8192, .f32⟩
  | .hbm, ⟨80, _⟩ => ⟨S2x2048x8192, .f32⟩
  | .hbm, ⟨81, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_0 : Ref sig .tc := ⟨.hbm, 40, rfl⟩
abbrev main_call1_v0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_call2_v0 : Ref sig .tc := ⟨.hbm, 71, rfl⟩
abbrev main_call2_v1 : Ref sig .tc := ⟨.hbm, 72, rfl⟩
abbrev main_call2_cst : Ref sig .tc := ⟨.hbm, 73, rfl⟩
abbrev main_call2_v2 : Ref sig .tc := ⟨.hbm, 74, rfl⟩
abbrev main_call2_v3 : Ref sig .tc := ⟨.hbm, 75, rfl⟩
abbrev main_call2_cst_0 : Ref sig .tc := ⟨.hbm, 76, rfl⟩
abbrev main_call2_v4 : Ref sig .tc := ⟨.hbm, 77, rfl⟩
abbrev main_call2_v5 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]

class Facts₀ : Prop where
  slices_S16384x4_S8192x4_0_0 : S16384x4.Slices ![0, 0] S8192x4
  pads_S2x2048x8192_S2x2051x8192_000_300_000 : S2x2048x8192.Pads (![0, 3, 0] : Fin 3 → Nat) ![0, 0, 0] ![0, 0, 0] S2x2051x8192
  h_S_ : 0 < S_.numel
  slices_S2x2051x8192_S2x2048x8192_0_0_0 : S2x2051x8192.Slices ![0, 0, 0] S2x2048x8192
  slices_S8192x4_S8192x1_0_0 : S8192x4.Slices ![0, 0] S8192x1
  shapeCasts_S8192x1_S8192 : S8192x1.ShapeCasts S8192
  bcast_S8192_S1x1x8192_2 : S8192.BroadcastsInDim S1x1x8192 (![2] : Fin 1 → Fin S1x1x8192.rank)
  bcast_S1x1x8192_S2x2048x8192_0_1_2 : S1x1x8192.BroadcastsInDim S2x2048x8192 (![0, 1, 2] : Fin 3 → Fin S2x2048x8192.rank)
  slices_S2x2051x8192_S2x2048x8192_0_1_0 : S2x2051x8192.Slices ![0, 1, 0] S2x2048x8192
  slices_S8192x4_S8192x1_0_1 : S8192x4.Slices ![0, 1] S8192x1
  slices_S2x2051x8192_S2x2048x8192_0_2_0 : S2x2051x8192.Slices ![0, 2, 0] S2x2048x8192
  slices_S8192x4_S8192x1_0_2 : S8192x4.Slices ![0, 2] S8192x1
  slices_S2x2051x8192_S2x2048x8192_0_3_0 : S2x2051x8192.Slices ![0, 3, 0] S2x2048x8192
  slices_S8192x4_S8192x1_0_3 : S8192x4.Slices ![0, 3] S8192x1
  slices_S16384x4_S8192x4_8192_0 : S16384x4.Slices ![8192, 0] S8192x4
  bcast_S_S2x2048x8192 : S_.BroadcastsInDim S2x2048x8192 (![] : Fin 0 → Fin S2x2048x8192.rank)
  dot_S2x2048x2048_S8192x2048_S2x2048x8192_2_1_01_0_n_n_wf : DotDims.WF S2x2048x2048 S8192x2048 S2x2048x8192 [2] [1] [0, 1] [0] [] []
  dot_S2x2048x8192_S2048x8192_S2x2048x2048_2_1_01_0_n_n_wf : DotDims.WF S2x2048x8192 S2048x8192 S2x2048x2048 [2] [1] [0, 1] [0] [] []

variable [Facts₀]

def dot_S2x2048x2048_S8192x2048_S2x2048x8192_2_1_01_0_n_n : DotDims S2x2048x2048 S8192x2048 S2x2048x8192 where
  lhsContracting := [2]
  rhsContracting := [1]
  lhsNonContracting := [0, 1]
  rhsNonContracting := [0]
  lhsBatch := []
  rhsBatch := []
  wf := dot_S2x2048x2048_S8192x2048_S2x2048x8192_2_1_01_0_n_n_wf
def dot_S2x2048x8192_S2048x8192_S2x2048x2048_2_1_01_0_n_n : DotDims S2x2048x8192 S2048x8192 S2x2048x2048 where
  lhsContracting := [2]
  rhsContracting := [1]
  lhsNonContracting := [0, 1]
  rhsNonContracting := [0]
  lhsBatch := []
  rhsBatch := []
  wf := dot_S2x2048x8192_S2048x8192_S2x2048x2048_2_1_01_0_n_n_wf

class Facts : Prop extends Facts₀ where

variable [Facts]
-- ==== Proof.BitsSetup.lean ====
/-
  The fused gated feed-forward kernel runs on a grid of 2 × 8 × 16 points (batch, row block, column block of the
  hidden width), the column block innermost. Three things depend on where a point sits on that innermost axis: at its
  first column block the running sum of the down projection is cleared, at its last the sum is copied into the
  result block, and in between neither happens. This module decides those conditions over the grid in closed form
  (the point's linear position modulo 16), names the memory the body is handed, and says where the result window
  is left untouched.
-/
import proofs.«119931_j53343493816972_1_alg».proof.Proof.Gen.Kernel.Frame
import proofs.«119931_j53343493816972_1_alg».proof.Proof.Gen.Kernel.Skeleton
import Idealize.ShloMosaic.Lib.Pipeline.Value
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The body's two branch conditions and its row-block test -/

/-- The point is at the first column block: the running sum is cleared there. -/
abbrev condFirst (i : grid0.Coords) : Prop :=
  (Scalar.cmpi .ne (Scalar.extui (Scalar.cmpi .eq (BitVec.ofNat 32 (i 2).val) 0#32)) 0#32) = 1#1

/-- The point is at the last column block: the running sum is copied out there. -/
abbrev condLast (i : grid0.Coords) : Prop := k0_cond2 i = 1#1

theorem hcondFirst : ∀ t : Fin cfg0.N, condFirst (grid0.coords t) ↔ t.val % 16 = 0 :=
  (by decide +kernel : ∀ t : Fin grid0.N, condFirst (grid0.coords t) ↔ t.val % 16 = 0)

theorem hcondLast : ∀ t : Fin cfg0.N, condLast (grid0.coords t) ↔ t.val % 16 = 15 :=
  (by decide +kernel : ∀ t : Fin grid0.N, condLast (grid0.coords t) ↔ t.val % 16 = 15)

/-- The row-block coordinate is zero exactly at the first sixteen points of each batch entry. -/
theorem hrowFirst : ∀ t : Fin cfg0.N,
    Scalar.cmpi .eq (BitVec.ofNat 32 ((grid0.coords t) 1).val) 0#32 = 1#1 ↔ t.val % 128 < 16 :=
  (by decide +kernel : ∀ t : Fin grid0.N,
    Scalar.cmpi .eq (BitVec.ofNat 32 ((grid0.coords t) 1).val) 0#32 = 1#1 ↔ t.val % 128 < 16)

/-- The three carried rows sit at rows 5 to 7 of the halo buffers, at the columns of the point's column block. -/
theorem hoff : ∀ t : Fin cfg0.N, k0_off1 (grid0.coords t) = ![5, (t.val % 16) * 512] :=
  (by decide +kernel : ∀ t : Fin grid0.N, k0_off1 (grid0.coords t) = ![5, (t.val % 16) * 512])

/-! ## Where the result window is idle -/

theorem liveAt_in (w : Fin 7) (hw : w.val < 6) : ∀ t : Fin cfg0.N, cfg0.idle w (grid0.coords t) = false := by
  intro t
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl

theorem idleAt_out : ∀ t : Fin cfg0.N, ¬condLast (grid0.coords t) → cfg0.idle 6 (grid0.coords t) = true := by decide +kernel
theorem noFlush_out : ∀ t : Fin cfg0.N, ¬condLast (grid0.coords t) → (cfg0.win 6).flush t = false := by decide +kernel
theorem liveAt_out : ∀ t : Fin cfg0.N, condLast (grid0.coords t) → cfg0.idle 6 (grid0.coords t) = false := by decide +kernel

/-! ## The memory the body is handed -/

abbrev ms0 (t : Fin cfg0.N) : Memref sig .tc .vmem S1x256x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x2048 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x4 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x4 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256x2048 .f32 := win0_6.stage (cfg0.slots t 6)
abbrev hs6 (t : Fin cfg0.N) : (ms6 t).IsWhole := hstage0_6 ((cfg0.slots t 6).cast nbuf0_6)

/-- The two halo buffers (gate and up branch) and the running sum of the down projection. -/
abbrev haloG : Memref sig .tc .vmem S8x8192 .f32 := Memref.whole cc0_scratch0
abbrev haloU : Memref sig .tc .vmem S8x8192 .f32 := Memref.whole cc0_scratch1
abbrev accM : Memref sig .tc .vmem S256x2048 .f32 := Memref.whole cc0_scratch2

/-- What the region hands the body besides the windows: the three buffers above at some contents each, and the
    generator register at some state. -/
theorem PhiA_eq (c : Dev nD) :
    (Pipeline.ΦA spec0 c : sProp 𝕄)
      = iprop(iprop((∃ d, owns (c : Thread nD τ) haloG fullShare d) ∗ (∃ d, owns (c : Thread nD τ) haloU fullShare d)
          ∗ (∃ d, owns (c : Thread nD τ) accM fullShare d)) ∗ (∃ r, prngReg c r)) := by
  unfold Pipeline.ΦA; rw [scopedRest0_eq]; simp only [haloG, haloU, accM, owns_whole]; try rfl

/-! ## What one point computes, as functions of the blocks it is handed -/

/-- The rows 5 to 7 of a halo buffer at the columns of the point's column block. -/
abbrev haloRect (i : grid0.Coords) : Rect S8x8192 := Rect.unit (s := S8x8192) (k0_off1 i) S3x512.size (k0_off1_inb i)

/-- The whole running-sum buffer, and the whole result block. -/
abbrev accRect : Rect S256x2048 := Rect.unit (s := S256x2048) ![0, 0] S256x2048.size inb_S256x2048_S256x2048_0_0
abbrev outRect : Rect S1x256x2048 := Rect.unit (s := S1x256x2048) ![0, 0, 0] S1x256x2048.size inb_S1x256x2048_S1x256x2048_0_0_0

theorem hz2 : (![0, 0] : Fin 2 → Nat) = fun _ => 0 := funext fun a => by fin_cases a <;> rfl
theorem hz3 : (![0, 0, 0] : Fin 3 → Nat) = fun _ => 0 := funext fun a => by fin_cases a <;> rfl

/-- The three carried rows as the body reads them from a halo buffer holding `e`. -/
def haloRows (i : grid0.Coords) (e : Vec F S8x8192 .f32) : Vec F S3x512 .f32 := View.ld e (haloRect i)

/-- The gate branch after the causal taps: the block's projection, the carried rows `h` above it. -/
def gateMixed (i : grid0.Coords) (x0 : Vec F S1x256x2048 .bf16) (x1 : Vec F S512x2048 .bf16) (x4 : Vec F S512x4 .f32)
    (h : Vec F S3x512 .f32) : FVec F S256x512 .f32 :=
  k0_pay14 (k0_pay6 x0 x1) (k0_pay8 i x0 x1 h) (k0_pay10 x4) (k0_pay12 i x0 x1 h) (k0_pay13 x4)

/-- The up branch after the causal taps. -/
def upMixed (i : grid0.Coords) (x0 : Vec F S1x256x2048 .bf16) (x2 : Vec F S512x2048 .bf16) (x5 : Vec F S512x4 .f32)
    (h : Vec F S3x512 .f32) : FVec F S256x512 .f32 :=
  k0_pay15 (k0_pay7 x0 x2) (k0_pay9 i x0 x2 h) (k0_pay11 x5)

/-- The rows a point leaves in the halo buffers: the last three rows of its two projections. -/
def gateTail (x0 : Vec F S1x256x2048 .bf16) (x1 : Vec F S512x2048 .bf16) : FVec F S3x512 .f32 := k0_pay16 (k0_pay6 x0 x1)
def upTail (x0 : Vec F S1x256x2048 .bf16) (x2 : Vec F S512x2048 .bf16) : FVec F S3x512 .f32 := k0_pay1 (k0_pay17 (k0_pay7 x0 x2))

/-- The running sum after the point, from the running sum `acc` before it. -/
def accStep (i : grid0.Coords) (x0 : Vec F S1x256x2048 .bf16) (x1 x2 : Vec F S512x2048 .bf16) (x3 : Vec F S2048x512 .bf16)
    (x4 x5 : Vec F S512x4 .f32) (hg hu : Vec F S3x512 .f32) (acc : Vec F S256x2048 .f32) : FVec F S256x2048 .f32 :=
  k0_pay2 (gateMixed i x0 x1 x4 hg) (upMixed i x0 x2 x5 hu) x3 acc

end Cert.Kernel.Hand

end
-- ==== Proof.BitsRunFirst.lean ====
/-
  The body at the first column block of a row block: the running sum is cleared, then everything happens as at an
  inner point, so the running sum ends at the clear value plus this block's contribution. The result window is not
  touched.
-/
import proofs.«119931_j53343493816972_1_alg».proof.Proof.BitsSetup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The stores the body leaves at a first column block (last first): in the running sum the clearing store and, over it, the block's contribution. -/
noncomputable def runFirst (c : Dev nD) (i : grid0.Coords) (arg3 : Memref sig .tc .vmem S1x256x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S512x4 .f32) (harg7 : arg7.IsWhole) (arg8 : Memref sig .tc .vmem S512x4 .f32) (harg8 : arg8.IsWhole) (arg9 : Memref sig .tc .vmem S1x256x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S256x2048 .f32) (harg12 : arg12.IsWhole) (hc0 : condFirst i) (hc1 : ¬condLast i)
    (x0 : Vec F S1x256x2048 .bf16) (x1 x2 : Vec F S512x2048 .bf16) (x3 : Vec F S2048x512 .bf16) (x4 x5 : Vec F S512x4 .f32)
    (e10 e11 : Vec F S8x8192 .f32) (e12 : Vec F S256x2048 .f32) :
    Σ' (L6 : List (View.Piece (Elt F) S1x256x2048 .f32)) (LS10 : List (View.Piece (Elt F) S8x8192 .f32)) (LS11 : List (View.Piece (Elt F) S8x8192 .f32)), { LS12 : List (View.Piece (Elt F) S256x2048 .f32) //
      ∀ (xi6 : Vec F S1x256x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6
            ∗ owns (c : Thread nD τ) arg10 fullShare e10 ∗ owns (c : Thread nD τ) arg11 fullShare e11 ∗ owns (c : Thread nD τ) arg12 fullShare e12
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6
                ∗ (arg10.view.loc (c : Thread nD τ) ↦[arg10.view.set]{fullShare} arg10.view.writes (Elt F) (harg10.unread e10) LS10)
                ∗ (arg11.view.loc (c : Thread nD τ) ↦[arg11.view.set]{fullShare} arg11.view.writes (Elt F) (harg11.unread e11) LS11)
                ∗ (arg12.view.loc (c : Thread nD τ) ↦[arg12.view.set]{fullShare} arg12.view.writes (Elt F) (harg12.unread e12) LS12)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f10, %hf10, H10⟩, ⟨%f11, %hf11, H11⟩, ⟨%f12, %hf12, H12⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg10.eq_unread hf10; obtain rfl := harg11.eq_unread hf11; obtain rfl := harg12.eq_unread hf12
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H10]; · iexact H10
    isplitl [H11]; · iexact H11
    iexact H12

set_option maxHeartbeats 4000000 in
theorem runFirst_halo (c : Dev nD) (i : grid0.Coords) (arg3 : Memref sig .tc .vmem S1x256x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S512x4 .f32) (harg7 : arg7.IsWhole) (arg8 : Memref sig .tc .vmem S512x4 .f32) (harg8 : arg8.IsWhole) (arg9 : Memref sig .tc .vmem S1x256x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S256x2048 .f32) (harg12 : arg12.IsWhole) (hc0 : condFirst i) (hc1 : ¬condLast i)
    (x0 : Vec F S1x256x2048 .bf16) (x1 x2 : Vec F S512x2048 .bf16) (x3 : Vec F S2048x512 .bf16) (x4 x5 : Vec F S512x4 .f32)
    (e10 e11 : Vec F S8x8192 .f32) (e12 : Vec F S256x2048 .f32) :
    (runFirst c i arg3 harg3 arg4 harg4 arg5 harg5 arg6 harg6 arg7 harg7 arg8 harg8 arg9 harg9 arg10 harg10 arg11 harg11 arg12 harg12 hc0 hc1 x0 x1 x2 x3 x4 x5 e10 e11 e12).2.1 = [⟨haloRect i, gateTail x0 x1⟩]
    ∧ (runFirst c i arg3 harg3 arg4 harg4 arg5 harg5 arg6 harg6 arg7 harg7 arg8 harg8 arg9 harg9 arg10 harg10 arg11 harg11 arg12 harg12 hc0 hc1 x0 x1 x2 x3 x4 x5 e10 e11 e12).2.2.1 = [⟨haloRect i, upTail x0 x2⟩] := by
  unfold runFirst; dsimp only; sl_unfold_run_names
  unfold gateTail upTail
  simp only [View.readAt_eq_ld, harg3.read_unread, harg4.read_unread, harg5.read_unread,
    View.ld_unit_zero (S := S1x256x2048) hz3, View.ld_unit_zero (S := S512x2048) hz2]
  exact ⟨trivial, trivial⟩

set_option maxHeartbeats 4000000 in
theorem runFirst_acc (c : Dev nD) (i : grid0.Coords) (arg3 : Memref sig .tc .vmem S1x256x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S512x4 .f32) (harg7 : arg7.IsWhole) (arg8 : Memref sig .tc .vmem S512x4 .f32) (harg8 : arg8.IsWhole) (arg9 : Memref sig .tc .vmem S1x256x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S256x2048 .f32) (harg12 : arg12.IsWhole) (hc0 : condFirst i) (hc1 : ¬condLast i)
    (x0 : Vec F S1x256x2048 .bf16) (x1 x2 : Vec F S512x2048 .bf16) (x3 : Vec F S2048x512 .bf16) (x4 x5 : Vec F S512x4 .f32)
    (e10 e11 : Vec F S8x8192 .f32) (e12 : Vec F S256x2048 .f32) :
    (runFirst c i arg3 harg3 arg4 harg4 arg5 harg5 arg6 harg6 arg7 harg7 arg8 harg8 arg9 harg9 arg10 harg10 arg11 harg11 arg12 harg12 hc0 hc1 x0 x1 x2 x3 x4 x5 e10 e11 e12).2.2.2.1 = [⟨accRect, accStep i x0 x1 x2 x3 x4 x5 (haloRows i e10) (haloRows i e11) k0_pay4⟩, ⟨accRect, k0_pay4⟩] := by
  unfold runFirst; dsimp only; sl_unfold_run_names
  unfold accStep gateMixed upMixed haloRows
  simp only [View.readAt_eq_ld, harg3.read_unread, harg4.read_unread, harg5.read_unread, harg6.read_unread, harg7.read_unread, harg8.read_unread,
    harg10.read_unread, harg11.read_unread, harg12.read_unread,
    View.ld_unit_zero (S := S1x256x2048) hz3, View.ld_unit_zero (S := S512x2048) hz2, View.ld_unit_zero (S := S2048x512) hz2,
    View.ld_unit_zero (S := S512x4) hz2, View.ld_unit_zero (S := S256x2048) hz2, View.readCov_unit_zero (S := S256x2048) _ hz2]

end Cert.Kernel.Hand

end
-- ==== Proof.BitsRunMid.lean ====
/-
  The body at a point strictly inside the innermost axis (neither its first nor its last column block): both
  projections of the row block are formed, the three carried rows of each branch are read from the halo buffers
  and then replaced by the last three rows just formed, the causal taps and the gating are applied, and the block's
  contribution to the down projection is added to the running sum. The result window is not touched.
-/
import proofs.«119931_j53343493816972_1_alg».proof.Proof.BitsRunFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The stores the body leaves in the two halo buffers and in the running sum (last first), with the proof that from the inputs' blocks, the result buffer and the three buffers at named contents the body runs to the continuation holding the inputs and the result buffer as they were and the three buffers with those stores made. -/
noncomputable def runMid (c : Dev nD) (i : grid0.Coords) (arg3 : Memref sig .tc .vmem S1x256x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S512x4 .f32) (harg7 : arg7.IsWhole) (arg8 : Memref sig .tc .vmem S512x4 .f32) (harg8 : arg8.IsWhole) (arg9 : Memref sig .tc .vmem S1x256x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S256x2048 .f32) (harg12 : arg12.IsWhole) (hc0 : ¬condFirst i) (hc1 : ¬condLast i)
    (x0 : Vec F S1x256x2048 .bf16) (x1 x2 : Vec F S512x2048 .bf16) (x3 : Vec F S2048x512 .bf16) (x4 x5 : Vec F S512x4 .f32)
    (e10 e11 : Vec F S8x8192 .f32) (e12 : Vec F S256x2048 .f32) :
    Σ' (L6 : List (View.Piece (Elt F) S1x256x2048 .f32)) (LS10 : List (View.Piece (Elt F) S8x8192 .f32)) (LS11 : List (View.Piece (Elt F) S8x8192 .f32)), { LS12 : List (View.Piece (Elt F) S256x2048 .f32) //
      ∀ (xi6 : Vec F S1x256x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6
            ∗ owns (c : Thread nD τ) arg10 fullShare e10 ∗ owns (c : Thread nD τ) arg11 fullShare e11 ∗ owns (c : Thread nD τ) arg12 fullShare e12
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6
                ∗ (arg10.view.loc (c : Thread nD τ) ↦[arg10.view.set]{fullShare} arg10.view.writes (Elt F) (harg10.unread e10) LS10)
                ∗ (arg11.view.loc (c : Thread nD τ) ↦[arg11.view.set]{fullShare} arg11.view.writes (Elt F) (harg11.unread e11) LS11)
                ∗ (arg12.view.loc (c : Thread nD τ) ↦[arg12.view.set]{fullShare} arg12.view.writes (Elt F) (harg12.unread e12) LS12)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f10, %hf10, H10⟩, ⟨%f11, %hf11, H11⟩, ⟨%f12, %hf12, H12⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg10.eq_unread hf10; obtain rfl := harg11.eq_unread hf11; obtain rfl := harg12.eq_unread hf12
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H10]; · iexact H10
    isplitl [H11]; · iexact H11
    iexact H12

set_option maxHeartbeats 4000000 in
theorem runMid_halo (c : Dev nD) (i : grid0.Coords) (arg3 : Memref sig .tc .vmem S1x256x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S512x4 .f32) (harg7 : arg7.IsWhole) (arg8 : Memref sig .tc .vmem S512x4 .f32) (harg8 : arg8.IsWhole) (arg9 : Memref sig .tc .vmem S1x256x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S256x2048 .f32) (harg12 : arg12.IsWhole) (hc0 : ¬condFirst i) (hc1 : ¬condLast i)
    (x0 : Vec F S1x256x2048 .bf16) (x1 x2 : Vec F S512x2048 .bf16) (x3 : Vec F S2048x512 .bf16) (x4 x5 : Vec F S512x4 .f32)
    (e10 e11 : Vec F S8x8192 .f32) (e12 : Vec F S256x2048 .f32) :
    (runMid c i arg3 harg3 arg4 harg4 arg5 harg5 arg6 harg6 arg7 harg7 arg8 harg8 arg9 harg9 arg10 harg10 arg11 harg11 arg12 harg12 hc0 hc1 x0 x1 x2 x3 x4 x5 e10 e11 e12).2.1 = [⟨haloRect i, gateTail x0 x1⟩]
    ∧ (runMid c i arg3 harg3 arg4 harg4 arg5 harg5 arg6 harg6 arg7 harg7 arg8 harg8 arg9 harg9 arg10 harg10 arg11 harg11 arg12 harg12 hc0 hc1 x0 x1 x2 x3 x4 x5 e10 e11 e12).2.2.1 = [⟨haloRect i, upTail x0 x2⟩] := by
  unfold runMid; dsimp only; sl_unfold_run_names
  unfold gateTail upTail
  simp only [View.readAt_eq_ld, harg3.read_unread, harg4.read_unread, harg5.read_unread,
    View.ld_unit_zero (S := S1x256x2048) hz3, View.ld_unit_zero (S := S512x2048) hz2]
  exact ⟨trivial, trivial⟩

set_option maxHeartbeats 4000000 in
theorem runMid_acc (c : Dev nD) (i : grid0.Coords) (arg3 : Memref sig .tc .vmem S1x256x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S512x4 .f32) (harg7 : arg7.IsWhole) (arg8 : Memref sig .tc .vmem S512x4 .f32) (harg8 : arg8.IsWhole) (arg9 : Memref sig .tc .vmem S1x256x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S256x2048 .f32) (harg12 : arg12.IsWhole) (hc0 : ¬condFirst i) (hc1 : ¬condLast i)
    (x0 : Vec F S1x256x2048 .bf16) (x1 x2 : Vec F S512x2048 .bf16) (x3 : Vec F S2048x512 .bf16) (x4 x5 : Vec F S512x4 .f32)
    (e10 e11 : Vec F S8x8192 .f32) (e12 : Vec F S256x2048 .f32) :
    (runMid c i arg3 harg3 arg4 harg4 arg5 harg5 arg6 harg6 arg7 harg7 arg8 harg8 arg9 harg9 arg10 harg10 arg11 harg11 arg12 harg12 hc0 hc1 x0 x1 x2 x3 x4 x5 e10 e11 e12).2.2.2.1 = [⟨accRect, accStep i x0 x1 x2 x3 x4 x5 (haloRows i e10) (haloRows i e11) e12⟩] := by
  unfold runMid; dsimp only; sl_unfold_run_names
  unfold accStep gateMixed upMixed haloRows
  simp only [View.readAt_eq_ld, harg3.read_unread, harg4.read_unread, harg5.read_unread, harg6.read_unread, harg7.read_unread, harg8.read_unread,
    harg10.read_unread, harg11.read_unread, harg12.read_unread,
    View.ld_unit_zero (S := S1x256x2048) hz3, View.ld_unit_zero (S := S512x2048) hz2, View.ld_unit_zero (S := S2048x512) hz2,
    View.ld_unit_zero (S := S512x4) hz2, View.ld_unit_zero (S := S256x2048) hz2, View.readCov_unit_zero (S := S256x2048) _ hz2]

end Cert.Kernel.Hand

end
-- ==== Proof.BitsRunLast.lean ====
/-
  The body at the last column block of a row block: everything happens as at an inner point, and then the running
  sum, now complete over all sixteen column blocks, is copied into the result block.
-/
import proofs.«119931_j53343493816972_1_alg».proof.Proof.BitsRunMid

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The stores the body leaves at a last column block (last first): besides those of an inner point, the running sum copied into the result block, which it covers. -/
noncomputable def runLast (c : Dev nD) (i : grid0.Coords) (arg3 : Memref sig .tc .vmem S1x256x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S512x4 .f32) (harg7 : arg7.IsWhole) (arg8 : Memref sig .tc .vmem S512x4 .f32) (harg8 : arg8.IsWhole) (arg9 : Memref sig .tc .vmem S1x256x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S256x2048 .f32) (harg12 : arg12.IsWhole) (hc0 : ¬condFirst i) (hc1 : condLast i)
    (x0 : Vec F S1x256x2048 .bf16) (x1 x2 : Vec F S512x2048 .bf16) (x3 : Vec F S2048x512 .bf16) (x4 x5 : Vec F S512x4 .f32)
    (e10 e11 : Vec F S8x8192 .f32) (e12 : Vec F S256x2048 .f32) :
    Σ' (L6 : List (View.Piece (Elt F) S1x256x2048 .f32)) (LS10 : List (View.Piece (Elt F) S8x8192 .f32)) (LS11 : List (View.Piece (Elt F) S8x8192 .f32)), { LS12 : List (View.Piece (Elt F) S256x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
            ∗ owns (c : Thread nD τ) arg10 fullShare e10 ∗ owns (c : Thread nD τ) arg11 fullShare e11 ∗ owns (c : Thread nD τ) arg12 fullShare e12
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6)
                ∗ (arg10.view.loc (c : Thread nD τ) ↦[arg10.view.set]{fullShare} arg10.view.writes (Elt F) (harg10.unread e10) LS10)
                ∗ (arg11.view.loc (c : Thread nD τ) ↦[arg11.view.set]{fullShare} arg11.view.writes (Elt F) (harg11.unread e11) LS11)
                ∗ (arg12.view.loc (c : Thread nD τ) ↦[arg12.view.set]{fullShare} arg12.view.writes (Elt F) (harg12.unread e12) LS12)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f10, %hf10, H10⟩, ⟨%f11, %hf11, H11⟩, ⟨%f12, %hf12, H12⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5

    obtain rfl := harg10.eq_unread hf10; obtain rfl := harg11.eq_unread hf11; obtain rfl := harg12.eq_unread hf12
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H10]; · iexact H10
    isplitl [H11]; · iexact H11
    iexact H12

set_option maxHeartbeats 4000000 in
theorem runLast_halo (c : Dev nD) (i : grid0.Coords) (arg3 : Memref sig .tc .vmem S1x256x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S512x4 .f32) (harg7 : arg7.IsWhole) (arg8 : Memref sig .tc .vmem S512x4 .f32) (harg8 : arg8.IsWhole) (arg9 : Memref sig .tc .vmem S1x256x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S256x2048 .f32) (harg12 : arg12.IsWhole) (hc0 : ¬condFirst i) (hc1 : condLast i)
    (x0 : Vec F S1x256x2048 .bf16) (x1 x2 : Vec F S512x2048 .bf16) (x3 : Vec F S2048x512 .bf16) (x4 x5 : Vec F S512x4 .f32)
    (e10 e11 : Vec F S8x8192 .f32) (e12 : Vec F S256x2048 .f32) :
    (runLast c i arg3 harg3 arg4 harg4 arg5 harg5 arg6 harg6 arg7 harg7 arg8 harg8 arg9 harg9 arg10 harg10 arg11 harg11 arg12 harg12 hc0 hc1 x0 x1 x2 x3 x4 x5 e10 e11 e12).2.1 = [⟨haloRect i, gateTail x0 x1⟩]
    ∧ (runLast c i arg3 harg3 arg4 harg4 arg5 harg5 arg6 harg6 arg7 harg7 arg8 harg8 arg9 harg9 arg10 harg10 arg11 harg11 arg12 harg12 hc0 hc1 x0 x1 x2 x3 x4 x5 e10 e11 e12).2.2.1 = [⟨haloRect i, upTail x0 x2⟩] := by
  unfold runLast; dsimp only; sl_unfold_run_names
  unfold gateTail upTail
  simp only [View.readAt_eq_ld, harg3.read_unread, harg4.read_unread, harg5.read_unread,
    View.ld_unit_zero (S := S1x256x2048) hz3, View.ld_unit_zero (S := S512x2048) hz2]
  exact ⟨trivial, trivial⟩

set_option maxHeartbeats 4000000 in
theorem runLast_acc (c : Dev nD) (i : grid0.Coords) (arg3 : Memref sig .tc .vmem S1x256x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S512x4 .f32) (harg7 : arg7.IsWhole) (arg8 : Memref sig .tc .vmem S512x4 .f32) (harg8 : arg8.IsWhole) (arg9 : Memref sig .tc .vmem S1x256x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S256x2048 .f32) (harg12 : arg12.IsWhole) (hc0 : ¬condFirst i) (hc1 : condLast i)
    (x0 : Vec F S1x256x2048 .bf16) (x1 x2 : Vec F S512x2048 .bf16) (x3 : Vec F S2048x512 .bf16) (x4 x5 : Vec F S512x4 .f32)
    (e10 e11 : Vec F S8x8192 .f32) (e12 : Vec F S256x2048 .f32) :
    (runLast c i arg3 harg3 arg4 harg4 arg5 harg5 arg6 harg6 arg7 harg7 arg8 harg8 arg9 harg9 arg10 harg10 arg11 harg11 arg12 harg12 hc0 hc1 x0 x1 x2 x3 x4 x5 e10 e11 e12).2.2.2.1 = [⟨accRect, accStep i x0 x1 x2 x3 x4 x5 (haloRows i e10) (haloRows i e11) e12⟩] := by
  unfold runLast; dsimp only; sl_unfold_run_names
  unfold accStep gateMixed upMixed haloRows
  simp only [View.readAt_eq_ld, harg3.read_unread, harg4.read_unread, harg5.read_unread, harg6.read_unread, harg7.read_unread, harg8.read_unread,
    harg10.read_unread, harg11.read_unread, harg12.read_unread,
    View.ld_unit_zero (S := S1x256x2048) hz3, View.ld_unit_zero (S := S512x2048) hz2, View.ld_unit_zero (S := S2048x512) hz2,
    View.ld_unit_zero (S := S512x4) hz2, View.ld_unit_zero (S := S256x2048) hz2, View.readCov_unit_zero (S := S256x2048) _ hz2]

set_option maxHeartbeats 4000000 in
theorem runLast_out (c : Dev nD) (i : grid0.Coords) (arg3 : Memref sig .tc .vmem S1x256x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S512x4 .f32) (harg7 : arg7.IsWhole) (arg8 : Memref sig .tc .vmem S512x4 .f32) (harg8 : arg8.IsWhole) (arg9 : Memref sig .tc .vmem S1x256x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S256x2048 .f32) (harg12 : arg12.IsWhole) (hc0 : ¬condFirst i) (hc1 : condLast i)
    (x0 : Vec F S1x256x2048 .bf16) (x1 x2 : Vec F S512x2048 .bf16) (x3 : Vec F S2048x512 .bf16) (x4 x5 : Vec F S512x4 .f32)
    (e10 e11 : Vec F S8x8192 .f32) (e12 : Vec F S256x2048 .f32) :
    (runLast c i arg3 harg3 arg4 harg4 arg5 harg5 arg6 harg6 arg7 harg7 arg8 harg8 arg9 harg9 arg10 harg10 arg11 harg11 arg12 harg12 hc0 hc1 x0 x1 x2 x3 x4 x5 e10 e11 e12).1
      = [⟨outRect, k0_pay3 (accStep i x0 x1 x2 x3 x4 x5 (haloRows i e10) (haloRows i e11) e12)⟩] := by
  unfold runLast; dsimp only; sl_unfold_run_names
  unfold accStep gateMixed upMixed haloRows
  simp only [View.readAt_eq_ld, harg3.read_unread, harg4.read_unread, harg5.read_unread, harg6.read_unread, harg7.read_unread, harg8.read_unread,
    harg10.read_unread, harg11.read_unread, harg12.read_unread,
    View.ld_unit_zero (S := S1x256x2048) hz3, View.ld_unit_zero (S := S512x2048) hz2, View.ld_unit_zero (S := S2048x512) hz2,
    View.ld_unit_zero (S := S512x4) hz2, View.ld_unit_zero (S := S256x2048) hz2, View.readCov_unit_zero (S := S256x2048) _ hz2]

end Cert.Kernel.Hand

end
-- ==== Proof.BitsPoints.lean ====
/-
  What every grid point computes, as functions of the argument arrays, and the bookkeeping of the three buffers the
  body carries from point to point.

  Point number n sits at batch entry n / 128, row block (n / 16) mod 8 and column block n mod 16. Its two
  projections depend only on its own input blocks. The three rows it needs from the row block above are those the
  point sixteen places earlier (same column block, previous row block) left in the halo buffers; at a first row block
  they are replaced by zeros, so nothing is needed there. The running sum of the down projection is cleared at every
  first column block and otherwise continues from the point before.

  The halo buffers' full contents are never named: all that is kept of them is that for each of the last sixteen
  points the rows it stored are still there (each of those points writes a different group of columns).
-/
import proofs.«119931_j53343493816972_1_alg».proof.Proof.BitsRunLast
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The input blocks at a point, at their literal types -/

abbrev xb (c : Dev nD) (t : Fin cfg0.N) : Vec F S1x256x2048 .bf16 := iblk m c 0 t
abbrev wgb (c : Dev nD) (t : Fin cfg0.N) : Vec F S512x2048 .bf16 := iblk m c 1 t
abbrev wub (c : Dev nD) (t : Fin cfg0.N) : Vec F S512x2048 .bf16 := iblk m c 2 t
abbrev wdb (c : Dev nD) (t : Fin cfg0.N) : Vec F S2048x512 .bf16 := iblk m c 3 t
abbrev cgb (c : Dev nD) (t : Fin cfg0.N) : Vec F S512x4 .f32 := iblk m c 4 t
abbrev cub (c : Dev nD) (t : Fin cfg0.N) : Vec F S512x4 .f32 := iblk m c 5 t

/-! ## The carried rows -/

/-- The point sixteen places earlier (the same column block of the row block above); for the first sixteen points,
    which need no carried rows, the point itself or an earlier one. -/
def above (t : Fin cfg0.N) : Fin cfg0.N := ⟨t.val - 16, lt_of_le_of_lt (Nat.sub_le _ _) t.isLt⟩

/-- The rows a point stores into the halo buffers: the last three rows of its own two projections. -/
def tailG (c : Dev nD) (t : Fin cfg0.N) : Vec F S3x512 .f32 := gateTail (xb m c t) (wgb m c t)
def tailU (c : Dev nD) (t : Fin cfg0.N) : Vec F S3x512 .f32 := upTail (xb m c t) (wub m c t)

/-- The rows a point is handed from the row block above. -/
def carriedG (c : Dev nD) (t : Fin cfg0.N) : Vec F S3x512 .f32 := tailG m c (above t)
def carriedU (c : Dev nD) (t : Fin cfg0.N) : Vec F S3x512 .f32 := tailU m c (above t)

/-! ## The running sum and the result block -/

/-- One point's update of the running sum. -/
def stepAt (c : Dev nD) (t : Fin cfg0.N) (acc : Vec F S256x2048 .f32) : Vec F S256x2048 .f32 :=
  accStep (grid0.coords t) (xb m c t) (wgb m c t) (wub m c t) (wdb m c t) (cgb m c t) (cub m c t) (carriedG m c t) (carriedU m c t) acc

/-- The running sum after point n: cleared before every first column block. -/
def accAfter (c : Dev nD) : (n : ℕ) → n < cfg0.N → Vec F S256x2048 .f32
  | 0, hn => stepAt m c ⟨0, hn⟩ k0_pay4
  | n + 1, hn => stepAt m c ⟨n + 1, hn⟩ (if (n + 1) % 16 = 0 then k0_pay4 else accAfter c n (Nat.lt_of_succ_lt hn))

theorem accAfter_first (c : Dev nD) (t : Fin cfg0.N) (h : t.val % 16 = 0) :
    accAfter m c t.val t.isLt = stepAt m c t k0_pay4 := by
  obtain ⟨n, hn⟩ := t
  cases n with
  | zero => rfl
  | succ n => show stepAt m c _ (if (n + 1) % 16 = 0 then _ else _) = _; rw [if_pos h]

theorem accAfter_next (c : Dev nD) (t : Fin cfg0.N) (h : ¬t.val % 16 = 0) :
    accAfter m c t.val t.isLt = stepAt m c t (accAfter m c (t.val - 1) (lt_of_le_of_lt (Nat.sub_le _ _) t.isLt)) := by
  obtain ⟨n, hn⟩ := t
  cases n with
  | zero => exact absurd (Nat.zero_mod _) h
  | succ n => show stepAt m c _ (if (n + 1) % 16 = 0 then _ else _) = _; rw [if_neg h]; rfl

/-- What the result block's buffer holds after a last column block: the completed running sum. -/
def outAfter (c : Dev nD) (t : Fin cfg0.N) : Vec F S1x256x2048 .f32 := k0_pay3 (accAfter m c t.val t.isLt)

/-! ## What is kept of the halo buffers -/

/-- Before point n the two halo buffers still hold, for each of the (at most) sixteen points before it, the rows that
    point stored. -/
def HaloOK (c : Dev nD) (n : ℕ) (eG eU : Vec F S8x8192 .f32) : Prop :=
  ∀ p : Fin cfg0.N, p.val < n → n ≤ p.val + 16 →
    haloRows (grid0.coords p) eG = tailG m c p ∧ haloRows (grid0.coords p) eU = tailU m c p

/-- A halo buffer after a store of three rows at a point's columns. -/
def haloPut (i : grid0.Coords) (e : Vec F S8x8192 .f32) (w : Vec F S3x512 .f32) : Vec F S8x8192 .f32 :=
  haloG.view.read (Elt F) (haloG.view.writes (Elt F) ((Memref.isWhole_whole cc0_scratch0).unread e) [⟨haloRect i, w⟩])

/-- The rows just stored read back. -/
theorem haloRows_put_same (i : grid0.Coords) (e : Vec F S8x8192 .f32) (w : Vec F S3x512 .f32) :
    haloRows i (haloPut i e w) = w := by
  funext x
  unfold haloRows haloPut
  exact View.read_writes_cons_emb haloG.view _ (haloRect i) w [] x

/-- Rows at other columns are untouched by the store. -/
theorem haloRows_put_other (t t' : Fin cfg0.N) (h : t.val % 16 ≠ t'.val % 16) (e : Vec F S8x8192 .f32) (w : Vec F S3x512 .f32) :
    haloRows (grid0.coords t') (haloPut (grid0.coords t) e w) = haloRows (grid0.coords t') e := by
  funext x
  unfold haloRows haloPut
  have hx1 : (x 1).val < 512 := (x 1).isLt
  have hm : t.val % 16 < 16 := Nat.mod_lt t.val (by decide : 16 > 0)
  have hm' : t'.val % 16 < 16 := Nat.mod_lt t'.val (by decide : 16 > 0)
  -- the column read: the other point's column offset plus the position within the block
  have hy : (((haloRect (grid0.coords t')).emb x) 1).val = (t'.val % 16) * 512 + 1 * (x 1).val := by
    rw [Rect.emb_apply]
    show k0_off1 (grid0.coords t') 1 + 1 * (x 1).val = _
    rw [hoff t']; rfl
  -- it lies outside the 512 columns stored, so the store is not seen; what remains is the buffer as it was
  refine (View.read_writes_cons_unit_of_not_mem haloG.view _ (k0_off1_inb (grid0.coords t)) w []
    ((haloRect (grid0.coords t')).emb x) (hoff t) 1 ?_).trans ?_
  · rw [hy]
    show _ < (t.val % 16) * 512 ∨ (t.val % 16) * 512 + 512 ≤ _
    omega
  · rw [View.writes_nil, (Memref.isWhole_whole cc0_scratch0).read_unread e]
    rfl

/-- The bookkeeping moves on by one point: after point t has stored its rows, they and the rows of the fifteen points
    before it are in place. -/
theorem HaloOK_step (c : Dev nD) (t : Fin cfg0.N) (eG eU : Vec F S8x8192 .f32) (h : HaloOK m c t.val eG eU) :
    HaloOK m c (t.val + 1) (haloPut (grid0.coords t) eG (tailG m c t)) (haloPut (grid0.coords t) eU (tailU m c t)) := by
  intro p hp1 hp2
  by_cases hpt : p = t
  · -- the point itself: its rows were just stored
    subst hpt
    exact ⟨haloRows_put_same _ _ _, haloRows_put_same _ _ _⟩
  · -- one of the fifteen points before: 0 < t - p < 16, so another column block, untouched by the store
    have hne : p.val ≠ t.val := fun hv => hpt (Fin.ext hv)
    have hmod : t.val % 16 ≠ p.val % 16 := by omega
    obtain ⟨hG, hU⟩ := h p (by omega) (by omega)
    exact ⟨(haloRows_put_other t p hmod eG _).trans hG, (haloRows_put_other t p hmod eU _).trans hU⟩

/-- At a point below the first row block the rows handed down are those the point above stored. -/
theorem carried_of_HaloOK (c : Dev nD) (t : Fin cfg0.N) (ht : 16 ≤ t.val) (eG eU : Vec F S8x8192 .f32) (h : HaloOK m c t.val eG eU) :
    haloRows (grid0.coords t) eG = carriedG m c t ∧ haloRows (grid0.coords t) eU = carriedU m c t := by
  -- the point sixteen places earlier has the same column block, hence the same rows of the halo buffers
  have hmod : (t.val - 16) % 16 = t.val % 16 := by omega
  have hofft : k0_off1 (grid0.coords t) = k0_off1 (grid0.coords (above t)) := by
    rw [hoff, hoff]
    show ![5, (t.val % 16) * 512] = ![5, ((t.val - 16) % 16) * 512]
    rw [hmod]
  have hrows : ∀ e : Vec F S8x8192 .f32, haloRows (grid0.coords t) e = haloRows (grid0.coords (above t)) e := by
    intro e
    funext x
    unfold haloRows
    show e ((haloRect (grid0.coords t)).idx x) = e ((haloRect (grid0.coords (above t))).idx x)
    congr 1
    funext a
    apply Fin.ext
    show k0_off1 (grid0.coords t) a + 1 * (x a).val = k0_off1 (grid0.coords (above t)) a + 1 * (x a).val
    rw [hofft]
  obtain ⟨hG, hU⟩ := h (above t) (by show t.val - 16 < t.val; omega) (by show t.val ≤ t.val - 16 + 16; omega)
  exact ⟨(hrows eG).trans hG, (hrows eU).trans hU⟩

/-- At a first row block the carried rows are replaced by zeros: the mixed branches do not depend on them. -/
theorem pay8_rowFirst (i : grid0.Coords) (hi : Scalar.cmpi .eq (BitVec.ofNat 32 (i 1).val) 0#32 = 1#1)
    (x0 : Vec F S1x256x2048 .bf16) (x1 : Vec F S512x2048 .bf16) (h h' : Vec F S3x512 .f32) :
    k0_pay8 i x0 x1 h = k0_pay8 i x0 x1 h' := by
  unfold k0_pay8
  dsimp only
  rw [hi]
  rfl

theorem pay9_rowFirst (i : grid0.Coords) (hi : Scalar.cmpi .eq (BitVec.ofNat 32 (i 1).val) 0#32 = 1#1)
    (x0 : Vec F S1x256x2048 .bf16) (x2 : Vec F S512x2048 .bf16) (h h' : Vec F S3x512 .f32) :
    k0_pay9 i x0 x2 h = k0_pay9 i x0 x2 h' := by
  unfold k0_pay9
  dsimp only
  rw [hi]
  rfl

theorem gateMixed_rowFirst (i : grid0.Coords) (hi : Scalar.cmpi .eq (BitVec.ofNat 32 (i 1).val) 0#32 = 1#1)
    (x0 : Vec F S1x256x2048 .bf16) (x1 : Vec F S512x2048 .bf16) (x4 : Vec F S512x4 .f32) (h h' : Vec F S3x512 .f32) :
    gateMixed i x0 x1 x4 h = gateMixed i x0 x1 x4 h' := by
  unfold gateMixed k0_pay12
  rw [pay8_rowFirst i hi x0 x1 h h']

theorem upMixed_rowFirst (i : grid0.Coords) (hi : Scalar.cmpi .eq (BitVec.ofNat 32 (i 1).val) 0#32 = 1#1)
    (x0 : Vec F S1x256x2048 .bf16) (x2 : Vec F S512x2048 .bf16) (x5 : Vec F S512x4 .f32) (h h' : Vec F S3x512 .f32) :
    upMixed i x0 x2 x5 h = upMixed i x0 x2 x5 h' := by
  unfold upMixed
  rw [pay9_rowFirst i hi x0 x2 h h']

/-- So whatever a halo buffer holds that satisfies the bookkeeping, the body's update of the running sum at point t is
    `stepAt`. -/
theorem accStep_of_HaloOK (c : Dev nD) (t : Fin cfg0.N) (eG eU : Vec F S8x8192 .f32) (h : HaloOK m c t.val eG eU)
    (acc : Vec F S256x2048 .f32) :
    accStep (grid0.coords t) (xb m c t) (wgb m c t) (wub m c t) (wdb m c t) (cgb m c t) (cub m c t)
      (haloRows (grid0.coords t) eG) (haloRows (grid0.coords t) eU) acc = stepAt m c t acc := by
  unfold stepAt
  by_cases ht : 16 ≤ t.val
  · -- below the first row block the rows read are the rows handed down
    obtain ⟨hG, hU⟩ := carried_of_HaloOK m c t ht eG eU h
    rw [hG, hU]
  · -- at a first row block the mixed branches do not depend on the rows read
    have hlt : t.val % 128 < 16 := by omega
    have hi := (hrowFirst t).mpr hlt
    unfold accStep
    rw [gateMixed_rowFirst _ hi _ _ _ _ (carriedG m c t), upMixed_rowFirst _ hi _ _ _ _ (carriedU m c t)]

/-! ## The invariant between points and the proof data -/

/-- Before the first point the three buffers hold anything; afterwards the halo buffers hold something that keeps the
    last sixteen points' rows, and the running sum is named. -/
def PhiS (c : Dev nD) : (n : ℕ) → n ≤ cfg0.N → sProp 𝕄
  | 0, _ => Pipeline.ΦA spec0 c
  | n + 1, hn => iprop(iprop((∃ eG eU, ⌜HaloOK m c (n + 1) eG eU⌝ ∗ owns (c : Thread nD τ) haloG fullShare eG ∗ owns (c : Thread nD τ) haloU fullShare eU)
      ∗ owns (c : Thread nD τ) accM fullShare (accAfter m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ eG eU, ⌜HaloOK m c (n + 1) eG eU⌝ ∗ owns (c : Thread nD τ) haloG fullShare eG ∗ owns (c : Thread nD τ) haloU fullShare eU)
      ∗ owns (c : Thread nD τ) accM fullShare (accAfter m c n hn)) ∗ (∃ r, prngReg c r)) := rfl

theorem PhiS_pos (c : Dev nD) (n : ℕ) (h : n ≤ cfg0.N) (hz : n ≠ 0) :
    PhiS m c n h = iprop(iprop((∃ eG eU, ⌜HaloOK m c n eG eU⌝ ∗ owns (c : Thread nD τ) haloG fullShare eG ∗ owns (c : Thread nD τ) haloU fullShare eU)
      ∗ owns (c : Thread nD τ) accM fullShare (accAfter m c (n - 1) (by omega))) ∗ (∃ r, prngReg c r)) := by
  cases n with
  | zero => exact absurd rfl hz
  | succ n => rfl

/-- The proof data: the arrays as the region finds them; after the body each input's buffer at its block, the result
    block's buffer at the completed running sum; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAfter m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAfter m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

end Cert.Kernel.Hand

end
-- ==== Proof.BitsBody.lean ====
/-
  The body obligation and the run of the whole program.

  At every grid point the body is handed its six input blocks, the result block's buffer, and — through the invariant
  between points — the two halo buffers and the running sum. Which of the three forms of the body applies is decided
  by the point's position on the innermost axis. Afterwards the halo buffers hold what they held with the point's three
  rows stored over its own column group, which keeps the bookkeeping of the last sixteen points; the running sum holds
  the point's update; at a last column block the result block's buffer holds the completed sum, and elsewhere it is
  handed back untouched.
-/
import proofs.«119931_j53343493816972_1_alg».proof.Proof.BitsPoints

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Reading back a list of stores whose last store covers the whole buffer gives that store's value. -/
theorem read_writes_head_whole {sig' : RefSig} {κ : Kind} {sp : Space} {S : Shape} {e : EltTy} {Val : EltTy → Type}
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e1 := View.read_writes_cons_emb v f (Rect.whole S) w L y
  rw [Rect.emb_whole_apply] at e1
  exact e1

theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl
theorem live4 (t : Fin cfg0.N) : cfg0.idle 4 (grid0.coords t) = false := rfl
theorem live5 (t : Fin cfg0.N) : cfg0.idle 5 (grid0.coords t) = false := rfl

/-- What the body is called with at point t, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  have hN : t.val < 256 := lt_of_lt_of_eq t.isLt (show cfg0.N = 256 from N_0)
  by_cases h0 : t.val % 16 = 0
  · have h1 : ¬t.val % 16 = 15 := by omega
    have hcA : condFirst (grid0.coords t) := (hcondFirst t).mpr h0
    have hcB : ¬condLast (grid0.coords t) := fun h => h1 ((hcondLast t).mp h)
    rw [Dat.leavesExact_idle (dats m 0 c) 6 t (idleAt_out t hcB) (noFlush_out t hcB)]
    rw [accAfter_first m c t h0]
    by_cases hz : t.val = 0
    ·
        rw [PhiS_castSucc m c t, PhiS_zero m c _ _ hz, PhiA_eq]
        iintro ⟨⟨⟨⟨%eG, HG⟩, ⟨%eU, HU⟩, ⟨%e12, HA⟩⟩, Hg⟩, Ho, ⟨%d0, H0⟩, ⟨%d1, H1⟩, ⟨%d2, H2⟩, ⟨%d3, H3⟩, ⟨%d4, H4⟩, ⟨%d5, H5⟩, ⟨%d6, H6⟩⟩
        have hOK : HaloOK m c t.val eG eU := fun p hp _ => absurd hp (by omega)
        iapply ((runFirst c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU e12).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HG]; · iexact HG
        isplitl [HU]; · iexact HU
        isplitl [HA]; · iexact HA
        iintro ⟨H0, H1, H2, H3, H4, H5, H6, HG, HU, HA⟩
        isplitl [HG HU HA Hg]
        · isplitr [Hg]
          swap; · iexact Hg
          isplitl [HG HU]
          · iexists (haloPut (grid0.coords t) eG (tailG m c t)), (haloPut (grid0.coords t) eU (tailU m c t))
            isplitr
            · ipureintro; exact HaloOK_step m c t eG eU hOK
            isplitl [HG]
            · unfold owns; iexists _; isplitr
              swap; · iexact HG
              ipureintro
              rw [(runFirst_halo c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU e12).1]; rfl
            · unfold owns; iexists _; isplitr
              swap; · iexact HU
              ipureintro
              rw [(runFirst_halo c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU e12).2]; rfl
          · unfold owns; iexists _; isplitr
            swap; · iexact HA
            ipureintro
            rw [runFirst_acc c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU e12]
            rw [read_writes_head_whole _ _ hz2, accStep_of_HaloOK m c t eG eU hOK]
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    ·
        rw [PhiS_castSucc m c t, PhiS_pos m c _ _ hz]
        iintro ⟨⟨⟨⟨%eG, %eU, %hOK, HG, HU⟩, HA⟩, Hg⟩, Ho, ⟨%d0, H0⟩, ⟨%d1, H1⟩, ⟨%d2, H2⟩, ⟨%d3, H3⟩, ⟨%d4, H4⟩, ⟨%d5, H5⟩, ⟨%d6, H6⟩⟩
        iapply ((runFirst c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HG]; · iexact HG
        isplitl [HU]; · iexact HU
        isplitl [HA]; · iexact HA
        iintro ⟨H0, H1, H2, H3, H4, H5, H6, HG, HU, HA⟩
        isplitl [HG HU HA Hg]
        · isplitr [Hg]
          swap; · iexact Hg
          isplitl [HG HU]
          · iexists (haloPut (grid0.coords t) eG (tailG m c t)), (haloPut (grid0.coords t) eU (tailU m c t))
            isplitr
            · ipureintro; exact HaloOK_step m c t eG eU hOK
            isplitl [HG]
            · unfold owns; iexists _; isplitr
              swap; · iexact HG
              ipureintro
              rw [(runFirst_halo c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _).1]; rfl
            · unfold owns; iexists _; isplitr
              swap; · iexact HU
              ipureintro
              rw [(runFirst_halo c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _).2]; rfl
          · unfold owns; iexists _; isplitr
            swap; · iexact HA
            ipureintro
            rw [runFirst_acc c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _]
            rw [read_writes_head_whole _ _ hz2, accStep_of_HaloOK m c t eG eU hOK]
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun h => h0 (by rw [h])
    by_cases h1 : t.val % 16 = 15
    · have hcA : ¬condFirst (grid0.coords t) := fun h => h0 ((hcondFirst t).mp h)
      have hcB : condLast (grid0.coords t) := (hcondLast t).mpr h1
      rw [show (dats m 0 c).leavesExact 6 t = owns (c : Thread nD τ) (ms6 t) fullShare ((dats m 0 c).after 6 t) from by
        unfold Dat.leavesExact; rw [liveAt_out t hcB], after_6]
      rw [accAfter_next m c t h0]
      rw [PhiS_castSucc m c t, PhiS_pos m c _ _ hz]
      iintro ⟨⟨⟨⟨%eG, %eU, %hOK, HG, HU⟩, HA⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HG]; · iexact HG
      isplitl [HU]; · iexact HU
      isplitl [HA]; · iexact HA
      iintro ⟨H0, H1, H2, H3, H4, H5, ⟨%f6, H6⟩, HG, HU, HA⟩
      isplitl [HG HU HA Hg]
      · isplitr [Hg]
        swap; · iexact Hg
        isplitl [HG HU]
        · iexists (haloPut (grid0.coords t) eG (tailG m c t)), (haloPut (grid0.coords t) eU (tailU m c t))
          isplitr
          · ipureintro; exact HaloOK_step m c t eG eU hOK
          isplitl [HG]
          · unfold owns; iexists _; isplitr
            swap; · iexact HG
            ipureintro
            rw [(runLast_halo c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _).1]; rfl
          · unfold owns; iexists _; isplitr
            swap; · iexact HU
            ipureintro
            rw [(runLast_halo c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _).2]; rfl
        · unfold owns; iexists _; isplitr
          swap; · iexact HA
          ipureintro
          rw [runLast_acc c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _]
          rw [read_writes_head_whole _ _ hz2, accStep_of_HaloOK m c t eG eU hOK]
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      rw [runLast_out c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _]
      rw [read_writes_head_whole _ _ hz3, accStep_of_HaloOK m c t eG eU hOK]
      unfold outAfter
      rw [accAfter_next m c t h0]
    · have hcA : ¬condFirst (grid0.coords t) := fun h => h0 ((hcondFirst t).mp h)
      have hcB : ¬condLast (grid0.coords t) := fun h => h1 ((hcondLast t).mp h)
      rw [Dat.leavesExact_idle (dats m 0 c) 6 t (idleAt_out t hcB) (noFlush_out t hcB)]
      rw [accAfter_next m c t h0]
      rw [PhiS_castSucc m c t, PhiS_pos m c _ _ hz]
      iintro ⟨⟨⟨⟨%eG, %eU, %hOK, HG, HU⟩, HA⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HG]; · iexact HG
      isplitl [HU]; · iexact HU
      isplitl [HA]; · iexact HA
      iintro ⟨H0, H1, H2, H3, H4, H5, H6, HG, HU, HA⟩
      isplitl [HG HU HA Hg]
      · isplitr [Hg]
        swap; · iexact Hg
        isplitl [HG HU]
        · iexists (haloPut (grid0.coords t) eG (tailG m c t)), (haloPut (grid0.coords t) eU (tailU m c t))
          isplitr
          · ipureintro; exact HaloOK_step m c t eG eU hOK
          isplitl [HG]
          · unfold owns; iexists _; isplitr
            swap; · iexact HG
            ipureintro
            rw [(runMid_halo c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _).1]; rfl
          · unfold owns; iexists _; isplitr
            swap; · iexact HU
            ipureintro
            rw [(runMid_halo c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _).2]; rfl
        · unfold owns; iexists _; isplitr
          swap; · iexact HA
          ipureintro
          rw [runMid_acc c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _]
          rw [read_writes_head_whole _ _ hz2, accStep_of_HaloOK m c t eG eU hOK]
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the three buffers back at some contents. -/
theorem hout (c : Dev nD) : (dats m 0 c).Φ (Fin.last cfg0.N) ⊢ Pipeline.ΦA spec0 c := by
  have hne : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨⟨⟨%eG, %eU, -, HG, HU⟩, HA⟩, Hg⟩
  isplitr [Hg]
  swap; · iexact Hg
  isplitl [HG]; · iexists _; iexact HG
  isplitl [HU]; · iexists _; iexact HU
  iexists _; iexact HA

set_option backward.isDefEq.respectTransparency.types false in
/-- Every weakly fair execution of the program terminates, and every final state has the result array at what the
    proof data computes and every other array as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.IdealSetup.lean ====
/-
  The fused gated feed-forward kernel runs on a grid of 2 × 8 × 16 points (batch, row block, column block of the
  hidden width), the column block innermost. Three things depend on where a point sits on that innermost axis: at its
  first column block the running sum of the down projection is cleared, at its last the sum is copied into the
  result block, and in between neither happens. This module decides those conditions over the grid in closed form
  (the point's linear position modulo 16), names the memory the body is handed, and says where the result window
  is left untouched.
-/
import proofs.«119931_j53343493816972_1_alg».proof.Proof.Gen.KernelIdeal.Frame
import proofs.«119931_j53343493816972_1_alg».proof.Proof.Gen.KernelIdeal.Skeleton
import Idealize.ShloMosaic.Lib.Pipeline.Value
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The body's two branch conditions and its row-block test -/

/-- The point is at the first column block: the running sum is cleared there. -/
abbrev condFirst (i : grid0.Coords) : Prop :=
  (Scalar.cmpi .ne (Scalar.extui (Scalar.cmpi .eq (BitVec.ofNat 32 (i 2).val) 0#32)) 0#32) = 1#1

/-- The point is at the last column block: the running sum is copied out there. -/
abbrev condLast (i : grid0.Coords) : Prop := k0_cond2 i = 1#1

theorem hcondFirst : ∀ t : Fin cfg0.N, condFirst (grid0.coords t) ↔ t.val % 16 = 0 :=
  (by decide +kernel : ∀ t : Fin grid0.N, condFirst (grid0.coords t) ↔ t.val % 16 = 0)

theorem hcondLast : ∀ t : Fin cfg0.N, condLast (grid0.coords t) ↔ t.val % 16 = 15 :=
  (by decide +kernel : ∀ t : Fin grid0.N, condLast (grid0.coords t) ↔ t.val % 16 = 15)

/-- The row-block coordinate is zero exactly at the first sixteen points of each batch entry. -/
theorem hrowFirst : ∀ t : Fin cfg0.N,
    Scalar.cmpi .eq (BitVec.ofNat 32 ((grid0.coords t) 1).val) 0#32 = 1#1 ↔ t.val % 128 < 16 :=
  (by decide +kernel : ∀ t : Fin grid0.N,
    Scalar.cmpi .eq (BitVec.ofNat 32 ((grid0.coords t) 1).val) 0#32 = 1#1 ↔ t.val % 128 < 16)

/-- The three carried rows sit at rows 5 to 7 of the halo buffers, at the columns of the point's column block. -/
theorem hoff : ∀ t : Fin cfg0.N, k0_off1 (grid0.coords t) = ![5, (t.val % 16) * 512] :=
  (by decide +kernel : ∀ t : Fin grid0.N, k0_off1 (grid0.coords t) = ![5, (t.val % 16) * 512])

/-! ## Where the result window is idle -/

theorem liveAt_in (w : Fin 7) (hw : w.val < 6) : ∀ t : Fin cfg0.N, cfg0.idle w (grid0.coords t) = false := by
  intro t
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl

theorem idleAt_out : ∀ t : Fin cfg0.N, ¬condLast (grid0.coords t) → cfg0.idle 6 (grid0.coords t) = true := by decide +kernel
theorem noFlush_out : ∀ t : Fin cfg0.N, ¬condLast (grid0.coords t) → (cfg0.win 6).flush t = false := by decide +kernel
theorem liveAt_out : ∀ t : Fin cfg0.N, condLast (grid0.coords t) → cfg0.idle 6 (grid0.coords t) = false := by decide +kernel

/-! ## The memory the body is handed -/

abbrev ms0 (t : Fin cfg0.N) : Memref sig .tc .vmem S1x256x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x2048 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x4 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x4 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256x2048 .f32 := win0_6.stage (cfg0.slots t 6)
abbrev hs6 (t : Fin cfg0.N) : (ms6 t).IsWhole := hstage0_6 ((cfg0.slots t 6).cast nbuf0_6)

/-- The two halo buffers (gate and up branch) and the running sum of the down projection. -/
abbrev haloG : Memref sig .tc .vmem S8x8192 .f32 := Memref.whole cc0_scratch0
abbrev haloU : Memref sig .tc .vmem S8x8192 .f32 := Memref.whole cc0_scratch1
abbrev accM : Memref sig .tc .vmem S256x2048 .f32 := Memref.whole cc0_scratch2

/-- What the region hands the body besides the windows: the three buffers above at some contents each, and the
    generator register at some state. -/
theorem PhiA_eq (c : Dev nD) :
    (Pipeline.ΦA spec0 c : sProp 𝕄)
      = iprop(iprop((∃ d, owns (c : Thread nD τ) haloG fullShare d) ∗ (∃ d, owns (c : Thread nD τ) haloU fullShare d)
          ∗ (∃ d, owns (c : Thread nD τ) accM fullShare d)) ∗ (∃ r, prngReg c r)) := by
  unfold Pipeline.ΦA; rw [scopedRest0_eq]; simp only [haloG, haloU, accM, owns_whole]; try rfl

/-! ## What one point computes, as functions of the blocks it is handed -/

/-- The rows 5 to 7 of a halo buffer at the columns of the point's column block. -/
abbrev haloRect (i : grid0.Coords) : Rect S8x8192 := Rect.unit (s := S8x8192) (k0_off1 i) S3x512.size (k0_off1_inb i)

/-- The whole running-sum buffer, and the whole result block. -/
abbrev accRect : Rect S256x2048 := Rect.unit (s := S256x2048) ![0, 0] S256x2048.size inb_S256x2048_S256x2048_0_0
abbrev outRect : Rect S1x256x2048 := Rect.unit (s := S1x256x2048) ![0, 0, 0] S1x256x2048.size inb_S1x256x2048_S1x256x2048_0_0_0

theorem hz2 : (![0, 0] : Fin 2 → Nat) = fun _ => 0 := funext fun a => by fin_cases a <;> rfl
theorem hz3 : (![0, 0, 0] : Fin 3 → Nat) = fun _ => 0 := funext fun a => by fin_cases a <;> rfl

/-- The three carried rows as the body reads them from a halo buffer holding `e`. -/
def haloRows (i : grid0.Coords) (e : Vec F S8x8192 .f32) : Vec F S3x512 .f32 := View.ld e (haloRect i)

/-- The gate branch after the causal taps: the block's projection, the carried rows `h` above it. -/
def gateMixed (i : grid0.Coords) (x0 : Vec F S1x256x2048 .bf16) (x1 : Vec F S512x2048 .bf16) (x4 : Vec F S512x4 .f32)
    (h : Vec F S3x512 .f32) : FVec F S256x512 .f32 :=
  k0_pay14 (k0_pay6 x0 x1) (k0_pay8 i x0 x1 h) (k0_pay10 x4) (k0_pay12 i x0 x1 h) (k0_pay13 x4)

/-- The up branch after the causal taps. -/
def upMixed (i : grid0.Coords) (x0 : Vec F S1x256x2048 .bf16) (x2 : Vec F S512x2048 .bf16) (x5 : Vec F S512x4 .f32)
    (h : Vec F S3x512 .f32) : FVec F S256x512 .f32 :=
  k0_pay15 (k0_pay7 x0 x2) (k0_pay9 i x0 x2 h) (k0_pay11 x5)

/-- The rows a point leaves in the halo buffers: the last three rows of its two projections. -/
def gateTail (x0 : Vec F S1x256x2048 .bf16) (x1 : Vec F S512x2048 .bf16) : FVec F S3x512 .f32 := k0_pay16 (k0_pay6 x0 x1)
def upTail (x0 : Vec F S1x256x2048 .bf16) (x2 : Vec F S512x2048 .bf16) : FVec F S3x512 .f32 := k0_pay1 (k0_pay17 (k0_pay7 x0 x2))

/-- The running sum after the point, from the running sum `acc` before it. -/
def accStep (i : grid0.Coords) (x0 : Vec F S1x256x2048 .bf16) (x1 x2 : Vec F S512x2048 .bf16) (x3 : Vec F S2048x512 .bf16)
    (x4 x5 : Vec F S512x4 .f32) (hg hu : Vec F S3x512 .f32) (acc : Vec F S256x2048 .f32) : FVec F S256x2048 .f32 :=
  k0_pay2 (gateMixed i x0 x1 x4 hg) (upMixed i x0 x2 x5 hu) x3 acc

end Cert.KernelIdeal.Hand

end
-- ==== Proof.IdealRunFirst.lean ====
/-
  The body at the first column block of a row block: the running sum is cleared, then everything happens as at an
  inner point, so the running sum ends at the clear value plus this block's contribution. The result window is not
  touched.
-/
import proofs.«119931_j53343493816972_1_alg».proof.Proof.IdealSetup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The stores the body leaves at a first column block (last first): in the running sum the clearing store and, over it, the block's contribution. -/
noncomputable def runFirst (c : Dev nD) (i : grid0.Coords) (arg3 : Memref sig .tc .vmem S1x256x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S512x4 .f32) (harg7 : arg7.IsWhole) (arg8 : Memref sig .tc .vmem S512x4 .f32) (harg8 : arg8.IsWhole) (arg9 : Memref sig .tc .vmem S1x256x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S256x2048 .f32) (harg12 : arg12.IsWhole) (hc0 : condFirst i) (hc1 : ¬condLast i)
    (x0 : Vec F S1x256x2048 .bf16) (x1 x2 : Vec F S512x2048 .bf16) (x3 : Vec F S2048x512 .bf16) (x4 x5 : Vec F S512x4 .f32)
    (e10 e11 : Vec F S8x8192 .f32) (e12 : Vec F S256x2048 .f32) :
    Σ' (L6 : List (View.Piece (Elt F) S1x256x2048 .f32)) (LS10 : List (View.Piece (Elt F) S8x8192 .f32)) (LS11 : List (View.Piece (Elt F) S8x8192 .f32)), { LS12 : List (View.Piece (Elt F) S256x2048 .f32) //
      ∀ (xi6 : Vec F S1x256x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6
            ∗ owns (c : Thread nD τ) arg10 fullShare e10 ∗ owns (c : Thread nD τ) arg11 fullShare e11 ∗ owns (c : Thread nD τ) arg12 fullShare e12
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6
                ∗ (arg10.view.loc (c : Thread nD τ) ↦[arg10.view.set]{fullShare} arg10.view.writes (Elt F) (harg10.unread e10) LS10)
                ∗ (arg11.view.loc (c : Thread nD τ) ↦[arg11.view.set]{fullShare} arg11.view.writes (Elt F) (harg11.unread e11) LS11)
                ∗ (arg12.view.loc (c : Thread nD τ) ↦[arg12.view.set]{fullShare} arg12.view.writes (Elt F) (harg12.unread e12) LS12)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f10, %hf10, H10⟩, ⟨%f11, %hf11, H11⟩, ⟨%f12, %hf12, H12⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg10.eq_unread hf10; obtain rfl := harg11.eq_unread hf11; obtain rfl := harg12.eq_unread hf12
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H10]; · iexact H10
    isplitl [H11]; · iexact H11
    iexact H12

set_option maxHeartbeats 4000000 in
theorem runFirst_halo (c : Dev nD) (i : grid0.Coords) (arg3 : Memref sig .tc .vmem S1x256x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S512x4 .f32) (harg7 : arg7.IsWhole) (arg8 : Memref sig .tc .vmem S512x4 .f32) (harg8 : arg8.IsWhole) (arg9 : Memref sig .tc .vmem S1x256x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S256x2048 .f32) (harg12 : arg12.IsWhole) (hc0 : condFirst i) (hc1 : ¬condLast i)
    (x0 : Vec F S1x256x2048 .bf16) (x1 x2 : Vec F S512x2048 .bf16) (x3 : Vec F S2048x512 .bf16) (x4 x5 : Vec F S512x4 .f32)
    (e10 e11 : Vec F S8x8192 .f32) (e12 : Vec F S256x2048 .f32) :
    (runFirst c i arg3 harg3 arg4 harg4 arg5 harg5 arg6 harg6 arg7 harg7 arg8 harg8 arg9 harg9 arg10 harg10 arg11 harg11 arg12 harg12 hc0 hc1 x0 x1 x2 x3 x4 x5 e10 e11 e12).2.1 = [⟨haloRect i, gateTail x0 x1⟩]
    ∧ (runFirst c i arg3 harg3 arg4 harg4 arg5 harg5 arg6 harg6 arg7 harg7 arg8 harg8 arg9 harg9 arg10 harg10 arg11 harg11 arg12 harg12 hc0 hc1 x0 x1 x2 x3 x4 x5 e10 e11 e12).2.2.1 = [⟨haloRect i, upTail x0 x2⟩] := by
  unfold runFirst; dsimp only; sl_unfold_run_names
  unfold gateTail upTail
  simp only [View.readAt_eq_ld, harg3.read_unread, harg4.read_unread, harg5.read_unread,
    View.ld_unit_zero (S := S1x256x2048) hz3, View.ld_unit_zero (S := S512x2048) hz2]
  exact ⟨trivial, trivial⟩

set_option maxHeartbeats 4000000 in
theorem runFirst_acc (c : Dev nD) (i : grid0.Coords) (arg3 : Memref sig .tc .vmem S1x256x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S512x4 .f32) (harg7 : arg7.IsWhole) (arg8 : Memref sig .tc .vmem S512x4 .f32) (harg8 : arg8.IsWhole) (arg9 : Memref sig .tc .vmem S1x256x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S256x2048 .f32) (harg12 : arg12.IsWhole) (hc0 : condFirst i) (hc1 : ¬condLast i)
    (x0 : Vec F S1x256x2048 .bf16) (x1 x2 : Vec F S512x2048 .bf16) (x3 : Vec F S2048x512 .bf16) (x4 x5 : Vec F S512x4 .f32)
    (e10 e11 : Vec F S8x8192 .f32) (e12 : Vec F S256x2048 .f32) :
    (runFirst c i arg3 harg3 arg4 harg4 arg5 harg5 arg6 harg6 arg7 harg7 arg8 harg8 arg9 harg9 arg10 harg10 arg11 harg11 arg12 harg12 hc0 hc1 x0 x1 x2 x3 x4 x5 e10 e11 e12).2.2.2.1 = [⟨accRect, accStep i x0 x1 x2 x3 x4 x5 (haloRows i e10) (haloRows i e11) k0_pay4⟩, ⟨accRect, k0_pay4⟩] := by
  unfold runFirst; dsimp only; sl_unfold_run_names
  unfold accStep gateMixed upMixed haloRows
  simp only [View.readAt_eq_ld, harg3.read_unread, harg4.read_unread, harg5.read_unread, harg6.read_unread, harg7.read_unread, harg8.read_unread,
    harg10.read_unread, harg11.read_unread, harg12.read_unread,
    View.ld_unit_zero (S := S1x256x2048) hz3, View.ld_unit_zero (S := S512x2048) hz2, View.ld_unit_zero (S := S2048x512) hz2,
    View.ld_unit_zero (S := S512x4) hz2, View.ld_unit_zero (S := S256x2048) hz2, View.readCov_unit_zero (S := S256x2048) _ hz2]

end Cert.KernelIdeal.Hand

end
-- ==== Proof.IdealRunMid.lean ====
/-
  The body at a point strictly inside the innermost axis (neither its first nor its last column block): both
  projections of the row block are formed, the three carried rows of each branch are read from the halo buffers
  and then replaced by the last three rows just formed, the causal taps and the gating are applied, and the block's
  contribution to the down projection is added to the running sum. The result window is not touched.
-/
import proofs.«119931_j53343493816972_1_alg».proof.Proof.IdealRunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The stores the body leaves in the two halo buffers and in the running sum (last first), with the proof that from the inputs' blocks, the result buffer and the three buffers at named contents the body runs to the continuation holding the inputs and the result buffer as they were and the three buffers with those stores made. -/
noncomputable def runMid (c : Dev nD) (i : grid0.Coords) (arg3 : Memref sig .tc .vmem S1x256x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S512x4 .f32) (harg7 : arg7.IsWhole) (arg8 : Memref sig .tc .vmem S512x4 .f32) (harg8 : arg8.IsWhole) (arg9 : Memref sig .tc .vmem S1x256x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S256x2048 .f32) (harg12 : arg12.IsWhole) (hc0 : ¬condFirst i) (hc1 : ¬condLast i)
    (x0 : Vec F S1x256x2048 .bf16) (x1 x2 : Vec F S512x2048 .bf16) (x3 : Vec F S2048x512 .bf16) (x4 x5 : Vec F S512x4 .f32)
    (e10 e11 : Vec F S8x8192 .f32) (e12 : Vec F S256x2048 .f32) :
    Σ' (L6 : List (View.Piece (Elt F) S1x256x2048 .f32)) (LS10 : List (View.Piece (Elt F) S8x8192 .f32)) (LS11 : List (View.Piece (Elt F) S8x8192 .f32)), { LS12 : List (View.Piece (Elt F) S256x2048 .f32) //
      ∀ (xi6 : Vec F S1x256x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6
            ∗ owns (c : Thread nD τ) arg10 fullShare e10 ∗ owns (c : Thread nD τ) arg11 fullShare e11 ∗ owns (c : Thread nD τ) arg12 fullShare e12
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6
                ∗ (arg10.view.loc (c : Thread nD τ) ↦[arg10.view.set]{fullShare} arg10.view.writes (Elt F) (harg10.unread e10) LS10)
                ∗ (arg11.view.loc (c : Thread nD τ) ↦[arg11.view.set]{fullShare} arg11.view.writes (Elt F) (harg11.unread e11) LS11)
                ∗ (arg12.view.loc (c : Thread nD τ) ↦[arg12.view.set]{fullShare} arg12.view.writes (Elt F) (harg12.unread e12) LS12)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f10, %hf10, H10⟩, ⟨%f11, %hf11, H11⟩, ⟨%f12, %hf12, H12⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg10.eq_unread hf10; obtain rfl := harg11.eq_unread hf11; obtain rfl := harg12.eq_unread hf12
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H10]; · iexact H10
    isplitl [H11]; · iexact H11
    iexact H12

set_option maxHeartbeats 4000000 in
theorem runMid_halo (c : Dev nD) (i : grid0.Coords) (arg3 : Memref sig .tc .vmem S1x256x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S512x4 .f32) (harg7 : arg7.IsWhole) (arg8 : Memref sig .tc .vmem S512x4 .f32) (harg8 : arg8.IsWhole) (arg9 : Memref sig .tc .vmem S1x256x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S256x2048 .f32) (harg12 : arg12.IsWhole) (hc0 : ¬condFirst i) (hc1 : ¬condLast i)
    (x0 : Vec F S1x256x2048 .bf16) (x1 x2 : Vec F S512x2048 .bf16) (x3 : Vec F S2048x512 .bf16) (x4 x5 : Vec F S512x4 .f32)
    (e10 e11 : Vec F S8x8192 .f32) (e12 : Vec F S256x2048 .f32) :
    (runMid c i arg3 harg3 arg4 harg4 arg5 harg5 arg6 harg6 arg7 harg7 arg8 harg8 arg9 harg9 arg10 harg10 arg11 harg11 arg12 harg12 hc0 hc1 x0 x1 x2 x3 x4 x5 e10 e11 e12).2.1 = [⟨haloRect i, gateTail x0 x1⟩]
    ∧ (runMid c i arg3 harg3 arg4 harg4 arg5 harg5 arg6 harg6 arg7 harg7 arg8 harg8 arg9 harg9 arg10 harg10 arg11 harg11 arg12 harg12 hc0 hc1 x0 x1 x2 x3 x4 x5 e10 e11 e12).2.2.1 = [⟨haloRect i, upTail x0 x2⟩] := by
  unfold runMid; dsimp only; sl_unfold_run_names
  unfold gateTail upTail
  simp only [View.readAt_eq_ld, harg3.read_unread, harg4.read_unread, harg5.read_unread,
    View.ld_unit_zero (S := S1x256x2048) hz3, View.ld_unit_zero (S := S512x2048) hz2]
  exact ⟨trivial, trivial⟩

set_option maxHeartbeats 4000000 in
theorem runMid_acc (c : Dev nD) (i : grid0.Coords) (arg3 : Memref sig .tc .vmem S1x256x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S512x4 .f32) (harg7 : arg7.IsWhole) (arg8 : Memref sig .tc .vmem S512x4 .f32) (harg8 : arg8.IsWhole) (arg9 : Memref sig .tc .vmem S1x256x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S256x2048 .f32) (harg12 : arg12.IsWhole) (hc0 : ¬condFirst i) (hc1 : ¬condLast i)
    (x0 : Vec F S1x256x2048 .bf16) (x1 x2 : Vec F S512x2048 .bf16) (x3 : Vec F S2048x512 .bf16) (x4 x5 : Vec F S512x4 .f32)
    (e10 e11 : Vec F S8x8192 .f32) (e12 : Vec F S256x2048 .f32) :
    (runMid c i arg3 harg3 arg4 harg4 arg5 harg5 arg6 harg6 arg7 harg7 arg8 harg8 arg9 harg9 arg10 harg10 arg11 harg11 arg12 harg12 hc0 hc1 x0 x1 x2 x3 x4 x5 e10 e11 e12).2.2.2.1 = [⟨accRect, accStep i x0 x1 x2 x3 x4 x5 (haloRows i e10) (haloRows i e11) e12⟩] := by
  unfold runMid; dsimp only; sl_unfold_run_names
  unfold accStep gateMixed upMixed haloRows
  simp only [View.readAt_eq_ld, harg3.read_unread, harg4.read_unread, harg5.read_unread, harg6.read_unread, harg7.read_unread, harg8.read_unread,
    harg10.read_unread, harg11.read_unread, harg12.read_unread,
    View.ld_unit_zero (S := S1x256x2048) hz3, View.ld_unit_zero (S := S512x2048) hz2, View.ld_unit_zero (S := S2048x512) hz2,
    View.ld_unit_zero (S := S512x4) hz2, View.ld_unit_zero (S := S256x2048) hz2, View.readCov_unit_zero (S := S256x2048) _ hz2]

end Cert.KernelIdeal.Hand

end
-- ==== Proof.IdealRunLast.lean ====
/-
  The body at the last column block of a row block: everything happens as at an inner point, and then the running
  sum, now complete over all sixteen column blocks, is copied into the result block.
-/
import proofs.«119931_j53343493816972_1_alg».proof.Proof.IdealRunMid

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The stores the body leaves at a last column block (last first): besides those of an inner point, the running sum copied into the result block, which it covers. -/
noncomputable def runLast (c : Dev nD) (i : grid0.Coords) (arg3 : Memref sig .tc .vmem S1x256x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S512x4 .f32) (harg7 : arg7.IsWhole) (arg8 : Memref sig .tc .vmem S512x4 .f32) (harg8 : arg8.IsWhole) (arg9 : Memref sig .tc .vmem S1x256x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S256x2048 .f32) (harg12 : arg12.IsWhole) (hc0 : ¬condFirst i) (hc1 : condLast i)
    (x0 : Vec F S1x256x2048 .bf16) (x1 x2 : Vec F S512x2048 .bf16) (x3 : Vec F S2048x512 .bf16) (x4 x5 : Vec F S512x4 .f32)
    (e10 e11 : Vec F S8x8192 .f32) (e12 : Vec F S256x2048 .f32) :
    Σ' (L6 : List (View.Piece (Elt F) S1x256x2048 .f32)) (LS10 : List (View.Piece (Elt F) S8x8192 .f32)) (LS11 : List (View.Piece (Elt F) S8x8192 .f32)), { LS12 : List (View.Piece (Elt F) S256x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
            ∗ owns (c : Thread nD τ) arg10 fullShare e10 ∗ owns (c : Thread nD τ) arg11 fullShare e11 ∗ owns (c : Thread nD τ) arg12 fullShare e12
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6)
                ∗ (arg10.view.loc (c : Thread nD τ) ↦[arg10.view.set]{fullShare} arg10.view.writes (Elt F) (harg10.unread e10) LS10)
                ∗ (arg11.view.loc (c : Thread nD τ) ↦[arg11.view.set]{fullShare} arg11.view.writes (Elt F) (harg11.unread e11) LS11)
                ∗ (arg12.view.loc (c : Thread nD τ) ↦[arg12.view.set]{fullShare} arg12.view.writes (Elt F) (harg12.unread e12) LS12)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f10, %hf10, H10⟩, ⟨%f11, %hf11, H11⟩, ⟨%f12, %hf12, H12⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5

    obtain rfl := harg10.eq_unread hf10; obtain rfl := harg11.eq_unread hf11; obtain rfl := harg12.eq_unread hf12
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H10]; · iexact H10
    isplitl [H11]; · iexact H11
    iexact H12

set_option maxHeartbeats 4000000 in
theorem runLast_halo (c : Dev nD) (i : grid0.Coords) (arg3 : Memref sig .tc .vmem S1x256x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S512x4 .f32) (harg7 : arg7.IsWhole) (arg8 : Memref sig .tc .vmem S512x4 .f32) (harg8 : arg8.IsWhole) (arg9 : Memref sig .tc .vmem S1x256x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S256x2048 .f32) (harg12 : arg12.IsWhole) (hc0 : ¬condFirst i) (hc1 : condLast i)
    (x0 : Vec F S1x256x2048 .bf16) (x1 x2 : Vec F S512x2048 .bf16) (x3 : Vec F S2048x512 .bf16) (x4 x5 : Vec F S512x4 .f32)
    (e10 e11 : Vec F S8x8192 .f32) (e12 : Vec F S256x2048 .f32) :
    (runLast c i arg3 harg3 arg4 harg4 arg5 harg5 arg6 harg6 arg7 harg7 arg8 harg8 arg9 harg9 arg10 harg10 arg11 harg11 arg12 harg12 hc0 hc1 x0 x1 x2 x3 x4 x5 e10 e11 e12).2.1 = [⟨haloRect i, gateTail x0 x1⟩]
    ∧ (runLast c i arg3 harg3 arg4 harg4 arg5 harg5 arg6 harg6 arg7 harg7 arg8 harg8 arg9 harg9 arg10 harg10 arg11 harg11 arg12 harg12 hc0 hc1 x0 x1 x2 x3 x4 x5 e10 e11 e12).2.2.1 = [⟨haloRect i, upTail x0 x2⟩] := by
  unfold runLast; dsimp only; sl_unfold_run_names
  unfold gateTail upTail
  simp only [View.readAt_eq_ld, harg3.read_unread, harg4.read_unread, harg5.read_unread,
    View.ld_unit_zero (S := S1x256x2048) hz3, View.ld_unit_zero (S := S512x2048) hz2]
  exact ⟨trivial, trivial⟩

set_option maxHeartbeats 4000000 in
theorem runLast_acc (c : Dev nD) (i : grid0.Coords) (arg3 : Memref sig .tc .vmem S1x256x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S512x4 .f32) (harg7 : arg7.IsWhole) (arg8 : Memref sig .tc .vmem S512x4 .f32) (harg8 : arg8.IsWhole) (arg9 : Memref sig .tc .vmem S1x256x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S256x2048 .f32) (harg12 : arg12.IsWhole) (hc0 : ¬condFirst i) (hc1 : condLast i)
    (x0 : Vec F S1x256x2048 .bf16) (x1 x2 : Vec F S512x2048 .bf16) (x3 : Vec F S2048x512 .bf16) (x4 x5 : Vec F S512x4 .f32)
    (e10 e11 : Vec F S8x8192 .f32) (e12 : Vec F S256x2048 .f32) :
    (runLast c i arg3 harg3 arg4 harg4 arg5 harg5 arg6 harg6 arg7 harg7 arg8 harg8 arg9 harg9 arg10 harg10 arg11 harg11 arg12 harg12 hc0 hc1 x0 x1 x2 x3 x4 x5 e10 e11 e12).2.2.2.1 = [⟨accRect, accStep i x0 x1 x2 x3 x4 x5 (haloRows i e10) (haloRows i e11) e12⟩] := by
  unfold runLast; dsimp only; sl_unfold_run_names
  unfold accStep gateMixed upMixed haloRows
  simp only [View.readAt_eq_ld, harg3.read_unread, harg4.read_unread, harg5.read_unread, harg6.read_unread, harg7.read_unread, harg8.read_unread,
    harg10.read_unread, harg11.read_unread, harg12.read_unread,
    View.ld_unit_zero (S := S1x256x2048) hz3, View.ld_unit_zero (S := S512x2048) hz2, View.ld_unit_zero (S := S2048x512) hz2,
    View.ld_unit_zero (S := S512x4) hz2, View.ld_unit_zero (S := S256x2048) hz2, View.readCov_unit_zero (S := S256x2048) _ hz2]

set_option maxHeartbeats 4000000 in
theorem runLast_out (c : Dev nD) (i : grid0.Coords) (arg3 : Memref sig .tc .vmem S1x256x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S512x4 .f32) (harg7 : arg7.IsWhole) (arg8 : Memref sig .tc .vmem S512x4 .f32) (harg8 : arg8.IsWhole) (arg9 : Memref sig .tc .vmem S1x256x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S256x2048 .f32) (harg12 : arg12.IsWhole) (hc0 : ¬condFirst i) (hc1 : condLast i)
    (x0 : Vec F S1x256x2048 .bf16) (x1 x2 : Vec F S512x2048 .bf16) (x3 : Vec F S2048x512 .bf16) (x4 x5 : Vec F S512x4 .f32)
    (e10 e11 : Vec F S8x8192 .f32) (e12 : Vec F S256x2048 .f32) :
    (runLast c i arg3 harg3 arg4 harg4 arg5 harg5 arg6 harg6 arg7 harg7 arg8 harg8 arg9 harg9 arg10 harg10 arg11 harg11 arg12 harg12 hc0 hc1 x0 x1 x2 x3 x4 x5 e10 e11 e12).1
      = [⟨outRect, k0_pay3 (accStep i x0 x1 x2 x3 x4 x5 (haloRows i e10) (haloRows i e11) e12)⟩] := by
  unfold runLast; dsimp only; sl_unfold_run_names
  unfold accStep gateMixed upMixed haloRows
  simp only [View.readAt_eq_ld, harg3.read_unread, harg4.read_unread, harg5.read_unread, harg6.read_unread, harg7.read_unread, harg8.read_unread,
    harg10.read_unread, harg11.read_unread, harg12.read_unread,
    View.ld_unit_zero (S := S1x256x2048) hz3, View.ld_unit_zero (S := S512x2048) hz2, View.ld_unit_zero (S := S2048x512) hz2,
    View.ld_unit_zero (S := S512x4) hz2, View.ld_unit_zero (S := S256x2048) hz2, View.readCov_unit_zero (S := S256x2048) _ hz2]

end Cert.KernelIdeal.Hand

end
-- ==== Proof.IdealPoints.lean ====
/-
  What every grid point computes, as functions of the argument arrays, and the bookkeeping of the three buffers the
  body carries from point to point.

  Point number n sits at batch entry n / 128, row block (n / 16) mod 8 and column block n mod 16. Its two
  projections depend only on its own input blocks. The three rows it needs from the row block above are those the
  point sixteen places earlier (same column block, previous row block) left in the halo buffers; at a first row block
  they are replaced by zeros, so nothing is needed there. The running sum of the down projection is cleared at every
  first column block and otherwise continues from the point before.

  The halo buffers' full contents are never named: all that is kept of them is that for each of the last sixteen
  points the rows it stored are still there (each of those points writes a different group of columns).
-/
import proofs.«119931_j53343493816972_1_alg».proof.Proof.IdealRunLast
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The input blocks at a point, at their literal types -/

abbrev xb (c : Dev nD) (t : Fin cfg0.N) : Vec F S1x256x2048 .bf16 := iblk m c 0 t
abbrev wgb (c : Dev nD) (t : Fin cfg0.N) : Vec F S512x2048 .bf16 := iblk m c 1 t
abbrev wub (c : Dev nD) (t : Fin cfg0.N) : Vec F S512x2048 .bf16 := iblk m c 2 t
abbrev wdb (c : Dev nD) (t : Fin cfg0.N) : Vec F S2048x512 .bf16 := iblk m c 3 t
abbrev cgb (c : Dev nD) (t : Fin cfg0.N) : Vec F S512x4 .f32 := iblk m c 4 t
abbrev cub (c : Dev nD) (t : Fin cfg0.N) : Vec F S512x4 .f32 := iblk m c 5 t

/-! ## The carried rows -/

/-- The point sixteen places earlier (the same column block of the row block above); for the first sixteen points,
    which need no carried rows, the point itself or an earlier one. -/
def above (t : Fin cfg0.N) : Fin cfg0.N := ⟨t.val - 16, lt_of_le_of_lt (Nat.sub_le _ _) t.isLt⟩

/-- The rows a point stores into the halo buffers: the last three rows of its own two projections. -/
def tailG (c : Dev nD) (t : Fin cfg0.N) : Vec F S3x512 .f32 := gateTail (xb m c t) (wgb m c t)
def tailU (c : Dev nD) (t : Fin cfg0.N) : Vec F S3x512 .f32 := upTail (xb m c t) (wub m c t)

/-- The rows a point is handed from the row block above. -/
def carriedG (c : Dev nD) (t : Fin cfg0.N) : Vec F S3x512 .f32 := tailG m c (above t)
def carriedU (c : Dev nD) (t : Fin cfg0.N) : Vec F S3x512 .f32 := tailU m c (above t)

/-! ## The running sum and the result block -/

/-- One point's update of the running sum. -/
def stepAt (c : Dev nD) (t : Fin cfg0.N) (acc : Vec F S256x2048 .f32) : Vec F S256x2048 .f32 :=
  accStep (grid0.coords t) (xb m c t) (wgb m c t) (wub m c t) (wdb m c t) (cgb m c t) (cub m c t) (carriedG m c t) (carriedU m c t) acc

/-- The running sum after point n: cleared before every first column block. -/
def accAfter (c : Dev nD) : (n : ℕ) → n < cfg0.N → Vec F S256x2048 .f32
  | 0, hn => stepAt m c ⟨0, hn⟩ k0_pay4
  | n + 1, hn => stepAt m c ⟨n + 1, hn⟩ (if (n + 1) % 16 = 0 then k0_pay4 else accAfter c n (Nat.lt_of_succ_lt hn))

theorem accAfter_first (c : Dev nD) (t : Fin cfg0.N) (h : t.val % 16 = 0) :
    accAfter m c t.val t.isLt = stepAt m c t k0_pay4 := by
  obtain ⟨n, hn⟩ := t
  cases n with
  | zero => rfl
  | succ n => show stepAt m c _ (if (n + 1) % 16 = 0 then _ else _) = _; rw [if_pos h]

theorem accAfter_next (c : Dev nD) (t : Fin cfg0.N) (h : ¬t.val % 16 = 0) :
    accAfter m c t.val t.isLt = stepAt m c t (accAfter m c (t.val - 1) (lt_of_le_of_lt (Nat.sub_le _ _) t.isLt)) := by
  obtain ⟨n, hn⟩ := t
  cases n with
  | zero => exact absurd (Nat.zero_mod _) h
  | succ n => show stepAt m c _ (if (n + 1) % 16 = 0 then _ else _) = _; rw [if_neg h]; rfl

/-- What the result block's buffer holds after a last column block: the completed running sum. -/
def outAfter (c : Dev nD) (t : Fin cfg0.N) : Vec F S1x256x2048 .f32 := k0_pay3 (accAfter m c t.val t.isLt)

/-! ## What is kept of the halo buffers -/

/-- Before point n the two halo buffers still hold, for each of the (at most) sixteen points before it, the rows that
    point stored. -/
def HaloOK (c : Dev nD) (n : ℕ) (eG eU : Vec F S8x8192 .f32) : Prop :=
  ∀ p : Fin cfg0.N, p.val < n → n ≤ p.val + 16 →
    haloRows (grid0.coords p) eG = tailG m c p ∧ haloRows (grid0.coords p) eU = tailU m c p

/-- A halo buffer after a store of three rows at a point's columns. -/
def haloPut (i : grid0.Coords) (e : Vec F S8x8192 .f32) (w : Vec F S3x512 .f32) : Vec F S8x8192 .f32 :=
  haloG.view.read (Elt F) (haloG.view.writes (Elt F) ((Memref.isWhole_whole cc0_scratch0).unread e) [⟨haloRect i, w⟩])

/-- The rows just stored read back. -/
theorem haloRows_put_same (i : grid0.Coords) (e : Vec F S8x8192 .f32) (w : Vec F S3x512 .f32) :
    haloRows i (haloPut i e w) = w := by
  funext x
  unfold haloRows haloPut
  exact View.read_writes_cons_emb haloG.view _ (haloRect i) w [] x

/-- Rows at other columns are untouched by the store. -/
theorem haloRows_put_other (t t' : Fin cfg0.N) (h : t.val % 16 ≠ t'.val % 16) (e : Vec F S8x8192 .f32) (w : Vec F S3x512 .f32) :
    haloRows (grid0.coords t') (haloPut (grid0.coords t) e w) = haloRows (grid0.coords t') e := by
  funext x
  unfold haloRows haloPut
  have hx1 : (x 1).val < 512 := (x 1).isLt
  have hm : t.val % 16 < 16 := Nat.mod_lt t.val (by decide : 16 > 0)
  have hm' : t'.val % 16 < 16 := Nat.mod_lt t'.val (by decide : 16 > 0)
  -- the column read: the other point's column offset plus the position within the block
  have hy : (((haloRect (grid0.coords t')).emb x) 1).val = (t'.val % 16) * 512 + 1 * (x 1).val := by
    rw [Rect.emb_apply]
    show k0_off1 (grid0.coords t') 1 + 1 * (x 1).val = _
    rw [hoff t']; rfl
  -- it lies outside the 512 columns stored, so the store is not seen; what remains is the buffer as it was
  refine (View.read_writes_cons_unit_of_not_mem haloG.view _ (k0_off1_inb (grid0.coords t)) w []
    ((haloRect (grid0.coords t')).emb x) (hoff t) 1 ?_).trans ?_
  · rw [hy]
    show _ < (t.val % 16) * 512 ∨ (t.val % 16) * 512 + 512 ≤ _
    omega
  · rw [View.writes_nil, (Memref.isWhole_whole cc0_scratch0).read_unread e]
    rfl

/-- The bookkeeping moves on by one point: after point t has stored its rows, they and the rows of the fifteen points
    before it are in place. -/
theorem HaloOK_step (c : Dev nD) (t : Fin cfg0.N) (eG eU : Vec F S8x8192 .f32) (h : HaloOK m c t.val eG eU) :
    HaloOK m c (t.val + 1) (haloPut (grid0.coords t) eG (tailG m c t)) (haloPut (grid0.coords t) eU (tailU m c t)) := by
  intro p hp1 hp2
  by_cases hpt : p = t
  · -- the point itself: its rows were just stored
    subst hpt
    exact ⟨haloRows_put_same _ _ _, haloRows_put_same _ _ _⟩
  · -- one of the fifteen points before: 0 < t - p < 16, so another column block, untouched by the store
    have hne : p.val ≠ t.val := fun hv => hpt (Fin.ext hv)
    have hmod : t.val % 16 ≠ p.val % 16 := by omega
    obtain ⟨hG, hU⟩ := h p (by omega) (by omega)
    exact ⟨(haloRows_put_other t p hmod eG _).trans hG, (haloRows_put_other t p hmod eU _).trans hU⟩

/-- At a point below the first row block the rows handed down are those the point above stored. -/
theorem carried_of_HaloOK (c : Dev nD) (t : Fin cfg0.N) (ht : 16 ≤ t.val) (eG eU : Vec F S8x8192 .f32) (h : HaloOK m c t.val eG eU) :
    haloRows (grid0.coords t) eG = carriedG m c t ∧ haloRows (grid0.coords t) eU = carriedU m c t := by
  -- the point sixteen places earlier has the same column block, hence the same rows of the halo buffers
  have hmod : (t.val - 16) % 16 = t.val % 16 := by omega
  have hofft : k0_off1 (grid0.coords t) = k0_off1 (grid0.coords (above t)) := by
    rw [hoff, hoff]
    show ![5, (t.val % 16) * 512] = ![5, ((t.val - 16) % 16) * 512]
    rw [hmod]
  have hrows : ∀ e : Vec F S8x8192 .f32, haloRows (grid0.coords t) e = haloRows (grid0.coords (above t)) e := by
    intro e
    funext x
    unfold haloRows
    show e ((haloRect (grid0.coords t)).idx x) = e ((haloRect (grid0.coords (above t))).idx x)
    congr 1
    funext a
    apply Fin.ext
    show k0_off1 (grid0.coords t) a + 1 * (x a).val = k0_off1 (grid0.coords (above t)) a + 1 * (x a).val
    rw [hofft]
  obtain ⟨hG, hU⟩ := h (above t) (by show t.val - 16 < t.val; omega) (by show t.val ≤ t.val - 16 + 16; omega)
  exact ⟨(hrows eG).trans hG, (hrows eU).trans hU⟩

/-- At a first row block the carried rows are replaced by zeros: the mixed branches do not depend on them. -/
theorem pay8_rowFirst (i : grid0.Coords) (hi : Scalar.cmpi .eq (BitVec.ofNat 32 (i 1).val) 0#32 = 1#1)
    (x0 : Vec F S1x256x2048 .bf16) (x1 : Vec F S512x2048 .bf16) (h h' : Vec F S3x512 .f32) :
    k0_pay8 i x0 x1 h = k0_pay8 i x0 x1 h' := by
  unfold k0_pay8
  dsimp only
  rw [hi]
  rfl

theorem pay9_rowFirst (i : grid0.Coords) (hi : Scalar.cmpi .eq (BitVec.ofNat 32 (i 1).val) 0#32 = 1#1)
    (x0 : Vec F S1x256x2048 .bf16) (x2 : Vec F S512x2048 .bf16) (h h' : Vec F S3x512 .f32) :
    k0_pay9 i x0 x2 h = k0_pay9 i x0 x2 h' := by
  unfold k0_pay9
  dsimp only
  rw [hi]
  rfl

theorem gateMixed_rowFirst (i : grid0.Coords) (hi : Scalar.cmpi .eq (BitVec.ofNat 32 (i 1).val) 0#32 = 1#1)
    (x0 : Vec F S1x256x2048 .bf16) (x1 : Vec F S512x2048 .bf16) (x4 : Vec F S512x4 .f32) (h h' : Vec F S3x512 .f32) :
    gateMixed i x0 x1 x4 h = gateMixed i x0 x1 x4 h' := by
  unfold gateMixed k0_pay12
  rw [pay8_rowFirst i hi x0 x1 h h']

theorem upMixed_rowFirst (i : grid0.Coords) (hi : Scalar.cmpi .eq (BitVec.ofNat 32 (i 1).val) 0#32 = 1#1)
    (x0 : Vec F S1x256x2048 .bf16) (x2 : Vec F S512x2048 .bf16) (x5 : Vec F S512x4 .f32) (h h' : Vec F S3x512 .f32) :
    upMixed i x0 x2 x5 h = upMixed i x0 x2 x5 h' := by
  unfold upMixed
  rw [pay9_rowFirst i hi x0 x2 h h']

/-- So whatever a halo buffer holds that satisfies the bookkeeping, the body's update of the running sum at point t is
    `stepAt`. -/
theorem accStep_of_HaloOK (c : Dev nD) (t : Fin cfg0.N) (eG eU : Vec F S8x8192 .f32) (h : HaloOK m c t.val eG eU)
    (acc : Vec F S256x2048 .f32) :
    accStep (grid0.coords t) (xb m c t) (wgb m c t) (wub m c t) (wdb m c t) (cgb m c t) (cub m c t)
      (haloRows (grid0.coords t) eG) (haloRows (grid0.coords t) eU) acc = stepAt m c t acc := by
  unfold stepAt
  by_cases ht : 16 ≤ t.val
  · -- below the first row block the rows read are the rows handed down
    obtain ⟨hG, hU⟩ := carried_of_HaloOK m c t ht eG eU h
    rw [hG, hU]
  · -- at a first row block the mixed branches do not depend on the rows read
    have hlt : t.val % 128 < 16 := by omega
    have hi := (hrowFirst t).mpr hlt
    unfold accStep
    rw [gateMixed_rowFirst _ hi _ _ _ _ (carriedG m c t), upMixed_rowFirst _ hi _ _ _ _ (carriedU m c t)]

/-! ## The invariant between points and the proof data -/

/-- Before the first point the three buffers hold anything; afterwards the halo buffers hold something that keeps the
    last sixteen points' rows, and the running sum is named. -/
def PhiS (c : Dev nD) : (n : ℕ) → n ≤ cfg0.N → sProp 𝕄
  | 0, _ => Pipeline.ΦA spec0 c
  | n + 1, hn => iprop(iprop((∃ eG eU, ⌜HaloOK m c (n + 1) eG eU⌝ ∗ owns (c : Thread nD τ) haloG fullShare eG ∗ owns (c : Thread nD τ) haloU fullShare eU)
      ∗ owns (c : Thread nD τ) accM fullShare (accAfter m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ eG eU, ⌜HaloOK m c (n + 1) eG eU⌝ ∗ owns (c : Thread nD τ) haloG fullShare eG ∗ owns (c : Thread nD τ) haloU fullShare eU)
      ∗ owns (c : Thread nD τ) accM fullShare (accAfter m c n hn)) ∗ (∃ r, prngReg c r)) := rfl

theorem PhiS_pos (c : Dev nD) (n : ℕ) (h : n ≤ cfg0.N) (hz : n ≠ 0) :
    PhiS m c n h = iprop(iprop((∃ eG eU, ⌜HaloOK m c n eG eU⌝ ∗ owns (c : Thread nD τ) haloG fullShare eG ∗ owns (c : Thread nD τ) haloU fullShare eU)
      ∗ owns (c : Thread nD τ) accM fullShare (accAfter m c (n - 1) (by omega))) ∗ (∃ r, prngReg c r)) := by
  cases n with
  | zero => exact absurd rfl hz
  | succ n => rfl

/-- The proof data: the arrays as the region finds them; after the body each input's buffer at its block, the result
    block's buffer at the completed running sum; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAfter m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAfter m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

end Cert.KernelIdeal.Hand

end
-- ==== Proof.IdealBody.lean ====
/-
  The body obligation and the run of the whole program.

  At every grid point the body is handed its six input blocks, the result block's buffer, and — through the invariant
  between points — the two halo buffers and the running sum. Which of the three forms of the body applies is decided
  by the point's position on the innermost axis. Afterwards the halo buffers hold what they held with the point's three
  rows stored over its own column group, which keeps the bookkeeping of the last sixteen points; the running sum holds
  the point's update; at a last column block the result block's buffer holds the completed sum, and elsewhere it is
  handed back untouched.
-/
import proofs.«119931_j53343493816972_1_alg».proof.Proof.IdealPoints

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Reading back a list of stores whose last store covers the whole buffer gives that store's value. -/
theorem read_writes_head_whole {sig' : RefSig} {κ : Kind} {sp : Space} {S : Shape} {e : EltTy} {Val : EltTy → Type}
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e1 := View.read_writes_cons_emb v f (Rect.whole S) w L y
  rw [Rect.emb_whole_apply] at e1
  exact e1

theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl
theorem live4 (t : Fin cfg0.N) : cfg0.idle 4 (grid0.coords t) = false := rfl
theorem live5 (t : Fin cfg0.N) : cfg0.idle 5 (grid0.coords t) = false := rfl

/-- What the body is called with at point t, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  have hN : t.val < 256 := lt_of_lt_of_eq t.isLt (show cfg0.N = 256 from N_0)
  by_cases h0 : t.val % 16 = 0
  · have h1 : ¬t.val % 16 = 15 := by omega
    have hcA : condFirst (grid0.coords t) := (hcondFirst t).mpr h0
    have hcB : ¬condLast (grid0.coords t) := fun h => h1 ((hcondLast t).mp h)
    rw [Dat.leavesExact_idle (dats m 0 c) 6 t (idleAt_out t hcB) (noFlush_out t hcB)]
    rw [accAfter_first m c t h0]
    by_cases hz : t.val = 0
    ·
        rw [PhiS_castSucc m c t, PhiS_zero m c _ _ hz, PhiA_eq]
        iintro ⟨⟨⟨⟨%eG, HG⟩, ⟨%eU, HU⟩, ⟨%e12, HA⟩⟩, Hg⟩, Ho, ⟨%d0, H0⟩, ⟨%d1, H1⟩, ⟨%d2, H2⟩, ⟨%d3, H3⟩, ⟨%d4, H4⟩, ⟨%d5, H5⟩, ⟨%d6, H6⟩⟩
        have hOK : HaloOK m c t.val eG eU := fun p hp _ => absurd hp (by omega)
        iapply ((runFirst c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU e12).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HG]; · iexact HG
        isplitl [HU]; · iexact HU
        isplitl [HA]; · iexact HA
        iintro ⟨H0, H1, H2, H3, H4, H5, H6, HG, HU, HA⟩
        isplitl [HG HU HA Hg]
        · isplitr [Hg]
          swap; · iexact Hg
          isplitl [HG HU]
          · iexists (haloPut (grid0.coords t) eG (tailG m c t)), (haloPut (grid0.coords t) eU (tailU m c t))
            isplitr
            · ipureintro; exact HaloOK_step m c t eG eU hOK
            isplitl [HG]
            · unfold owns; iexists _; isplitr
              swap; · iexact HG
              ipureintro
              rw [(runFirst_halo c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU e12).1]; rfl
            · unfold owns; iexists _; isplitr
              swap; · iexact HU
              ipureintro
              rw [(runFirst_halo c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU e12).2]; rfl
          · unfold owns; iexists _; isplitr
            swap; · iexact HA
            ipureintro
            rw [runFirst_acc c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU e12]
            rw [read_writes_head_whole _ _ hz2, accStep_of_HaloOK m c t eG eU hOK]
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    ·
        rw [PhiS_castSucc m c t, PhiS_pos m c _ _ hz]
        iintro ⟨⟨⟨⟨%eG, %eU, %hOK, HG, HU⟩, HA⟩, Hg⟩, Ho, ⟨%d0, H0⟩, ⟨%d1, H1⟩, ⟨%d2, H2⟩, ⟨%d3, H3⟩, ⟨%d4, H4⟩, ⟨%d5, H5⟩, ⟨%d6, H6⟩⟩
        iapply ((runFirst c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HG]; · iexact HG
        isplitl [HU]; · iexact HU
        isplitl [HA]; · iexact HA
        iintro ⟨H0, H1, H2, H3, H4, H5, H6, HG, HU, HA⟩
        isplitl [HG HU HA Hg]
        · isplitr [Hg]
          swap; · iexact Hg
          isplitl [HG HU]
          · iexists (haloPut (grid0.coords t) eG (tailG m c t)), (haloPut (grid0.coords t) eU (tailU m c t))
            isplitr
            · ipureintro; exact HaloOK_step m c t eG eU hOK
            isplitl [HG]
            · unfold owns; iexists _; isplitr
              swap; · iexact HG
              ipureintro
              rw [(runFirst_halo c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _).1]; rfl
            · unfold owns; iexists _; isplitr
              swap; · iexact HU
              ipureintro
              rw [(runFirst_halo c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _).2]; rfl
          · unfold owns; iexists _; isplitr
            swap; · iexact HA
            ipureintro
            rw [runFirst_acc c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _]
            rw [read_writes_head_whole _ _ hz2, accStep_of_HaloOK m c t eG eU hOK]
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun h => h0 (by rw [h])
    by_cases h1 : t.val % 16 = 15
    · have hcA : ¬condFirst (grid0.coords t) := fun h => h0 ((hcondFirst t).mp h)
      have hcB : condLast (grid0.coords t) := (hcondLast t).mpr h1
      rw [show (dats m 0 c).leavesExact 6 t = owns (c : Thread nD τ) (ms6 t) fullShare ((dats m 0 c).after 6 t) from by
        unfold Dat.leavesExact; rw [liveAt_out t hcB], after_6]
      rw [accAfter_next m c t h0]
      rw [PhiS_castSucc m c t, PhiS_pos m c _ _ hz]
      iintro ⟨⟨⟨⟨%eG, %eU, %hOK, HG, HU⟩, HA⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HG]; · iexact HG
      isplitl [HU]; · iexact HU
      isplitl [HA]; · iexact HA
      iintro ⟨H0, H1, H2, H3, H4, H5, ⟨%f6, H6⟩, HG, HU, HA⟩
      isplitl [HG HU HA Hg]
      · isplitr [Hg]
        swap; · iexact Hg
        isplitl [HG HU]
        · iexists (haloPut (grid0.coords t) eG (tailG m c t)), (haloPut (grid0.coords t) eU (tailU m c t))
          isplitr
          · ipureintro; exact HaloOK_step m c t eG eU hOK
          isplitl [HG]
          · unfold owns; iexists _; isplitr
            swap; · iexact HG
            ipureintro
            rw [(runLast_halo c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _).1]; rfl
          · unfold owns; iexists _; isplitr
            swap; · iexact HU
            ipureintro
            rw [(runLast_halo c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _).2]; rfl
        · unfold owns; iexists _; isplitr
          swap; · iexact HA
          ipureintro
          rw [runLast_acc c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _]
          rw [read_writes_head_whole _ _ hz2, accStep_of_HaloOK m c t eG eU hOK]
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      rw [runLast_out c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _]
      rw [read_writes_head_whole _ _ hz3, accStep_of_HaloOK m c t eG eU hOK]
      unfold outAfter
      rw [accAfter_next m c t h0]
    · have hcA : ¬condFirst (grid0.coords t) := fun h => h0 ((hcondFirst t).mp h)
      have hcB : ¬condLast (grid0.coords t) := fun h => h1 ((hcondLast t).mp h)
      rw [Dat.leavesExact_idle (dats m 0 c) 6 t (idleAt_out t hcB) (noFlush_out t hcB)]
      rw [accAfter_next m c t h0]
      rw [PhiS_castSucc m c t, PhiS_pos m c _ _ hz]
      iintro ⟨⟨⟨⟨%eG, %eU, %hOK, HG, HU⟩, HA⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HG]; · iexact HG
      isplitl [HU]; · iexact HU
      isplitl [HA]; · iexact HA
      iintro ⟨H0, H1, H2, H3, H4, H5, H6, HG, HU, HA⟩
      isplitl [HG HU HA Hg]
      · isplitr [Hg]
        swap; · iexact Hg
        isplitl [HG HU]
        · iexists (haloPut (grid0.coords t) eG (tailG m c t)), (haloPut (grid0.coords t) eU (tailU m c t))
          isplitr
          · ipureintro; exact HaloOK_step m c t eG eU hOK
          isplitl [HG]
          · unfold owns; iexists _; isplitr
            swap; · iexact HG
            ipureintro
            rw [(runMid_halo c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _).1]; rfl
          · unfold owns; iexists _; isplitr
            swap; · iexact HU
            ipureintro
            rw [(runMid_halo c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _).2]; rfl
        · unfold owns; iexists _; isplitr
          swap; · iexact HA
          ipureintro
          rw [runMid_acc c (grid0.coords t) (ms0 t) (hs0 t) (ms1 t) (hs1 t) (ms2 t) (hs2 t) (ms3 t) (hs3 t) (ms4 t) (hs4 t) (ms5 t) (hs5 t) (ms6 t) (hs6 t) haloG (Memref.isWhole_whole _) haloU (Memref.isWhole_whole _) accM (Memref.isWhole_whole _) hcA hcB (xb m c t) (wgb m c t) (wub m c t) (wdb m c t) (cgb m c t) (cub m c t) eG eU _]
          rw [read_writes_head_whole _ _ hz2, accStep_of_HaloOK m c t eG eU hOK]
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the three buffers back at some contents. -/
theorem hout (c : Dev nD) : (dats m 0 c).Φ (Fin.last cfg0.N) ⊢ Pipeline.ΦA spec0 c := by
  have hne : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨⟨⟨%eG, %eU, -, HG, HU⟩, HA⟩, Hg⟩
  isplitr [Hg]
  swap; · iexact Hg
  isplitl [HG]; · iexists _; iexact HG
  isplitl [HU]; · iexists _; iexact HU
  iexists _; iexact HA

set_option backward.isDefEq.respectTransparency.types false in
/-- Every weakly fair execution of the program terminates, and every final state has the result array at what the
    proof data computes and every other array as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.IdealPayloads.lean ====
/-
  The body's arithmetic at the extended reals, read at an entry.

  With every float an extended real and every operation exact, a block's projection is a plain sum over the model
  axis, the causal taps read the "extended block" (three carried rows, or zeros at a first row block, stacked above
  the block's own 256 rows) at the row offsets 0 to 3, and the update of the running sum adds, for each of the
  block's 512 hidden channels, the gated value times the down weight.
-/
import proofs.«119931_j53343493816972_1_alg».proof.Proof.IdealBody
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open ValueIdx

/-! ## The two projections: a product of matrices read at an entry

The left factor's index at an output entry (r, l) and a position q of the contracted axis is (r, q), the right factor's
is (q, l): one coordinate at a time. -/

theorem lhs_proj_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
theorem lhs_proj_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
theorem rhs_proj_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
theorem rhs_proj_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

/-- A 256 × 2048 matrix times a 2048 × 512 one into a zero accumulator, read at an entry. -/
theorem proj_apply (a : FVec Ideal S256x2048 .bf16) (b : FVec Ideal S2048x512 .bf16) (r : Fin 256) (l : Fin 512) :
    matmul dot_S256x2048_S2048x512_S256x512_1_0_0_1_n_n none a b (constant (F := Ideal) S256x512 .f32 0x00000000#32) (ix2 r l)
      = ∑ d : Fin 2048, (a (ix2 r d) : EReal) * (b (ix2 d l) : EReal) := by
  refine (Ideal.matmul_constant_zero_apply dot_S256x2048_S2048x512_S256x512_1_0_0_1_n_n none a b (ix2 r l)).trans ?_
  rw [← Equiv.sum_comp (ValueIdx.contrEquiv1 dot_S256x2048_S2048x512_S256x512_1_0_0_1_n_n 2048 rfl rfl).symm]
  refine Finset.sum_congr rfl fun k _ => ?_
  have hk := ValueIdx.contrEquiv1_symm_val dot_S256x2048_S2048x512_S256x512_1_0_0_1_n_n 2048 rfl rfl k
  have el : dot_S256x2048_S2048x512_S256x512_1_0_0_1_n_n.lhsIdx (ix2 r l) ((ValueIdx.contrEquiv1 dot_S256x2048_S2048x512_S256x512_1_0_0_1_n_n 2048 rfl rfl).symm k) = ix2 r k := funext fun a => Fin.ext (by
    match a with
    | ⟨0, _⟩ => exact lhs_proj_0 _ _
    | ⟨1, _⟩ => exact (lhs_proj_1 _ _).trans hk)
  have er : dot_S256x2048_S2048x512_S256x512_1_0_0_1_n_n.rhsIdx (ix2 r l) ((ValueIdx.contrEquiv1 dot_S256x2048_S2048x512_S256x512_1_0_0_1_n_n 2048 rfl rfl).symm k) = ix2 k l := funext fun a => Fin.ext (by
    match a with
    | ⟨0, _⟩ => exact (rhs_proj_0 _ _).trans hk
    | ⟨1, _⟩ => exact rhs_proj_1 _ _)
  rw [el, er]

/-- A block's gate projection at row r, channel l: the sum over the model axis. -/
theorem pay6_apply (x0 : Vec Ideal S1x256x2048 .bf16) (x1 : Vec Ideal S512x2048 .bf16) (r : Fin 256) (l : Fin 512) :
    k0_pay6 (F := Ideal) x0 x1 (ix2 r l) = ∑ d : Fin 2048, (x0 (ix3 (0 : Fin 1) r d) : EReal) * (x1 (ix2 l d) : EReal) := by
  unfold k0_pay6 k0_pay5
  refine (proj_apply _ _ r l).trans ?_
  refine Finset.sum_congr rfl fun d _ => ?_
  rw [shapeCast_1ab_ab_apply, transpose_ix2_apply, shapeCast_self]

/-- The up projection likewise. -/
theorem pay7_apply (x0 : Vec Ideal S1x256x2048 .bf16) (x2 : Vec Ideal S512x2048 .bf16) (r : Fin 256) (l : Fin 512) :
    k0_pay7 (F := Ideal) x0 x2 (ix2 r l) = ∑ d : Fin 2048, (x0 (ix3 (0 : Fin 1) r d) : EReal) * (x2 (ix2 l d) : EReal) := by
  unfold k0_pay7 k0_pay5
  refine (proj_apply _ _ r l).trans ?_
  refine Finset.sum_congr rfl fun d _ => ?_
  rw [shapeCast_1ab_ab_apply, transpose_ix2_apply, shapeCast_self]

/-! ## The rows handed down -/

/-- The rows a point hands down are rows 253 to 255 of its projections. -/
theorem gateTail_apply (x0 : Vec Ideal S1x256x2048 .bf16) (x1 : Vec Ideal S512x2048 .bf16) (j : Fin 3) (l : Fin 512) :
    gateTail (F := Ideal) x0 x1 (ix2 j l) = k0_pay6 (F := Ideal) x0 x1 (ix2 (⟨253 + j.val, by have := j.isLt; omega⟩ : Fin 256) l) := by
  unfold gateTail k0_pay16
  generalize k0_pay6 (F := Ideal) x0 x1 = p
  rw [shapeCast_self]
  exact slice2_axis0_apply 253 p slices_S256x512_o253_0_S3x512 j l _ rfl

theorem upTail_apply (x0 : Vec Ideal S1x256x2048 .bf16) (x2 : Vec Ideal S512x2048 .bf16) (j : Fin 3) (l : Fin 512) :
    upTail (F := Ideal) x0 x2 (ix2 j l) = k0_pay7 (F := Ideal) x0 x2 (ix2 (⟨253 + j.val, by have := j.isLt; omega⟩ : Fin 256) l) := by
  unfold upTail k0_pay1 k0_pay17
  generalize k0_pay7 (F := Ideal) x0 x2 = p
  rw [shapeCast_self]
  exact slice2_axis0_apply 253 p slices_S256x512_o253_0_S3x512 j l _ rfl

/-! ## The causal taps -/

/-- Row q (of 259) of the extended block: the carried rows `h`, zeros instead at a first row block, above the rows of
    the block's own projection `p`. -/
def extRow (i : grid0.Coords) (h : Vec Ideal S3x512 .f32) (p : FVec Ideal S256x512 .f32) (q : ℕ) (hq : q < 259) (l : Fin 512) : EReal :=
  if hq3 : q < 3 then
    (if Scalar.cmpi .eq (BitVec.ofNat 32 (i 1).val) 0#32 = 1#1 then 0 else h (ix2 (⟨q, hq3⟩ : Fin 3) l))
  else p (ix2 (⟨q - 3, by omega⟩ : Fin 256) l)

/-- Three rows, zeros instead when the bit `c` is set, stacked above a 256-row block: read at row q. -/
theorem stack_apply (c : BitVec 1) (h : Vec Ideal S3x512 .f32) (p : FVec Ideal S256x512 .f32) (q : ℕ) (hq : q < 259) (l : Fin 512) :
    concatenate S259x512 0 [⟨S3x512, Scalar.select c (broadcast S3x512 (Scalar.ofBits (F := Ideal) .f32 0x00000000#32)) h⟩, ⟨S256x512, p⟩]
        concatenates_S3x512_S256x512_S259x512_d0 (ix2 (⟨q, hq⟩ : Fin 259) l)
      = if hq3 : q < 3 then (if c = 1#1 then (0 : EReal) else h (ix2 (⟨q, hq3⟩ : Fin 3) l)) else p (ix2 (⟨q - 3, by omega⟩ : Fin 256) l) := by
  by_cases hq3 : q < 3
  · rw [dif_pos hq3]
    refine (concatenate_pair_apply_left (0 : Fin S259x512.rank) _ p concatenates_S3x512_S256x512_S259x512_d0
      (ix2 (⟨q, hq⟩ : Fin 259) l) rfl (ix2 (⟨q, hq3⟩ : Fin 3) l) (fun b => by
        match b with
        | ⟨0, _⟩ => rfl
        | ⟨1, _⟩ => rfl)).trans ?_
    by_cases hc : c = 1#1
    · rw [if_pos hc, hc, select_one]
      exact Ideal.ofBits_zero_f32
    · rw [if_neg hc, eq_zero_of_ne_one hc, select_zero]
  · rw [dif_neg hq3]
    exact concatenate_pair_apply_right (0 : Fin S259x512.rank) _ p concatenates_S3x512_S256x512_S259x512_d0
      (ix2 (⟨q, hq⟩ : Fin 259) l) rfl rfl (ix2 (⟨q - 3, by omega⟩ : Fin 256) l) (fun b hb => by
        match b, hb with
        | ⟨0, _⟩, hb => exact absurd rfl hb
        | ⟨1, _⟩, _ => rfl) (by show q - 3 + 3 = q; omega)

/-- The gate branch's extended block at row q. -/
theorem pay8_apply (i : grid0.Coords) (x0 : Vec Ideal S1x256x2048 .bf16) (x1 : Vec Ideal S512x2048 .bf16) (h : Vec Ideal S3x512 .f32)
    (q : ℕ) (hq : q < 259) (l : Fin 512) :
    k0_pay8 (F := Ideal) i x0 x1 h (ix2 (⟨q, hq⟩ : Fin 259) l) = extRow i h (k0_pay6 (F := Ideal) x0 x1) q hq l := by
  unfold k0_pay8 extRow
  generalize k0_pay6 (F := Ideal) x0 x1 = p
  exact stack_apply _ h p q hq l

/-- The up branch's extended block at row q. -/
theorem pay9_apply (i : grid0.Coords) (x0 : Vec Ideal S1x256x2048 .bf16) (x2 : Vec Ideal S512x2048 .bf16) (h : Vec Ideal S3x512 .f32)
    (q : ℕ) (hq : q < 259) (l : Fin 512) :
    k0_pay9 (F := Ideal) i x0 x2 h (ix2 (⟨q, hq⟩ : Fin 259) l) = extRow i h (k0_pay7 (F := Ideal) x0 x2) q hq l := by
  unfold k0_pay9 extRow
  generalize k0_pay7 (F := Ideal) x0 x2 = p
  exact stack_apply _ h p q hq l

/-- Rows k to k + 255 of a 259-row block, read at row r. -/
theorem rows_apply (k : ℕ) (hk : k < 4) (E : FVec Ideal S259x512 .f32) (hs : S259x512.Slices ![k, 0] S256x512) (r : Fin 256) (l : Fin 512) :
    extractStridedSlice S256x512 ![k, 0] E hs (ix2 r l) = E (ix2 (⟨r.val + k, by have := r.isLt; omega⟩ : Fin 259) l) :=
  slice2_axis0_apply k E hs r l _ (Nat.add_comm _ _)

/-- Column k of the tap weights, spread over the block's 256 rows, read at row r, channel l. -/
theorem tap_apply (k : ℕ) (hk : k < 4) (w : FVec Ideal S512x4 .f32) (hs : S512x4.Slices ![0, k] S512x1) (r : Fin 256) (l : Fin 512) :
    broadcastTo S256x512 (shapeCast S1x512 (shapeCast S512 (extractStridedSlice S512x1 ![0, k] w hs) shapeCasts_S512x1_S512)
        shapeCasts_S512_S1x512) broadcasts_S1x512_S256x512 (ix2 r l)
      = w (ix2 l (⟨k, hk⟩ : Fin 4)) := by
  refine (broadcastTo_1b_ab_apply _ _ r l).trans ?_
  refine (shapeCast_a_1a_apply _ _ 0 l).trans ?_
  refine (shapeCast_apply _ shapeCasts_S512x1_S512 (ix1 l) (ix2 l (0 : Fin 1)) ?_).trans ?_
  · rw [Shape.rowMajor_val_two, Shape.rowMajor_val_one]
    show l.val * 1 + 0 = l.val
    omega
  · exact slice2_axis1_apply k w hs l 0 ⟨k, hk⟩ rfl

/-- The gate branch after the taps: the projection, then tap k times row r + k of the extended block, k = 0 … 3, added
    one at a time. -/
theorem gateMixed_apply (i : grid0.Coords) (x0 : Vec Ideal S1x256x2048 .bf16) (x1 : Vec Ideal S512x2048 .bf16) (x4 : Vec Ideal S512x4 .f32)
    (h : Vec Ideal S3x512 .f32) (r : Fin 256) (l : Fin 512) :
    gateMixed (F := Ideal) i x0 x1 x4 h (ix2 r l)
      = (((k0_pay6 (F := Ideal) x0 x1 (ix2 r l)
            + extRow i h (k0_pay6 (F := Ideal) x0 x1) (r.val + 0) (by have := r.isLt; omega) l * (x4 (ix2 l (0 : Fin 4)) : EReal))
            + extRow i h (k0_pay6 (F := Ideal) x0 x1) (r.val + 1) (by have := r.isLt; omega) l * (x4 (ix2 l (1 : Fin 4)) : EReal))
            + extRow i h (k0_pay6 (F := Ideal) x0 x1) (r.val + 2) (by have := r.isLt; omega) l * (x4 (ix2 l (2 : Fin 4)) : EReal))
            + extRow i h (k0_pay6 (F := Ideal) x0 x1) (r.val + 3) (by have := r.isLt; omega) l * (x4 (ix2 l (3 : Fin 4)) : EReal) := by
  unfold gateMixed k0_pay14 k0_pay12 k0_pay13 k0_pay10
  simp only [addf_apply, mulf_apply, shapeCast_self, rows_apply 0 (by decide), rows_apply 1 (by decide), rows_apply 2 (by decide),
    rows_apply 3 (by decide), tap_apply 0 (by decide), tap_apply 1 (by decide), tap_apply 2 (by decide), tap_apply 3 (by decide),
    pay8_apply]
  rfl

/-- The up branch after the taps. -/
theorem upMixed_apply (i : grid0.Coords) (x0 : Vec Ideal S1x256x2048 .bf16) (x2 : Vec Ideal S512x2048 .bf16) (x5 : Vec Ideal S512x4 .f32)
    (h : Vec Ideal S3x512 .f32) (r : Fin 256) (l : Fin 512) :
    upMixed (F := Ideal) i x0 x2 x5 h (ix2 r l)
      = (((k0_pay7 (F := Ideal) x0 x2 (ix2 r l)
            + extRow i h (k0_pay7 (F := Ideal) x0 x2) (r.val + 0) (by have := r.isLt; omega) l * (x5 (ix2 l (0 : Fin 4)) : EReal))
            + extRow i h (k0_pay7 (F := Ideal) x0 x2) (r.val + 1) (by have := r.isLt; omega) l * (x5 (ix2 l (1 : Fin 4)) : EReal))
            + extRow i h (k0_pay7 (F := Ideal) x0 x2) (r.val + 2) (by have := r.isLt; omega) l * (x5 (ix2 l (2 : Fin 4)) : EReal))
            + extRow i h (k0_pay7 (F := Ideal) x0 x2) (r.val + 3) (by have := r.isLt; omega) l * (x5 (ix2 l (3 : Fin 4)) : EReal) := by
  unfold upMixed k0_pay15 k0_pay11
  simp only [addf_apply, mulf_apply, shapeCast_self, rows_apply 0 (by decide), rows_apply 1 (by decide), rows_apply 2 (by decide),
    rows_apply 3 (by decide), tap_apply 0 (by decide), tap_apply 1 (by decide), tap_apply 2 (by decide), tap_apply 3 (by decide),
    pay9_apply]
  rfl

/-! ## The down projection added to the running sum -/

theorem lhs_down_0 (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
theorem lhs_down_1 (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q
theorem rhs_down_0 (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q
theorem rhs_down_1 (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

/-- A 256 × 512 matrix times a 512 × 2048 one into a zero accumulator, read at an entry. -/
theorem down_apply (a : FVec Ideal S256x512 .bf16) (b : FVec Ideal S512x2048 .bf16) (r : Fin 256) (d : Fin 2048) :
    matmul dot_S256x512_S512x2048_S256x2048_1_0_0_1_n_n none a b (constant (F := Ideal) S256x2048 .f32 0x00000000#32) (ix2 r d)
      = ∑ l : Fin 512, (a (ix2 r l) : EReal) * (b (ix2 l d) : EReal) := by
  refine (Ideal.matmul_constant_zero_apply dot_S256x512_S512x2048_S256x2048_1_0_0_1_n_n none a b (ix2 r d)).trans ?_
  rw [← Equiv.sum_comp (ValueIdx.contrEquiv1 dot_S256x512_S512x2048_S256x2048_1_0_0_1_n_n 512 rfl rfl).symm]
  refine Finset.sum_congr rfl fun k _ => ?_
  have hk := ValueIdx.contrEquiv1_symm_val dot_S256x512_S512x2048_S256x2048_1_0_0_1_n_n 512 rfl rfl k
  have el : dot_S256x512_S512x2048_S256x2048_1_0_0_1_n_n.lhsIdx (ix2 r d) ((ValueIdx.contrEquiv1 dot_S256x512_S512x2048_S256x2048_1_0_0_1_n_n 512 rfl rfl).symm k) = ix2 r k := funext fun a => Fin.ext (by
    match a with
    | ⟨0, _⟩ => exact lhs_down_0 _ _
    | ⟨1, _⟩ => exact (lhs_down_1 _ _).trans hk)
  have er : dot_S256x512_S512x2048_S256x2048_1_0_0_1_n_n.rhsIdx (ix2 r d) ((ValueIdx.contrEquiv1 dot_S256x512_S512x2048_S256x2048_1_0_0_1_n_n 512 rfl rfl).symm k) = ix2 k d := funext fun a => Fin.ext (by
    match a with
    | ⟨0, _⟩ => exact (rhs_down_0 _ _).trans hk
    | ⟨1, _⟩ => exact rhs_down_1 _ _)
  rw [el, er]

/-- The running sum's update at row r, model channel d: the block's 512 hidden channels' gated values against the down
    weights, added to what was there. -/
theorem accStep_apply (i : grid0.Coords) (x0 : Vec Ideal S1x256x2048 .bf16) (x1 x2 : Vec Ideal S512x2048 .bf16) (x3 : Vec Ideal S2048x512 .bf16)
    (x4 x5 : Vec Ideal S512x4 .f32) (hg hu : Vec Ideal S3x512 .f32) (acc : Vec Ideal S256x2048 .f32) (r : Fin 256) (d : Fin 2048) :
    accStep (F := Ideal) i x0 x1 x2 x3 x4 x5 hg hu acc (ix2 r d)
      = (acc (ix2 r d) : EReal) + ∑ l : Fin 512,
          ((upMixed (F := Ideal) i x0 x2 x5 hu (ix2 r l) : EReal)
            * ((gateMixed (F := Ideal) i x0 x1 x4 hg (ix2 r l) : EReal) * Ideal.logistic (gateMixed (F := Ideal) i x0 x1 x4 hg (ix2 r l))))
          * (x3 (ix2 d l) : EReal) := by
  unfold accStep k0_pay2
  generalize gateMixed (F := Ideal) i x0 x1 x4 hg = g
  generalize upMixed (F := Ideal) i x0 x2 x5 hu = u
  rw [shapeCast_self]
  refine (addf_apply _ _ _).trans ?_
  refine congrArg (fun z : EReal => (acc (ix2 r d) : EReal) + z) ?_
  refine (down_apply _ _ r d).trans ?_
  refine Finset.sum_congr rfl fun l _ => ?_
  rw [transpose_ix2_apply, shapeCast_self]
  rfl

/-! ## The cleared sum, the copy out -/

/-- The cleared running sum is zero everywhere. -/
theorem pay4_apply (r : Fin 256) (d : Fin 2048) : (k0_pay4 (F := Ideal) (ix2 r d) : EReal) = 0 := by
  unfold k0_pay4
  rw [shapeCast_self]
  exact Ideal.ofBits_zero_f32

/-- The copy into the result block only adds a leading axis of extent one. -/
theorem pay3_apply (v : Vec Ideal S256x2048 .f32) (r : Fin 256) (d : Fin 2048) :
    k0_pay3 (F := Ideal) v (ix3 (0 : Fin 1) r d) = v (ix2 r d) := by
  unfold k0_pay3
  exact shapeCast_ab_1ab_apply v shapeCasts_S256x2048_S1x256x2048 0 r d

end Cert.KernelIdeal.Hand

end
-- ==== Proof.Spec.lean ====
/-
  The mathematics of the gated feed-forward layer with causal depthwise taps, over the extended reals, as functions
  of plain indices.

  For an input row x[b,t,·] the layer forms two projections against the rows of two weight matrices ("gate" and "up"),
  g[b,t,f] = Σ_d x[b,t,d]·w[f,d]. Each projection is then mixed along the sequence axis with four per-channel taps,
  looking back at most three rows and reading zero before the sequence's start, and added to itself (a residual).
  The two mixed projections are combined as  up · (gate · σ(gate))  with σ the logistic function, and the result is
  projected down against the rows of a third matrix,  out[b,t,d] = Σ_f h[b,t,f]·wd[d,f].

  Two ways of bracketing the five-term sum of the mixing step are stated (`mixL`: the residual first, then the taps
  one by one; `mixR`: the taps summed first, the residual added last) and proved equal: addition of extended reals
  is commutative and associative, so no finiteness is needed. The down projection's sum over the 8192 hidden
  channels is also stated in sixteen consecutive groups of 512 (`downGrouped`), again equal by regrouping alone.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Spec

open Idealize.ShloMosaic

/-- A hidden-width array indexed by batch entry, sequence row and hidden channel. -/
abbrev Hid : Type := Fin 2 → Fin 2048 → Fin 8192 → EReal

/-- One projection: row (b, t) of the input against row f of a weight matrix. -/
def proj (x : Fin 2 → Fin 2048 → Fin 2048 → EReal) (w : Fin 8192 → Fin 2048 → EReal) : Hid :=
  fun b t f => ∑ d : Fin 2048, x b t d * w f d

/-- The array read `s` rows back along the sequence, zero before the sequence's start. -/
def back (g : Hid) (b : Fin 2) (t : Fin 2048) (s : ℕ) (f : Fin 8192) : EReal :=
  if h : s ≤ t.val then g b ⟨t.val - s, lt_of_le_of_lt (Nat.sub_le _ _) t.isLt⟩ f else 0

/-- The causal mixing with residual, bracketed from the left: the residual, then tap 0 (three rows back) to tap 3
    (the row itself) added one at a time. -/
def mixL (g : Hid) (cw : Fin 8192 → Fin 4 → EReal) : Hid :=
  fun b t f => (((g b t f + back g b t 3 f * cw f 0) + back g b t 2 f * cw f 1) + back g b t 1 f * cw f 2) + back g b t 0 f * cw f 3

/-- The same five terms with the four taps summed first and the residual added last. -/
def mixR (g : Hid) (cw : Fin 8192 → Fin 4 → EReal) : Hid :=
  fun b t f => g b t f + (((back g b t 3 f * cw f 0 + back g b t 2 f * cw f 1) + back g b t 1 f * cw f 2) + back g b t 0 f * cw f 3)

theorem mixL_eq_mixR (g : Hid) (cw : Fin 8192 → Fin 4 → EReal) : mixL g cw = mixR g cw := by
  funext b t f
  unfold mixL mixR
  -- both bracketings normalise to the same right-nested sum
  simp only [add_assoc]

/-- The gating: up · (gate · σ(gate)). -/
def gated (gc uc : Hid) : Hid := fun b t f => uc b t f * (gc b t f * Ideal.logistic (gc b t f))

/-- The down projection: the sum over all hidden channels. -/
def down (h : Hid) (wd : Fin 2048 → Fin 8192 → EReal) (b : Fin 2) (t : Fin 2048) (d : Fin 2048) : EReal :=
  ∑ f : Fin 8192, h b t f * wd d f

/-- Channel `l` of group `k`, of sixteen groups of 512. -/
def chan (k : Fin 16) (l : Fin 512) : Fin 8192 := ⟨k.val * 512 + l.val, by have := k.isLt; have := l.isLt; omega⟩

/-- The down projection summed group by group. -/
def downGrouped (h : Hid) (wd : Fin 2048 → Fin 8192 → EReal) (b : Fin 2) (t : Fin 2048) (d : Fin 2048) : EReal :=
  ∑ k : Fin 16, ∑ l : Fin 512, h b t (chan k l) * wd d (chan k l)

/-- A sum over 8192 consecutive indices is the sum of its sixteen consecutive blocks of 512: the pairs (k, l) and the
    indices k·512 + l are in bijection. -/
theorem sum_chan (F : Fin 8192 → EReal) : ∑ f : Fin 8192, F f = ∑ k : Fin 16, ∑ l : Fin 512, F (chan k l) := by
  rw [← Fintype.sum_prod_type' (f := fun k l => F (chan k l))]
  rw [← (finProdFinEquiv (m := 16) (n := 512)).sum_comp]
  refine Finset.sum_congr rfl fun p _ => ?_
  congr 1
  apply Fin.ext
  simp [chan, finProdFinEquiv, Nat.mul_comm, Nat.add_comm]

theorem down_eq_downGrouped (h : Hid) (wd : Fin 2048 → Fin 8192 → EReal) : down h wd = downGrouped h wd := by
  funext b t d
  unfold down downGrouped
  exact sum_chan (fun f => h b t f * wd d f)

/-- The whole layer with the mixing bracketed from the left and the down projection grouped. -/
def layerL (x : Fin 2 → Fin 2048 → Fin 2048 → EReal) (wg wu : Fin 8192 → Fin 2048 → EReal) (wd : Fin 2048 → Fin 8192 → EReal)
    (cg cu : Fin 8192 → Fin 4 → EReal) : Fin 2 → Fin 2048 → Fin 2048 → EReal :=
  downGrouped (gated (mixL (proj x wg) cg) (mixL (proj x wu) cu)) wd

/-- The whole layer with the taps summed first and the down projection as one sum. -/
def layerR (x : Fin 2 → Fin 2048 → Fin 2048 → EReal) (wg wu : Fin 8192 → Fin 2048 → EReal) (wd : Fin 2048 → Fin 8192 → EReal)
    (cg cu : Fin 8192 → Fin 4 → EReal) : Fin 2 → Fin 2048 → Fin 2048 → EReal :=
  down (gated (mixR (proj x wg) cg) (mixR (proj x wu) cu)) wd

theorem layerL_eq_layerR (x : Fin 2 → Fin 2048 → Fin 2048 → EReal) (wg wu : Fin 8192 → Fin 2048 → EReal) (wd : Fin 2048 → Fin 8192 → EReal)
    (cg cu : Fin 8192 → Fin 4 → EReal) : layerL x wg wu wd cg cu = layerR x wg wu wd cg cu := by
  unfold layerL layerR
  rw [mixL_eq_mixR, mixL_eq_mixR, down_eq_downGrouped]

/-! ## The argument arrays as functions of plain indices -/

open ValueIdx in
/-- The input: batch entry, sequence row, model channel. -/
def arr3 (a : (⟨3, ![2, 2048, 2048]⟩ : Shape).Idx → EReal) : Fin 2 → Fin 2048 → Fin 2048 → EReal :=
  fun b t d => a (ix3 b t d)

open ValueIdx in
/-- A projection's weights: hidden channel, model channel. -/
def arr2w (a : (⟨2, ![8192, 2048]⟩ : Shape).Idx → EReal) : Fin 8192 → Fin 2048 → EReal :=
  fun f d => a (ix2 f d)

open ValueIdx in
/-- The down projection's weights: model channel, hidden channel. -/
def arr2d (a : (⟨2, ![2048, 8192]⟩ : Shape).Idx → EReal) : Fin 2048 → Fin 8192 → EReal :=
  fun d f => a (ix2 d f)

open ValueIdx in
/-- The taps of the gate branch: the first 8192 rows of the tap array. -/
def tapsLo (a : (⟨2, ![16384, 4]⟩ : Shape).Idx → EReal) : Fin 8192 → Fin 4 → EReal :=
  fun f k => a (ix2 (⟨f.val, by have := f.isLt; omega⟩ : Fin 16384) k)

open ValueIdx in
/-- The taps of the up branch: the last 8192 rows of the tap array. -/
def tapsHi (a : (⟨2, ![16384, 4]⟩ : Shape).Idx → EReal) : Fin 8192 → Fin 4 → EReal :=
  fun f k => a (ix2 (⟨8192 + f.val, by have := f.isLt; omega⟩ : Fin 16384) k)

/-- The layer's result as an array over the five argument arrays (taps summed first, one sum over the hidden width). -/
def resultR (a0 : (⟨3, ![2, 2048, 2048]⟩ : Shape).Idx → EReal) (a1 a2 : (⟨2, ![8192, 2048]⟩ : Shape).Idx → EReal)
    (a3 : (⟨2, ![2048, 8192]⟩ : Shape).Idx → EReal) (a4 : (⟨2, ![16384, 4]⟩ : Shape).Idx → EReal) :
    (⟨3, ![2, 2048, 2048]⟩ : Shape).Idx → EReal :=
  fun j => layerR (arr3 a0) (arr2w a1) (arr2w a2) (arr2d a3) (tapsLo a4) (tapsHi a4) (j 0) (j 1) (j 2)

/-- The same with the mixing bracketed from the left and the hidden width summed in sixteen groups. -/
def resultL (a0 : (⟨3, ![2, 2048, 2048]⟩ : Shape).Idx → EReal) (a1 a2 : (⟨2, ![8192, 2048]⟩ : Shape).Idx → EReal)
    (a3 : (⟨2, ![2048, 8192]⟩ : Shape).Idx → EReal) (a4 : (⟨2, ![16384, 4]⟩ : Shape).Idx → EReal) :
    (⟨3, ![2, 2048, 2048]⟩ : Shape).Idx → EReal :=
  fun j => layerL (arr3 a0) (arr2w a1) (arr2w a2) (arr2d a3) (tapsLo a4) (tapsHi a4) (j 0) (j 1) (j 2)

theorem resultL_eq_resultR (a0 : (⟨3, ![2, 2048, 2048]⟩ : Shape).Idx → EReal) (a1 a2 : (⟨2, ![8192, 2048]⟩ : Shape).Idx → EReal)
    (a3 : (⟨2, ![2048, 8192]⟩ : Shape).Idx → EReal) (a4 : (⟨2, ![16384, 4]⟩ : Shape).Idx → EReal) :
    resultL a0 a1 a2 a3 a4 = resultR a0 a1 a2 a3 a4 := by
  unfold resultL resultR; rw [layerL_eq_layerR]

end Cert.Spec

end
-- ==== Proof.RefValue.lean ====
/-
  The reference program's result, read at an index, is the layer of Spec.lean applied to the argument arrays.

  The program forms two projections of the input against two weight matrices, pads each with three zero rows in front of
  the sequence axis, reads the padded array at the four row offsets 0..3, multiplies the slice at offset k by tap
  column k (broadcast over batch and sequence), sums the four products and adds the projection itself. A row of the
  slice at offset k is the row of the padded array k further on, hence the projection's row 3 - k rows back, or zero
  where that row would lie before the sequence's start. The first mixed projection passes through x * (1 / (1 + exp(-x))),
  multiplies the second, and the product is contracted with the third weight matrix over the hidden axis.
-/
import proofs.«119931_j53343493816972_1_alg».proof.Proof.Gen.ReferenceIdeal.Read
import proofs.«119931_j53343493816972_1_alg».proof.Proof.Spec
import Idealize.ShloMosaic.Lib.ValueIdx
import Idealize.ShloMosaic.Lib.Pipeline.Value
import Idealize.ShloMosaic.Lib.KernelVsHost
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-- A hidden-width array of the program as a function of its three coordinates. -/
def hid (g : (⟨S2x2048x8192, .f32⟩ : BufTy).Contents (Elt Ideal)) : Cert.Spec.Hid := fun b t f => g (ix3 b t f)

/-! ## The array padded by three rows in front of the sequence axis -/

/-- The padded array at an index: from row 3 on the operand three rows earlier, before that the padding value. -/
theorem pad_row {α : Type} (g : S2x2048x8192.Idx → α) (z : S_.Idx → α) (q : S2x2051x8192.Idx) :
    pad S2x2051x8192 ![0, 3, 0] ![0, 0, 0] ![0, 0, 0] g z pads_S2x2048x8192_S2x2051x8192_000_300_000 h_S_ q
      = if h : 3 ≤ (q 1).val then
          g (ix3 (q 0) (⟨(q 1).val - 3, by have h1 : (q 1).val < 2051 := (q 1).isLt; omega⟩ : Fin 2048) (q 2))
        else z (Shape.Idx.first h_S_) := by
  by_cases h : 3 ≤ (q 1).val
  · rw [dif_pos h]
    exact pad_apply_of_inside _ _ _ g z pads_S2x2048x8192_S2x2051x8192_000_300_000 h_S_ q _ (fun a => match a with
      | ⟨0, _⟩ => by show (q 0).val = 0 + (q 0).val * (0 + 1); omega
      | ⟨1, _⟩ => by show (q 1).val = 3 + ((q 1).val - 3) * (0 + 1); omega
      | ⟨2, _⟩ => by show (q 2).val = 0 + (q 2).val * (0 + 1); omega)
  · rw [dif_neg h]
    exact pad_apply_of_not_inside _ _ _ g z pads_S2x2048x8192_S2x2051x8192_000_300_000 h_S_ q (1 : Fin 3)
      (fun hin => h hin.1)

/-- Row k + t of the array padded by three zero rows is the operand s = 3 - k rows back from t, zero before the start. -/
theorem pad_back (g : (⟨S2x2048x8192, .f32⟩ : BufTy).Contents (Elt Ideal)) (z : (⟨S_, .f32⟩ : BufTy).Contents (Elt Ideal))
    (hz : z (Shape.Idx.first h_S_) = (0 : EReal)) (s k : ℕ) (hsk : k + s = 3) (b : Fin 2) (t : Fin 2048) (f : Fin 8192)
    (q : S2x2051x8192.Idx) (h0 : (q 0).val = b.val) (h1 : (q 1).val = k + t.val) (h2 : (q 2).val = f.val) :
    pad S2x2051x8192 ![0, 3, 0] ![0, 0, 0] ![0, 0, 0] g z pads_S2x2048x8192_S2x2051x8192_000_300_000 h_S_ q
      = Cert.Spec.back (hid g) b t s f := by
  rw [pad_row]
  unfold Cert.Spec.back
  by_cases hs : s ≤ t.val
  · have h3 : 3 ≤ (q 1).val := by omega
    rw [dif_pos h3, dif_pos hs]
    unfold hid
    have e0 : q 0 = b := Fin.ext h0
    have e2 : q 2 = f := Fin.ext h2
    refine congrArg g ?_
    rw [e0, e2]
    refine congrArg (fun r => ix3 b r f) (Fin.ext ?_)
    show (q 1).val - 3 = t.val - s
    omega
  · have h3 : ¬ 3 ≤ (q 1).val := by omega
    rw [dif_neg h3, dif_neg hs]
    exact hz

/-! ## The two projections -/

/-- The first projection at coordinates (b, t, f) is the input's row (b, t) against row f of the weights. -/
theorem proj_gate (x0 : (⟨S2x2048x2048, .f32⟩ : BufTy).Contents (Elt Ideal)) (x1 : (⟨S8192x2048, .f32⟩ : BufTy).Contents (Elt Ideal)) :
    hid (Read.val_main_v0 (F := Ideal) x0 x1) = Cert.Spec.proj (Cert.Spec.arr3 x0) (Cert.Spec.arr2w x1) := by
  funext b t f
  unfold hid Cert.Spec.proj Cert.Spec.arr3 Cert.Spec.arr2w
  rw [Read.val_main_v0_apply]
  refine Finset.sum_congr rfl fun k _ => ?_
  have el : Read.lidx_main_v0 (ix3 b t f) k = ix3 b t k := funext fun a => match a with
    | ⟨0, _⟩ => rfl
    | ⟨1, _⟩ => rfl
    | ⟨2, _⟩ => rfl
  have er : Read.ridx_main_v0 (ix3 b t f) k = ix2 f k := funext fun a => match a with
    | ⟨0, _⟩ => rfl
    | ⟨1, _⟩ => rfl
  rw [el, er]

/-- The second projection is the same contraction of the input with the other weight matrix. -/
theorem proj_up (x0 : (⟨S2x2048x2048, .f32⟩ : BufTy).Contents (Elt Ideal)) (x2 : (⟨S8192x2048, .f32⟩ : BufTy).Contents (Elt Ideal)) :
    hid (Read.val_main_v1 (F := Ideal) x0 x2) = Cert.Spec.proj (Cert.Spec.arr3 x0) (Cert.Spec.arr2w x2) :=
  proj_gate x0 x2

/-! ## The tap columns, broadcast over batch and sequence -/

section Taps
variable (x4 : (⟨S16384x4, .f32⟩ : BufTy).Contents (Elt Ideal)) (b : Fin 2) (t : Fin 2048) (f : Fin 8192)

theorem tap_lo0 : Read.val_main_v8 (F := Ideal) x4 (ix3 b t f) = Cert.Spec.tapsLo x4 f 0 := by
  rw [Read.val_main_v8_apply, Read.val_main_v7_apply, Read.val_main_v6_apply, Read.val_main_v5_apply, Read.val_main_v2_apply]
  unfold Cert.Spec.tapsLo
  exact congrArg x4 (funext fun a => match a with
    | ⟨0, _⟩ => Fin.ext (by show f.val / 1 = f.val; omega)
    | ⟨1, _⟩ => Fin.ext (by show (0 : ℕ) = 0; rfl))

theorem tap_lo1 : Read.val_main_v14 (F := Ideal) x4 (ix3 b t f) = Cert.Spec.tapsLo x4 f 1 := by
  rw [Read.val_main_v14_apply, Read.val_main_v13_apply, Read.val_main_v12_apply, Read.val_main_v11_apply, Read.val_main_v2_apply]
  unfold Cert.Spec.tapsLo
  exact congrArg x4 (funext fun a => match a with
    | ⟨0, _⟩ => Fin.ext (by show f.val / 1 = f.val; omega)
    | ⟨1, _⟩ => Fin.ext (by show 1 + 0 = 1; rfl))

theorem tap_lo2 : Read.val_main_v21 (F := Ideal) x4 (ix3 b t f) = Cert.Spec.tapsLo x4 f 2 := by
  rw [Read.val_main_v21_apply, Read.val_main_v20_apply, Read.val_main_v19_apply, Read.val_main_v18_apply, Read.val_main_v2_apply]
  unfold Cert.Spec.tapsLo
  exact congrArg x4 (funext fun a => match a with
    | ⟨0, _⟩ => Fin.ext (by show f.val / 1 = f.val; omega)
    | ⟨1, _⟩ => Fin.ext (by show 2 + 0 = 2; rfl))

theorem tap_lo3 : Read.val_main_v28 (F := Ideal) x4 (ix3 b t f) = Cert.Spec.tapsLo x4 f 3 := by
  rw [Read.val_main_v28_apply, Read.val_main_v27_apply, Read.val_main_v26_apply, Read.val_main_v25_apply, Read.val_main_v2_apply]
  unfold Cert.Spec.tapsLo
  exact congrArg x4 (funext fun a => match a with
    | ⟨0, _⟩ => Fin.ext (by show f.val / 1 = f.val; omega)
    | ⟨1, _⟩ => Fin.ext (by show 3 + 0 = 3; rfl))

theorem tap_hi0 : Read.val_main_v38 (F := Ideal) x4 (ix3 b t f) = Cert.Spec.tapsHi x4 f 0 := by
  rw [Read.val_main_v38_apply, Read.val_main_v37_apply, Read.val_main_v36_apply, Read.val_main_v35_apply, Read.val_main_v32_apply]
  unfold Cert.Spec.tapsHi
  exact congrArg x4 (funext fun a => match a with
    | ⟨0, _⟩ => Fin.ext (by show 8192 + f.val / 1 = 8192 + f.val; omega)
    | ⟨1, _⟩ => Fin.ext (by show (0 : ℕ) = 0; rfl))

theorem tap_hi1 : Read.val_main_v44 (F := Ideal) x4 (ix3 b t f) = Cert.Spec.tapsHi x4 f 1 := by
  rw [Read.val_main_v44_apply, Read.val_main_v43_apply, Read.val_main_v42_apply, Read.val_main_v41_apply, Read.val_main_v32_apply]
  unfold Cert.Spec.tapsHi
  exact congrArg x4 (funext fun a => match a with
    | ⟨0, _⟩ => Fin.ext (by show 8192 + f.val / 1 = 8192 + f.val; omega)
    | ⟨1, _⟩ => Fin.ext (by show 1 + 0 = 1; rfl))

theorem tap_hi2 : Read.val_main_v51 (F := Ideal) x4 (ix3 b t f) = Cert.Spec.tapsHi x4 f 2 := by
  rw [Read.val_main_v51_apply, Read.val_main_v50_apply, Read.val_main_v49_apply, Read.val_main_v48_apply, Read.val_main_v32_apply]
  unfold Cert.Spec.tapsHi
  exact congrArg x4 (funext fun a => match a with
    | ⟨0, _⟩ => Fin.ext (by show 8192 + f.val / 1 = 8192 + f.val; omega)
    | ⟨1, _⟩ => Fin.ext (by show 2 + 0 = 2; rfl))

theorem tap_hi3 : Read.val_main_v58 (F := Ideal) x4 (ix3 b t f) = Cert.Spec.tapsHi x4 f 3 := by
  rw [Read.val_main_v58_apply, Read.val_main_v57_apply, Read.val_main_v56_apply, Read.val_main_v55_apply, Read.val_main_v32_apply]
  unfold Cert.Spec.tapsHi
  exact congrArg x4 (funext fun a => match a with
    | ⟨0, _⟩ => Fin.ext (by show 8192 + f.val / 1 = 8192 + f.val; omega)
    | ⟨1, _⟩ => Fin.ext (by show 3 + 0 = 3; rfl))

end Taps

/-! ## One branch: the four shifted slices times the taps, summed, plus the projection -/

/-- The padding value, the integer zero converted, is the extended real zero. -/
theorem pad_value_gate : Read.val_main_call0_v0 (F := Ideal) (Shape.Idx.first h_S_) = (0 : EReal) := sitofp_zero (φ := .f32)

theorem pad_value_up : Read.val_main_call1_v0 (F := Ideal) (Shape.Idx.first h_S_) = (0 : EReal) := sitofp_zero (φ := .f32)

/-- The first branch at coordinates (b, t, f) is the mixing of its projection with the first 8192 tap rows. -/
theorem mix_gate (x0 : (⟨S2x2048x2048, .f32⟩ : BufTy).Contents (Elt Ideal)) (x1 : (⟨S8192x2048, .f32⟩ : BufTy).Contents (Elt Ideal))
    (x4 : (⟨S16384x4, .f32⟩ : BufTy).Contents (Elt Ideal)) (b : Fin 2) (t : Fin 2048) (f : Fin 8192) :
    Read.val_main_v31 (F := Ideal) x0 x1 x4 (ix3 b t f)
      = Cert.Spec.mixR (Cert.Spec.proj (Cert.Spec.arr3 x0) (Cert.Spec.arr2w x1)) (Cert.Spec.tapsLo x4) b t f := by
  rw [← proj_gate]
  have e0 : Read.val_main_v4 (F := Ideal) x0 x1 (ix3 b t f) = Cert.Spec.back (hid (Read.val_main_v0 (F := Ideal) x0 x1)) b t 3 f := by
    rw [Read.val_main_v4_apply]
    exact pad_back _ _ pad_value_gate 3 0 rfl b t f _ rfl (by show t.val = 0 + t.val; omega) rfl
  have e1 : Read.val_main_v10 (F := Ideal) x0 x1 (ix3 b t f) = Cert.Spec.back (hid (Read.val_main_v0 (F := Ideal) x0 x1)) b t 2 f := by
    rw [Read.val_main_v10_apply]
    exact pad_back _ _ pad_value_gate 2 1 rfl b t f _ rfl rfl rfl
  have e2 : Read.val_main_v17 (F := Ideal) x0 x1 (ix3 b t f) = Cert.Spec.back (hid (Read.val_main_v0 (F := Ideal) x0 x1)) b t 1 f := by
    rw [Read.val_main_v17_apply]
    exact pad_back _ _ pad_value_gate 1 2 rfl b t f _ rfl rfl rfl
  have e3 : Read.val_main_v24 (F := Ideal) x0 x1 (ix3 b t f) = Cert.Spec.back (hid (Read.val_main_v0 (F := Ideal) x0 x1)) b t 0 f := by
    rw [Read.val_main_v24_apply]
    exact pad_back _ _ pad_value_gate 0 3 rfl b t f _ rfl rfl rfl
  rw [Read.val_main_v31_apply, Read.val_main_v30_apply, Read.val_main_v23_apply, Read.val_main_v16_apply,
    Read.val_main_v9_apply, Read.val_main_v15_apply, Read.val_main_v22_apply, Read.val_main_v29_apply,
    e0, e1, e2, e3, tap_lo0, tap_lo1, tap_lo2, tap_lo3]
  rfl

/-- The second branch at coordinates (b, t, f) is the mixing of its projection with the last 8192 tap rows. -/
theorem mix_up (x0 : (⟨S2x2048x2048, .f32⟩ : BufTy).Contents (Elt Ideal)) (x2 : (⟨S8192x2048, .f32⟩ : BufTy).Contents (Elt Ideal))
    (x4 : (⟨S16384x4, .f32⟩ : BufTy).Contents (Elt Ideal)) (b : Fin 2) (t : Fin 2048) (f : Fin 8192) :
    Read.val_main_v61 (F := Ideal) x0 x2 x4 (ix3 b t f)
      = Cert.Spec.mixR (Cert.Spec.proj (Cert.Spec.arr3 x0) (Cert.Spec.arr2w x2)) (Cert.Spec.tapsHi x4) b t f := by
  rw [← proj_up]
  have e0 : Read.val_main_v34 (F := Ideal) x0 x2 (ix3 b t f) = Cert.Spec.back (hid (Read.val_main_v1 (F := Ideal) x0 x2)) b t 3 f := by
    rw [Read.val_main_v34_apply]
    exact pad_back _ _ pad_value_up 3 0 rfl b t f _ rfl (by show t.val = 0 + t.val; omega) rfl
  have e1 : Read.val_main_v40 (F := Ideal) x0 x2 (ix3 b t f) = Cert.Spec.back (hid (Read.val_main_v1 (F := Ideal) x0 x2)) b t 2 f := by
    rw [Read.val_main_v40_apply]
    exact pad_back _ _ pad_value_up 2 1 rfl b t f _ rfl rfl rfl
  have e2 : Read.val_main_v47 (F := Ideal) x0 x2 (ix3 b t f) = Cert.Spec.back (hid (Read.val_main_v1 (F := Ideal) x0 x2)) b t 1 f := by
    rw [Read.val_main_v47_apply]
    exact pad_back _ _ pad_value_up 1 2 rfl b t f _ rfl rfl rfl
  have e3 : Read.val_main_v54 (F := Ideal) x0 x2 (ix3 b t f) = Cert.Spec.back (hid (Read.val_main_v1 (F := Ideal) x0 x2)) b t 0 f := by
    rw [Read.val_main_v54_apply]
    exact pad_back _ _ pad_value_up 0 3 rfl b t f _ rfl rfl rfl
  rw [Read.val_main_v61_apply, Read.val_main_v60_apply, Read.val_main_v53_apply, Read.val_main_v46_apply,
    Read.val_main_v39_apply, Read.val_main_v45_apply, Read.val_main_v52_apply, Read.val_main_v59_apply,
    e0, e1, e2, e3, tap_hi0, tap_hi1, tap_hi2, tap_hi3]
  rfl

/-! ## The gating -/

/-- The program's x * (1 / (1 + exp(-x))) of the first branch is x times the logistic function of x. -/
theorem silu_gate (x0 : (⟨S2x2048x2048, .f32⟩ : BufTy).Contents (Elt Ideal)) (x1 : (⟨S8192x2048, .f32⟩ : BufTy).Contents (Elt Ideal))
    (x4 : (⟨S16384x4, .f32⟩ : BufTy).Contents (Elt Ideal)) (i : S2x2048x8192.Idx) :
    Read.val_main_v62 (F := Ideal) x0 x1 x4 i
      = (Read.val_main_v31 (F := Ideal) x0 x1 x4 i : EReal) * Ideal.logistic (Read.val_main_v31 (F := Ideal) x0 x1 x4 i) := by
  have h2 : Read.val_main_call2_v2 (F := Ideal) i = (1 : EReal) := by
    rw [Read.val_main_call2_v2_apply, Read.val_main_call2_cst_apply]
    exact Ideal.ofBits_one_f32
  have h4 : Read.val_main_call2_v4 (F := Ideal) i = (1 : EReal) := by
    rw [Read.val_main_call2_v4_apply, Read.val_main_call2_cst_0_apply]
    exact Ideal.ofBits_one_f32
  rw [Read.val_main_v62_apply, Read.val_main_call2_v5_apply, Read.val_main_call2_v3_apply, Read.val_main_call2_v1_apply,
    Read.val_main_call2_v0_apply, h2, h4]
  rfl

/-! ## The result -/

/-- The reference program's result is the layer of the specification applied to the five argument arrays. -/
theorem result_eq (m : (ℓ : Loc nD τ sig) → Buf (Elt Ideal) ℓ) (c : Dev nD) :
    Cert.ReferenceIdeal.Value.res_main_v64 (F := Ideal) m c
      = Cert.Spec.resultR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  rw [Read.val_main_v64_eq]
  generalize m ((c.tc : Thread nD τ).loc main_arg0) = a0
  generalize m ((c.tc : Thread nD τ).loc main_arg1) = a1
  generalize m ((c.tc : Thread nD τ).loc main_arg2) = a2
  generalize m ((c.tc : Thread nD τ).loc main_arg3) = a3
  generalize m ((c.tc : Thread nD τ).loc main_arg4) = a4
  funext j
  obtain ⟨b, t, d, rfl⟩ : ∃ b t d, j = ix3 b t d := ⟨j 0, j 1, j 2, eq_ix3 j⟩
  rw [Read.val_main_v64_apply]
  show _ = Cert.Spec.down (Cert.Spec.gated
      (Cert.Spec.mixR (Cert.Spec.proj (Cert.Spec.arr3 a0) (Cert.Spec.arr2w a1)) (Cert.Spec.tapsLo a4))
      (Cert.Spec.mixR (Cert.Spec.proj (Cert.Spec.arr3 a0) (Cert.Spec.arr2w a2)) (Cert.Spec.tapsHi a4))) (Cert.Spec.arr2d a3) b t d
  unfold Cert.Spec.down
  refine Finset.sum_congr rfl fun k _ => ?_
  have el : Read.lidx_main_v64 (ix3 b t d) k = ix3 b t k := funext fun a => match a with
    | ⟨0, _⟩ => rfl
    | ⟨1, _⟩ => rfl
    | ⟨2, _⟩ => rfl
  have er : Read.ridx_main_v64 (ix3 b t d) k = ix2 d k := funext fun a => match a with
    | ⟨0, _⟩ => rfl
    | ⟨1, _⟩ => rfl
  rw [el, er, Read.val_main_v63_apply, silu_gate, mix_gate, mix_up]
  rfl

end Cert.ReferenceIdeal.RefValue

end
-- ==== Proof.IdealBlocks.lean ====
/-
  Where a grid point sits and what its input blocks are, in terms of the argument arrays.

  Point number n (of 256) is batch entry n / 128, row block (n / 16) mod 8, column block n mod 16. Its block of the
  input is rows 256·(row block) … +255 of that batch entry; its blocks of the two projection weight matrices and of
  the two tap arrays are the 512 hidden channels of its column block; its block of the down weights is those channels'
  columns. Before the region the program only changes the float format of the four matrices (the identity on
  extended reals) and splits the tap array into its two halves.
-/
import proofs.«119931_j53343493816972_1_alg».proof.Proof.IdealPayloads
import proofs.«119931_j53343493816972_1_alg».proof.Proof.RefValue
import Idealize.ShloMosaic.Lib.ValueIdx
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open ValueIdx

/-- The point's batch entry, a row of its row block as a row of the sequence, and its column block. -/
def bOf (t : Fin cfg0.N) : Fin 2 := ⟨t.val / 128, by have := t.isLt; have : cfg0.N = 256 := N_0; omega⟩
def rowAt (t : Fin cfg0.N) (r : Fin 256) : Fin 2048 := ⟨t.val / 16 % 8 * 256 + r.val, by have := r.isLt; omega⟩
def cbOf (t : Fin cfg0.N) : Fin 16 := ⟨t.val % 16, Nat.mod_lt _ (by decide)⟩

variable (m : (ℓ : Loc nD τ sig) → Buf (Elt Ideal) ℓ)

/-- The five argument arrays on a core. -/
abbrev A0 (c : Dev nD) : (⟨3, ![2, 2048, 2048]⟩ : Shape).Idx → EReal := m ((c.tc : Thread nD τ).loc main_arg0)
abbrev A1 (c : Dev nD) : (⟨2, ![8192, 2048]⟩ : Shape).Idx → EReal := m ((c.tc : Thread nD τ).loc main_arg1)
abbrev A2 (c : Dev nD) : (⟨2, ![8192, 2048]⟩ : Shape).Idx → EReal := m ((c.tc : Thread nD τ).loc main_arg2)
abbrev A3 (c : Dev nD) : (⟨2, ![2048, 8192]⟩ : Shape).Idx → EReal := m ((c.tc : Thread nD τ).loc main_arg3)
abbrev A4 (c : Dev nD) : (⟨2, ![16384, 4]⟩ : Shape).Idx → EReal := m ((c.tc : Thread nD τ).loc main_arg4)

/-! ## Where each block sits

Each window's block index at a point, decided once over the 256 points. -/

/-- The input's block: batch entry, row block, and the whole width. -/
theorem idx_x : ∀ t : Fin cfg0.N, win0_0.index t (0 : Fin 3) = t.val / 128 ∧ win0_0.index t (1 : Fin 3) = t.val / 16 % 8 ∧ win0_0.index t (2 : Fin 3) = 0 :=
  (by decide +kernel : ∀ t : Fin grid0.N, win0_0.index t (0 : Fin 3) = t.val / 128 ∧ win0_0.index t (1 : Fin 3) = t.val / 16 % 8 ∧ win0_0.index t (2 : Fin 3) = 0)

/-- The gate weights' block: the column block's channels, all model channels. -/
theorem idx_wg : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)

/-- The up weights' block: likewise. -/
theorem idx_wu : ∀ t : Fin cfg0.N, win0_2.index t (0 : Fin 2) = t.val % 16 ∧ win0_2.index t (1 : Fin 2) = 0 :=
  (by decide +kernel : ∀ t : Fin grid0.N, win0_2.index t (0 : Fin 2) = t.val % 16 ∧ win0_2.index t (1 : Fin 2) = 0)

/-- The down weights' block: all model channels, the column block's channels. -/
theorem idx_wd : ∀ t : Fin cfg0.N, win0_3.index t (0 : Fin 2) = 0 ∧ win0_3.index t (1 : Fin 2) = t.val % 16 :=
  (by decide +kernel : ∀ t : Fin grid0.N, win0_3.index t (0 : Fin 2) = 0 ∧ win0_3.index t (1 : Fin 2) = t.val % 16)

/-- The gate taps' block: the column block's channels, the four taps. -/
theorem idx_cg : ∀ t : Fin cfg0.N, win0_4.index t (0 : Fin 2) = t.val % 16 ∧ win0_4.index t (1 : Fin 2) = 0 :=
  (by decide +kernel : ∀ t : Fin grid0.N, win0_4.index t (0 : Fin 2) = t.val % 16 ∧ win0_4.index t (1 : Fin 2) = 0)

/-- The up taps' block: likewise. -/
theorem idx_cu : ∀ t : Fin cfg0.N, win0_5.index t (0 : Fin 2) = t.val % 16 ∧ win0_5.index t (1 : Fin 2) = 0 :=
  (by decide +kernel : ∀ t : Fin grid0.N, win0_5.index t (0 : Fin 2) = t.val % 16 ∧ win0_5.index t (1 : Fin 2) = 0)

/-! ## The six arrays the region reads, as the arguments

Four are an argument with its float format changed, which over the extended reals changes nothing; two are the
first and the last 8192 rows of the tap array. -/

theorem V_v0 (c : Dev nD) (i : S2x2048x2048.Idx) : (V m c main_v0 : S2x2048x2048.Idx → EReal) i = A0 m c i := by
  have e : (V m c main_v0 : S2x2048x2048.Idx → EReal)
      = (truncf .bf16 (m ((c.tc : Thread nD τ).loc main_arg0) : FVec Ideal S2x2048x2048 .f32) bitsLt_bf16_f32 : FVec Ideal S2x2048x2048 .bf16) := by
    dsimp only [Gen.V, Gen.hostOps0]; after_results
  rw [e]; rfl

theorem V_v1 (c : Dev nD) (i : S8192x2048.Idx) : (V m c main_v1 : S8192x2048.Idx → EReal) i = A1 m c i := by
  have e : (V m c main_v1 : S8192x2048.Idx → EReal)
      = (truncf .bf16 (m ((c.tc : Thread nD τ).loc main_arg1) : FVec Ideal S8192x2048 .f32) bitsLt_bf16_f32 : FVec Ideal S8192x2048 .bf16) := by
    dsimp only [Gen.V, Gen.hostOps0]; after_results
  rw [e]; rfl

theorem V_v2 (c : Dev nD) (i : S8192x2048.Idx) : (V m c main_v2 : S8192x2048.Idx → EReal) i = A2 m c i := by
  have e : (V m c main_v2 : S8192x2048.Idx → EReal)
      = (truncf .bf16 (m ((c.tc : Thread nD τ).loc main_arg2) : FVec Ideal S8192x2048 .f32) bitsLt_bf16_f32 : FVec Ideal S8192x2048 .bf16) := by
    dsimp only [Gen.V, Gen.hostOps0]; after_results
  rw [e]; rfl

theorem V_v3 (c : Dev nD) (i : S2048x8192.Idx) : (V m c main_v3 : S2048x8192.Idx → EReal) i = A3 m c i := by
  have e : (V m c main_v3 : S2048x8192.Idx → EReal)
      = (truncf .bf16 (m ((c.tc : Thread nD τ).loc main_arg3) : FVec Ideal S2048x8192 .f32) bitsLt_bf16_f32 : FVec Ideal S2048x8192 .bf16) := by
    dsimp only [Gen.V, Gen.hostOps0]; after_results
  rw [e]; rfl

/-- The first half of the tap array: row f of it is row f of the argument. -/
theorem V_v4 (c : Dev nD) (i : S8192x4.Idx) (k : S16384x4.Idx) (h0 : (k 0).val = (i 0).val) (h1 : (k 1).val = (i 1).val) :
    (V m c main_v4 : S8192x4.Idx → EReal) i = A4 m c k := by
  have e : (V m c main_v4 : S8192x4.Idx → EReal)
      = (extractStridedSlice S8192x4 ![0, 0] (m ((c.tc : Thread nD τ).loc main_arg4) : FVec Ideal S16384x4 .f32) slices_S16384x4_S8192x4_0_0 : FVec Ideal S8192x4 .f32) := by
    dsimp only [Gen.V, Gen.hostOps0]; after_results
  rw [e]
  refine extractStridedSlice_apply _ _ _ i k fun a => ?_
  match a with
  | ⟨0, _⟩ => show (k 0).val = 0 + (i 0).val; omega
  | ⟨1, _⟩ => show (k 1).val = 0 + (i 1).val; omega

/-- The second half of the tap array: row f of it is row 8192 + f of the argument. -/
theorem V_v5 (c : Dev nD) (i : S8192x4.Idx) (k : S16384x4.Idx) (h0 : (k 0).val = 8192 + (i 0).val) (h1 : (k 1).val = (i 1).val) :
    (V m c main_v5 : S8192x4.Idx → EReal) i = A4 m c k := by
  have e : (V m c main_v5 : S8192x4.Idx → EReal)
      = (extractStridedSlice S8192x4 ![8192, 0] (m ((c.tc : Thread nD τ).loc main_arg4) : FVec Ideal S16384x4 .f32) slices_S16384x4_S8192x4_8192_0 : FVec Ideal S8192x4 .f32) := by
    dsimp only [Gen.V, Gen.hostOps0]; after_results
  rw [e]
  refine extractStridedSlice_apply _ _ _ i k fun a => ?_
  match a with
  | ⟨0, _⟩ => show (k 0).val = 8192 + (i 0).val; omega
  | ⟨1, _⟩ => show (k 1).val = 0 + (i 1).val; omega

/-! ## The blocks read at an entry

A block's coordinate on an axis is its block index times the block's extent plus the coordinate inside the block. -/

theorem xb_apply (c : Dev nD) (t : Fin cfg0.N) (r : Fin 256) (d : Fin 2048) :
    (xb m c t (ix3 (0 : Fin 1) r d) : EReal) = Spec.arr3 (A0 m c) (bOf t) (rowAt t r) d := by
  obtain ⟨e0, e1, e2⟩ := idx_x t
  show V m c main_v0 (((cfg0.win 0).blk t).view.emb (ix3 (0 : Fin 1) r d)) = _
  rw [V_v0]
  unfold Spec.arr3
  refine congrArg (A0 m c) (funext fun a => Fin.ext ?_)
  match a with
  | ⟨0, _⟩ => show win0_0.index t (0 : Fin 3) * 1 + 1 * ((ix3 (0 : Fin 1) r d) 0).val = t.val / 128; rw [e0]; show _ * 1 + 1 * 0 = _; omega
  | ⟨1, _⟩ => show win0_0.index t (1 : Fin 3) * 256 + 1 * ((ix3 (0 : Fin 1) r d) 1).val = t.val / 16 % 8 * 256 + r.val; rw [e1]; show _ * 256 + 1 * r.val = _; omega
  | ⟨2, _⟩ => show win0_0.index t (2 : Fin 3) * 2048 + 1 * ((ix3 (0 : Fin 1) r d) 2).val = d.val; rw [e2]; show _ * 2048 + 1 * d.val = _; omega

theorem wgb_apply (c : Dev nD) (t : Fin cfg0.N) (l : Fin 512) (d : Fin 2048) :
    (wgb m c t (ix2 l d) : EReal) = Spec.arr2w (A1 m c) (Spec.chan (cbOf t) l) d := by
  obtain ⟨e0, e1⟩ := idx_wg t
  show V m c main_v1 (((cfg0.win 1).blk t).view.emb (ix2 l d)) = _
  rw [V_v1]
  unfold Spec.arr2w
  refine congrArg (A1 m c) (funext fun a => Fin.ext ?_)
  match a with
  | ⟨0, _⟩ => show win0_1.index t (0 : Fin 2) * 512 + 1 * ((ix2 l d) 0).val = t.val % 16 * 512 + l.val; rw [e0]; show _ * 512 + 1 * l.val = _; omega
  | ⟨1, _⟩ => show win0_1.index t (1 : Fin 2) * 2048 + 1 * ((ix2 l d) 1).val = d.val; rw [e1]; show _ * 2048 + 1 * d.val = _; omega

theorem wub_apply (c : Dev nD) (t : Fin cfg0.N) (l : Fin 512) (d : Fin 2048) :
    (wub m c t (ix2 l d) : EReal) = Spec.arr2w (A2 m c) (Spec.chan (cbOf t) l) d := by
  obtain ⟨e0, e1⟩ := idx_wu t
  show V m c main_v2 (((cfg0.win 2).blk t).view.emb (ix2 l d)) = _
  rw [V_v2]
  unfold Spec.arr2w
  refine congrArg (A2 m c) (funext fun a => Fin.ext ?_)
  match a with
  | ⟨0, _⟩ => show win0_2.index t (0 : Fin 2) * 512 + 1 * ((ix2 l d) 0).val = t.val % 16 * 512 + l.val; rw [e0]; show _ * 512 + 1 * l.val = _; omega
  | ⟨1, _⟩ => show win0_2.index t (1 : Fin 2) * 2048 + 1 * ((ix2 l d) 1).val = d.val; rw [e1]; show _ * 2048 + 1 * d.val = _; omega

theorem wdb_apply (c : Dev nD) (t : Fin cfg0.N) (d : Fin 2048) (l : Fin 512) :
    (wdb m c t (ix2 d l) : EReal) = Spec.arr2d (A3 m c) d (Spec.chan (cbOf t) l) := by
  obtain ⟨e0, e1⟩ := idx_wd t
  show V m c main_v3 (((cfg0.win 3).blk t).view.emb (ix2 d l)) = _
  rw [V_v3]
  unfold Spec.arr2d
  refine congrArg (A3 m c) (funext fun a => Fin.ext ?_)
  match a with
  | ⟨0, _⟩ => show win0_3.index t (0 : Fin 2) * 2048 + 1 * ((ix2 d l) 0).val = d.val; rw [e0]; show _ * 2048 + 1 * d.val = _; omega
  | ⟨1, _⟩ => show win0_3.index t (1 : Fin 2) * 512 + 1 * ((ix2 d l) 1).val = t.val % 16 * 512 + l.val; rw [e1]; show _ * 512 + 1 * l.val = _; omega

theorem cgb_apply (c : Dev nD) (t : Fin cfg0.N) (l : Fin 512) (k : Fin 4) :
    (cgb m c t (ix2 l k) : EReal) = Spec.tapsLo (A4 m c) (Spec.chan (cbOf t) l) k := by
  obtain ⟨e0, e1⟩ := idx_cg t
  show V m c main_v4 (((cfg0.win 4).blk t).view.emb (ix2 l k)) = _
  unfold Spec.tapsLo
  refine V_v4 m c _ _ ?_ ?_
  · show t.val % 16 * 512 + l.val = win0_4.index t (0 : Fin 2) * 512 + 1 * ((ix2 l k) 0).val; rw [e0]; show _ = _ * 512 + 1 * l.val; omega
  · show k.val = win0_4.index t (1 : Fin 2) * 4 + 1 * ((ix2 l k) 1).val; rw [e1]; show _ = _ * 4 + 1 * k.val; omega

theorem cub_apply (c : Dev nD) (t : Fin cfg0.N) (l : Fin 512) (k : Fin 4) :
    (cub m c t (ix2 l k) : EReal) = Spec.tapsHi (A4 m c) (Spec.chan (cbOf t) l) k := by
  obtain ⟨e0, e1⟩ := idx_cu t
  show V m c main_v5 (((cfg0.win 5).blk t).view.emb (ix2 l k)) = _
  unfold Spec.tapsHi
  refine V_v5 m c _ _ ?_ ?_
  · show 8192 + (t.val % 16 * 512 + l.val) = 8192 + (win0_5.index t (0 : Fin 2) * 512 + 1 * ((ix2 l k) 0).val); rw [e0]; show _ = 8192 + (_ * 512 + 1 * l.val); omega
  · show k.val = win0_5.index t (1 : Fin 2) * 4 + 1 * ((ix2 l k) 1).val; rw [e1]; show _ = _ * 4 + 1 * k.val; omega

end Cert.KernelIdeal.Hand

end
-- ==== Proof.IdealPointValue.lean ====
/-
  One grid point's work in terms of the whole arrays.

  The block projections of a point are the corresponding entries of the full projections; the extended block it taps
  is the full projection looked up to three sequence rows back (the rows carried from the row block above are that
  projection's rows just before the block, and at the top of the sequence the zeros match the convention that the
  projection is zero before the sequence's start); so a point's mixed branches are entries of the full mixed
  projections, and its update of the running sum adds the gated hidden values of its 512 channels times the down
  weights.
-/
import proofs.«119931_j53343493816972_1_alg».proof.Proof.IdealPayloads
import proofs.«119931_j53343493816972_1_alg».proof.Proof.IdealBlocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open ValueIdx

variable (m : (ℓ : Loc nD τ sig) → Buf (Elt Ideal) ℓ)

/-- The two full projections, their mixed forms, and the gated hidden array. -/
def gateP (c : Dev nD) : Spec.Hid := Spec.proj (Spec.arr3 (A0 m c)) (Spec.arr2w (A1 m c))
def upP (c : Dev nD) : Spec.Hid := Spec.proj (Spec.arr3 (A0 m c)) (Spec.arr2w (A2 m c))
def gateM (c : Dev nD) : Spec.Hid := Spec.mixL (gateP m c) (Spec.tapsLo (A4 m c))
def upM (c : Dev nD) : Spec.Hid := Spec.mixL (upP m c) (Spec.tapsHi (A4 m c))
def hidden (c : Dev nD) : Spec.Hid := Spec.gated (gateM m c) (upM m c)

/-! ## Where the point sixteen places earlier sits -/

/-- Below a first row block the point sixteen places earlier is in the same batch entry. -/
theorem bOf_above (t : Fin cfg0.N) (h : 16 ≤ t.val % 128) : bOf (above t) = bOf t := by
  have hN : cfg0.N = 256 := N_0
  have ht := t.isLt
  apply Fin.ext
  show (t.val - 16) / 128 = t.val / 128
  omega

/-- It has the same column block. -/
theorem cbOf_above (t : Fin cfg0.N) (h : 16 ≤ t.val % 128) : cbOf (above t) = cbOf t := by
  have hN : cfg0.N = 256 := N_0
  have ht := t.isLt
  apply Fin.ext
  show (t.val - 16) % 16 = t.val % 16
  omega

/-! ## The block projections are entries of the full projections -/

theorem gateProj_at (c : Dev nD) (t : Fin cfg0.N) (r : Fin 256) (l : Fin 512) :
    (k0_pay6 (F := Ideal) (xb m c t) (wgb m c t) (ix2 r l) : EReal) = gateP m c (bOf t) (rowAt t r) (Spec.chan (cbOf t) l) := by
  refine (pay6_apply _ _ r l).trans ?_
  unfold gateP Spec.proj
  refine Finset.sum_congr rfl fun d _ => ?_
  rw [xb_apply, wgb_apply]

theorem upProj_at (c : Dev nD) (t : Fin cfg0.N) (r : Fin 256) (l : Fin 512) :
    (k0_pay7 (F := Ideal) (xb m c t) (wub m c t) (ix2 r l) : EReal) = upP m c (bOf t) (rowAt t r) (Spec.chan (cbOf t) l) := by
  refine (pay7_apply _ _ r l).trans ?_
  unfold upP Spec.proj
  refine Finset.sum_congr rfl fun d _ => ?_
  rw [xb_apply, wub_apply]

/-! ## The extended block is the full projection looked back -/

/-- Row r + k of a point's extended block is the full projection read s = 3 − k rows back from row r of the block.
    Stated once for both branches: `pay` is the block projection, an entry of the full projection `P`; `car` are the
    rows handed down, rows 253 to 255 of the block projection of the point sixteen places earlier. -/
theorem extRow_back (P : Spec.Hid) (pay : Fin cfg0.N → FVec Ideal S256x512 .f32) (car : Fin cfg0.N → Vec Ideal S3x512 .f32)
    (hpay : ∀ (t : Fin cfg0.N) (r : Fin 256) (l : Fin 512),
      (pay t (ix2 r l) : EReal) = P (bOf t) (rowAt t r) (Spec.chan (cbOf t) l))
    (hcar : ∀ (t : Fin cfg0.N) (j : Fin 3) (l : Fin 512),
      (car t (ix2 j l) : EReal) = pay (above t) (ix2 (⟨253 + j.val, by have := j.isLt; omega⟩ : Fin 256) l))
    (t : Fin cfg0.N) (r : Fin 256) (l : Fin 512) (k s : ℕ) (hks : k + s = 3) (hq : r.val + k < 259) :
    extRow (grid0.coords t) (car t) (pay t) (r.val + k) hq l = Spec.back P (bOf t) (rowAt t r) s (Spec.chan (cbOf t) l) := by
  have hN : cfg0.N = 256 := N_0
  have ht := t.isLt
  have hr := r.isLt
  unfold extRow Spec.back
  by_cases hq3 : r.val + k < 3
  · rw [dif_pos hq3]
    by_cases hf : t.val % 128 < 16
    · -- a first row block: zeros above the block, and the row looked for lies before the sequence's start
      have hs : ¬ s ≤ (rowAt t r).val := by
        show ¬ s ≤ t.val / 16 % 8 * 256 + r.val
        omega
      rw [if_pos ((hrowFirst t).mpr hf), dif_neg hs]
    · -- a later row block: the row handed down is the row block above's row 253 + r + k, which is s rows back
      have hs : s ≤ (rowAt t r).val := by
        show s ≤ t.val / 16 % 8 * 256 + r.val
        omega
      rw [if_neg (fun h => hf ((hrowFirst t).mp h)), hcar, hpay, dif_pos hs, bOf_above t (by omega), cbOf_above t (by omega)]
      refine congrArg (fun T => P (bOf t) T (Spec.chan (cbOf t) l)) (Fin.ext ?_)
      show (t.val - 16) / 16 % 8 * 256 + (253 + (r.val + k)) = t.val / 16 % 8 * 256 + r.val - s
      omega
  · -- a row of the block itself
    have hs : s ≤ (rowAt t r).val := by
      show s ≤ t.val / 16 % 8 * 256 + r.val
      omega
    rw [dif_neg hq3, hpay, dif_pos hs]
    refine congrArg (fun T => P (bOf t) T (Spec.chan (cbOf t) l)) (Fin.ext ?_)
    show t.val / 16 % 8 * 256 + (r.val + k - 3) = t.val / 16 % 8 * 256 + r.val - s
    omega

/-! ## The mixed branches are entries of the full mixed projections -/

theorem gateMixed_at (c : Dev nD) (t : Fin cfg0.N) (r : Fin 256) (l : Fin 512) :
    (gateMixed (F := Ideal) (grid0.coords t) (xb m c t) (wgb m c t) (cgb m c t) (carriedG m c t) (ix2 r l) : EReal)
      = gateM m c (bOf t) (rowAt t r) (Spec.chan (cbOf t) l) := by
  have hE : ∀ (k s : ℕ) (hks : k + s = 3) (hq : r.val + k < 259),
      extRow (grid0.coords t) (carriedG m c t) (k0_pay6 (F := Ideal) (xb m c t) (wgb m c t)) (r.val + k) hq l
        = Spec.back (gateP m c) (bOf t) (rowAt t r) s (Spec.chan (cbOf t) l) :=
    fun k s hks hq => extRow_back (gateP m c) (fun t => k0_pay6 (F := Ideal) (xb m c t) (wgb m c t)) (fun t => carriedG m c t)
      (gateProj_at m c) (fun t j l => gateTail_apply _ _ j l) t r l k s hks hq
  rw [gateMixed_apply, hE 0 3 rfl, hE 1 2 rfl, hE 2 1 rfl, hE 3 0 rfl, gateProj_at, cgb_apply, cgb_apply, cgb_apply, cgb_apply]
  rfl

theorem upMixed_at (c : Dev nD) (t : Fin cfg0.N) (r : Fin 256) (l : Fin 512) :
    (upMixed (F := Ideal) (grid0.coords t) (xb m c t) (wub m c t) (cub m c t) (carriedU m c t) (ix2 r l) : EReal)
      = upM m c (bOf t) (rowAt t r) (Spec.chan (cbOf t) l) := by
  have hE : ∀ (k s : ℕ) (hks : k + s = 3) (hq : r.val + k < 259),
      extRow (grid0.coords t) (carriedU m c t) (k0_pay7 (F := Ideal) (xb m c t) (wub m c t)) (r.val + k) hq l
        = Spec.back (upP m c) (bOf t) (rowAt t r) s (Spec.chan (cbOf t) l) :=
    fun k s hks hq => extRow_back (upP m c) (fun t => k0_pay7 (F := Ideal) (xb m c t) (wub m c t)) (fun t => carriedU m c t)
      (upProj_at m c) (fun t j l => upTail_apply _ _ j l) t r l k s hks hq
  rw [upMixed_apply, hE 0 3 rfl, hE 1 2 rfl, hE 2 1 rfl, hE 3 0 rfl, upProj_at, cub_apply, cub_apply, cub_apply, cub_apply]
  rfl

/-- One point's update of the running sum at row r, model channel d. -/
theorem stepAt_apply (c : Dev nD) (t : Fin cfg0.N) (acc : Vec Ideal S256x2048 .f32) (r : Fin 256) (d : Fin 2048) :
    (stepAt m c t acc (ix2 r d) : EReal)
      = (acc (ix2 r d) : EReal) + ∑ l : Fin 512,
          hidden m c (bOf t) (rowAt t r) (Spec.chan (cbOf t) l) * Spec.arr2d (A3 m c) d (Spec.chan (cbOf t) l) := by
  unfold stepAt
  rw [accStep_apply]
  refine congrArg (fun S : EReal => (acc (ix2 r d) : EReal) + S) ?_
  refine Finset.sum_congr rfl fun l _ => ?_
  rw [gateMixed_at, upMixed_at, wdb_apply]
  rfl

end Cert.KernelIdeal.Hand

end
-- ==== Proof.IdealValue.lean ====
/-
  The kernel's result array.

  Along a row block's sixteen column blocks the running sum starts from zero and gains one group of 512 hidden
  channels per point, so after the last of them it is the whole down projection, summed group by group; that is what
  is copied into the result block and written back. The sixteen row blocks of the two batch entries tile the result
  array, so the array ends holding the layer's result everywhere.
-/
import proofs.«119931_j53343493816972_1_alg».proof.Proof.IdealPointValue
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open ValueIdx

variable (m : (ℓ : Loc nD τ sig) → Buf (Elt Ideal) ℓ)

/-- The layer's result over the core's argument arrays. -/
abbrev result (c : Dev nD) : (⟨3, ![2, 2048, 2048]⟩ : Shape).Idx → EReal :=
  Spec.resultL (A0 m c) (A1 m c) (A2 m c) (A3 m c) (A4 m c)

/-- A sum over the groups up to the first is the first group. -/
theorem sum_upto_zero {M : Type*} [AddCommMonoid M] (f : Fin 16 → M) (j : ℕ) (hj : j = 0) :
    ∑ k ∈ Finset.univ.filter (fun k : Fin 16 => k.val ≤ j), f k = f ⟨0, by decide⟩ := by
  subst hj
  have : Finset.univ.filter (fun k : Fin 16 => k.val ≤ 0) = {⟨0, by decide⟩} := by
    ext k
    rw [Finset.mem_filter, Finset.mem_singleton]
    constructor
    · rintro ⟨-, h⟩; exact Fin.ext (by show k.val = 0; omega)
    · rintro rfl; exact ⟨Finset.mem_univ _, Nat.le_refl _⟩
  rw [this, Finset.sum_singleton]

/-- A sum over the groups up to a later one is the sum up to the one before plus that group. -/
theorem sum_upto_succ {M : Type*} [AddCommMonoid M] (f : Fin 16 → M) (j : ℕ) (hj : j < 16) (hj0 : ¬j = 0) :
    ∑ k ∈ Finset.univ.filter (fun k : Fin 16 => k.val ≤ j), f k
      = (∑ k ∈ Finset.univ.filter (fun k : Fin 16 => k.val ≤ j - 1), f k) + f ⟨j, hj⟩ := by
  have : Finset.univ.filter (fun k : Fin 16 => k.val ≤ j) = insert ⟨j, hj⟩ (Finset.univ.filter (fun k : Fin 16 => k.val ≤ j - 1)) := by
    ext k
    rw [Finset.mem_insert, Finset.mem_filter, Finset.mem_filter]
    constructor
    · rintro ⟨-, h⟩
      by_cases hk : k.val = j
      · exact Or.inl (Fin.ext hk)
      · exact Or.inr ⟨Finset.mem_univ _, by omega⟩
    · rintro (rfl | ⟨-, h⟩)
      · exact ⟨Finset.mem_univ _, Nat.le_refl _⟩
      · exact ⟨Finset.mem_univ _, by omega⟩
  have hnot : (⟨j, hj⟩ : Fin 16) ∉ Finset.univ.filter (fun k : Fin 16 => k.val ≤ j - 1) := by
    rw [Finset.mem_filter]
    rintro ⟨-, h⟩
    have : j ≤ j - 1 := h
    omega
  rw [this, Finset.sum_insert hnot, add_comm]

/-- The running sum after point n, by induction on n: a first column block starts from the cleared sum and adds group
    0; a later one continues from the point before, which has the same batch entry and rows and one column block
    less, and adds its own group. -/
theorem accAfter_apply_aux (c : Dev nD) (r : Fin 256) (d : Fin 2048) :
    ∀ (n : ℕ) (hn : n < cfg0.N),
    (accAfter m c n hn (ix2 r d) : EReal)
      = 0 + ∑ k ∈ Finset.univ.filter (fun k : Fin 16 => k.val ≤ n % 16), ∑ l : Fin 512,
          hidden m c (bOf ⟨n, hn⟩) (rowAt ⟨n, hn⟩ r) (Spec.chan k l) * Spec.arr2d (A3 m c) d (Spec.chan k l) := by
  intro n
  induction n with
  | zero =>
    intro hn
    rw [accAfter_first m c ⟨0, hn⟩ rfl, stepAt_apply, pay4_apply, sum_upto_zero _ _ rfl]
    rfl
  | succ n ih =>
    intro hn
    by_cases h : (n + 1) % 16 = 0
    · rw [accAfter_first m c ⟨n + 1, hn⟩ h, stepAt_apply, pay4_apply, sum_upto_zero _ _ h]
      have hc : cbOf ⟨n + 1, hn⟩ = ⟨0, by decide⟩ := Fin.ext h
      rw [hc]
    · rw [accAfter_next m c ⟨n + 1, hn⟩ h, stepAt_apply]
      show (accAfter m c n (Nat.lt_of_succ_lt hn) (ix2 r d) : EReal) + _ = _
      have hb : bOf ⟨n, Nat.lt_of_succ_lt hn⟩ = bOf ⟨n + 1, hn⟩ := Fin.ext (by show n / 128 = (n + 1) / 128; omega)
      have hr : rowAt ⟨n, Nat.lt_of_succ_lt hn⟩ r = rowAt ⟨n + 1, hn⟩ r := Fin.ext (by show n / 16 % 8 * 256 + r.val = (n + 1) / 16 % 8 * 256 + r.val; omega)
      have hm : n % 16 = (n + 1) % 16 - 1 := by omega
      rw [ih, hb, hr, hm, sum_upto_succ _ ((n + 1) % 16) (Nat.mod_lt _ (by decide)) h, add_assoc]
      rfl

/-- After the point at column block k of its row block the running sum holds the groups 0 … k. -/
theorem accAfter_apply (c : Dev nD) (t : Fin cfg0.N) (r : Fin 256) (d : Fin 2048) :
    (accAfter m c t.val t.isLt (ix2 r d) : EReal)
      = 0 + ∑ k ∈ Finset.univ.filter (fun k : Fin 16 => k.val ≤ t.val % 16), ∑ l : Fin 512,
          hidden m c (bOf t) (rowAt t r) (Spec.chan k l) * Spec.arr2d (A3 m c) d (Spec.chan k l) :=
  accAfter_apply_aux m c r d t.val t.isLt

/-- At a last column block the result block's buffer holds the layer's result on the block's rows. -/
theorem outAfter_last (c : Dev nD) (t : Fin cfg0.N) (ht : t.val % 16 = 15) (r : Fin 256) (d : Fin 2048) :
    (outAfter m c t (ix3 (0 : Fin 1) r d) : EReal) = result m c (ix3 (bOf t) (rowAt t r) d) := by
  unfold outAfter
  rw [pay3_apply, accAfter_apply, ht]
  -- every group is at or below the fifteenth, so the sum runs over all sixteen
  have hall : Finset.univ.filter (fun k : Fin 16 => k.val ≤ 15) = Finset.univ :=
    Finset.filter_true_of_mem fun k _ => by have := k.isLt; omega
  rw [hall, zero_add]
  -- which is the grouped down projection of the gated hidden array, read at the index's three coordinates
  rfl

/-- The result window's block index at a point: the batch entry, the row block, and the one block along the model
    axis. -/
theorem idx6 : ∀ t : Fin cfg0.N, win0_6.index t (0 : Fin 3) = t.val / 128 ∧ win0_6.index t (1 : Fin 3) = t.val / 16 % 8
    ∧ win0_6.index t (2 : Fin 3) = 0 :=
  (by decide +kernel : ∀ t : Fin grid0.N, win0_6.index t (0 : Fin 3) = t.val / 128 ∧ win0_6.index t (1 : Fin 3) = t.val / 16 % 8
    ∧ win0_6.index t (2 : Fin 3) = 0)

/-- The result block's buffer after a last column block, at any index of the block. -/
theorem outAfter_at (c : Dev nD) (t : Fin cfg0.N) (ht : t.val % 16 = 15) (y : (⟨3, ![1, 256, 2048]⟩ : Shape).Idx) :
    (outAfter m c t y : EReal) = result m c (ix3 (bOf t) (rowAt t (y 1)) (y 2)) := by
  obtain ⟨a, r, d, rfl⟩ : ∃ (a : Fin 1) (r : Fin 256) (d : Fin 2048), y = ix3 a r d := ⟨y 0, y 1, y 2, eq_ix3 y⟩
  obtain rfl : a = 0 := Subsingleton.elim _ _
  exact outAfter_last m c t ht r d

/-- What a write-back writes is the result array read through the point's block. -/
theorem flushed_eq (c : Dev nD) (t : Fin cfg0.N) (hf : (cfg0.win 6).flush t = true) :
    (dats m 0 c).flushed 6 t = ((cfg0.win 6).blk t).view.read (Elt Ideal) (result m c) := by
  have ht : t.val % 16 = 15 := (flush0_6 t).mp hf
  obtain ⟨e0, e1, e2⟩ := idx6 t
  show (cfg0.win 6).cut (grid0.coords t) ((dats m 0 c).after 6 t) = _
  rw [after_6]
  funext y
  rw [View.read_apply]
  refine (outAfter_at m c t ht y).trans ?_
  -- the block's index (0, r, d) sits in the array at (batch entry, 256 · row block + r, d)
  refine congrArg (result m c) ?_
  funext a
  apply Fin.ext
  match a with
  | ⟨0, _⟩ => show t.val / 128 = win0_6.index t (0 : Fin 3) * 1 + 1 * (y 0).val; have h0 : (y 0).val < 1 := (y 0).isLt; rw [e0]; omega
  | ⟨1, _⟩ => show t.val / 16 % 8 * 256 + (y 1).val = win0_6.index t (1 : Fin 3) * 256 + 1 * (y 1).val; rw [e1]; omega
  | ⟨2, _⟩ => show (y 2).val = win0_6.index t (2 : Fin 3) * 2048 + 1 * (y 2).val; rw [e2]; omega

/-- The written-back blocks cover the result array. -/
theorem cover (c : Dev nD) (i : ((cfg0.win 6).arr.view.loc (c.tc : Thread nD τ)).2.ty.Idx) :
    ∃ t : Fin cfg0.N, (cfg0.win 6).flush t = true ∧ i ∈ ((cfg0.win 6).blk t).view.set := by
  have hN : cfg0.N = 256 := N_0
  have h0 : (i 0).val < 2 := (i 0).isLt
  have h1 : (i 1).val < 2048 := (i 1).isLt
  have h2 : (i 2).val < 2048 := (i 2).isLt
  -- the last column block of the row block that holds row i 1 of batch entry i 0
  obtain ⟨t, htv⟩ : ∃ t : Fin cfg0.N, t.val = (i 0).val * 128 + (i 1).val / 256 * 16 + 15 :=
    ⟨⟨(i 0).val * 128 + (i 1).val / 256 * 16 + 15, by rw [hN]; omega⟩, rfl⟩
  obtain ⟨e0, e1, e2⟩ := idx6 t
  refine ⟨t, (flush0_6 t).mpr (by omega), ?_⟩
  show i ∈ ((View.whole main_v6).slice (win0_6.rect t)).set
  rw [View.set_slice_whole, Rect.mem_set_unit]
  intro a
  match a with
  | ⟨0, _⟩ =>
    show win0_6.index t (0 : Fin 3) * 1 ≤ (i 0).val ∧ (i 0).val < win0_6.index t (0 : Fin 3) * 1 + 1
    rw [e0]; omega
  | ⟨1, _⟩ =>
    show win0_6.index t (1 : Fin 3) * 256 ≤ (i 1).val ∧ (i 1).val < win0_6.index t (1 : Fin 3) * 256 + 256
    rw [e1]; omega
  | ⟨2, _⟩ =>
    show win0_6.index t (2 : Fin 3) * 2048 ≤ (i 2).val ∧ (i 2).val < win0_6.index t (2 : Fin 3) * 2048 + 2048
    rw [e2]; omega

/-- So the result array ends holding the layer's result. -/
theorem final (c : Dev nD) : (dats m 0 c).arrAt 6 cfg0.N = result m c :=
  (dats m 0 c).arrAt_eq_of_cover 6 (result m c) (flushed_eq m c) (cover c)

end Cert.KernelIdeal.Hand

end
-- ==== Proof.lean ====
/-
  The fused gated feed-forward kernel against its reference, over the extended reals.

  Both programs compute, for every batch entry b, sequence row t and model channel d,
      out[b,t,d] = Σ_f  up'[b,t,f] · ( gate'[b,t,f] · σ(gate'[b,t,f]) ) · wd[d,f],
  where gate and up are the projections of the input against two weight matrices, the prime is the causal mixing with
  four per-channel taps and a residual (reading zero before the sequence's start), and σ is the logistic function.
  The reference forms each array whole. The kernel walks a grid of row blocks and hidden-channel groups: it keeps the
  last three projection rows of every channel group for the row block below, adds the taps to the residual one at a
  time, and sums the down projection group by group into a running sum that it copies out after the last group.
  The two differ only in how sums are bracketed and grouped, and addition of extended reals is commutative and
  associative, so the results are equal without any use of finiteness (Spec.lean).

  The kernel's run is proved once, for any float instance (the three forms of the body, the bookkeeping of the
  carried rows and the running sum, the body obligation and the run), and read at the word-level instance for the
  first frame and at the exact instance for the second frame and the value. The reference's run and its stages read
  at an index are imported; RefValue.lean reads its result as the layer of Spec.lean, IdealValue.lean the kernel's.
  The idealization rewrote nothing, so the preservation claim is trivial.
-/
import proofs.«119931_j53343493816972_1_alg».proof.Defs
import proofs.«119931_j53343493816972_1_alg».proof.Proof.Gen.Kernel
import proofs.«119931_j53343493816972_1_alg».proof.Proof.Gen.KernelIdeal
import proofs.«119931_j53343493816972_1_alg».proof.Proof.Gen.ReferenceIdeal
import proofs.«119931_j53343493816972_1_alg».proof.Proof.Gen.Pre_finite_inputs
import proofs.«119931_j53343493816972_1_alg».proof.Proof.BitsBody
import proofs.«119931_j53343493816972_1_alg».proof.Proof.IdealValue
import proofs.«119931_j53343493816972_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the kernel read at the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

open Cert.KernelIdeal Cert.KernelIdeal.Gen in
/-- The kernel ends with its result array at the layer's result over its own arguments, the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v6) = Cert.KernelIdeal.Hand.result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 6).trans (Cert.KernelIdeal.Hand.final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (Cert.KernelIdeal.Hand.run_main (F := Ideal) m ρ)

/-- From memories that agree on the arguments both programs end with the layer's result: the kernel in the
    left-bracketed, grouped form, the reference in the other, and the two forms are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.result m c, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2.1, (hagree c).2.2.2.2]
  exact (Cert.Spec.resultL_eq_resultR _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
